-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_scale" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S256x128 : Shape := ⟨2, ![256, 128]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_
  bcast_S_S600000 : S_.BroadcastsInDim S600000 (![] : Fin 0 → Fin S600000.rank)
  reducesTo_S600000_S_d0 : S600000.ReducesTo [0] S_

variable [Facts]

def fn_part3 {F : FTy → Type} [FloatOps F] (main_arg2 : IVec S600000 32) (main_arg3 : IVec S600000 32) (main_v48 : IVec S_ 1) (main_v50 : IVec S600000 1) : IVec S_ 1 :=
  let main_c_19 : IVec S_ 32 := constantI S_ 32 49999#32
  let main_v51 : IVec S600000 32 := broadcastInDim S600000 ![] bcast_S_S600000 main_c_19
  let main_v52 : IVec S600000 1 := cmpi .sle main_arg2 main_v51
  let main_v53 : IVec S600000 1 := andi main_v50 main_v52
  let main_c_20 : IVec S_ 1 := constantI S_ 1 1#1
  let main_v54 : IVec S_ 1 := (fun x v => Host.reduce IntOp.andi x v reducesTo_S600000_S_d0 h_S_) main_v53 main_c_20
  let main_v55 : IVec S_ 1 := andi main_v48 main_v54
  let main_c_21 : IVec S_ 32 := constantI S_ 32 0#32
  let main_v56 : IVec S600000 32 := broadcastInDim S600000 ![] bcast_S_S600000 main_c_21
  let main_v57 : IVec S600000 1 := cmpi .sge main_arg3 main_v56
  let main_c_22 : IVec S_ 32 := constantI S_ 32 49999#32
  let main_v58 : IVec S600000 32 := broadcastInDim S600000 ![] bcast_S_S600000 main_c_22
  let main_v59 : IVec S600000 1 := cmpi .sle main_arg3 main_v58
  let main_v60 : IVec S600000 1 := andi main_v57 main_v59
  let main_c_23 : IVec S_ 1 := constantI S_ 1 1#1
  let main_v61 : IVec S_ 1 := (fun x v => Host.reduce IntOp.andi x v reducesTo_S600000_S_d0 h_S_) main_v60 main_c_23
  let main_v62 : IVec S_ 1 := andi main_v55 main_v61
  main_v62

def fn_part2 {F : FTy → Type} [FloatOps F] (main_arg2 : IVec S600000 32) (main_arg3 : IVec S600000 32) (main_arg9 : FVec F S128x256 .f32) (main_arg10 : FVec F S256x128 .f32) (main_arg11 : FVec F S128x256 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128x256 .f32 := Host.absf main_arg11
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_c_18 : IVec S_ 32 := constantI S_ 32 0#32
  let main_v49 : IVec S600000 32 := broadcastInDim S600000 ![] bcast_S_S600000 main_c_18
  let main_v50 : IVec S600000 1 := cmpi .sge main_arg2 main_v49
  fn_part3 (F := F) main_arg2 main_arg3 main_v48 main_v50

def fn_part1 {F : FTy → Type} [FloatOps F] (main_arg2 : IVec S600000 32) (main_arg3 : IVec S600000 32) (main_arg6 : FVec F S128x128 .f32) (main_arg7 : FVec F S128x128 .f32) (main_arg8 : FVec F S256x128 .f32) (main_arg9 : FVec F S128x256 .f32) (main_arg10 : FVec F S256x128 .f32) (main_arg11 : FVec F S128x256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg3 main_arg9 main_arg10 main_arg11 main_v33

def fn {F : FTy → Type} [FloatOps F] (main_arg0 : FVec F S50000x128 .f32) (main_arg1 : FVec F S600000x128 .f32) (main_arg2 : IVec S600000 32) (main_arg3 : IVec S600000 32) (main_arg4 : FVec F S128x128 .f32) (main_arg5 : FVec F S128x128 .f32) (main_arg6 : FVec F S128x128 .f32) (main_arg7 : FVec F S128x128 .f32) (main_arg8 : FVec F S256x128 .f32) (main_arg9 : FVec F S128x256 .f32) (main_arg10 : FVec F S256x128 .f32) (main_arg11 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg3 main_arg6 main_arg7 main_arg8 main_arg9 main_arg10 main_arg11 main_v13 main_v16
-- ==== Kernel.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S256x128 : Shape := ⟨2, ![256, 128]⟩
abbrev S128x256 : Shape := ⟨2, ![128, 256]⟩
abbrev S128x384 : Shape := ⟨2, ![128, 384]⟩
abbrev S50000x384 : Shape := ⟨2, ![50000, 384]⟩
abbrev S5000x128 : Shape := ⟨2, ![5000, 128]⟩
abbrev S5000x384 : Shape := ⟨2, ![5000, 384]⟩
abbrev S50000x4x32 : Shape := ⟨3, ![50000, 4, 32]⟩
abbrev S10000x128 : Shape := ⟨2, ![10000, 128]⟩
abbrev S600000x4x32 : Shape := ⟨3, ![600000, 4, 32]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x4x1 : Shape := ⟨3, ![600000, 4, 1]⟩
abbrev S500x4x32 : Shape := ⟨3, ![500, 4, 32]⟩
abbrev S500x4x1 : Shape := ⟨3, ![500, 4, 1]⟩
abbrev S500x4 : Shape := ⟨2, ![500, 4]⟩
abbrev S50000x4x1 : Shape := ⟨3, ![50000, 4, 1]⟩
abbrev S5000x256 : Shape := ⟨2, ![5000, 256]⟩

abbrev nBuf : Space → Nat
  | .hbm => 119
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S256x128, .f32⟩
  | .hbm, ⟨9, _⟩ => ⟨S128x256, .f32⟩
  | .hbm, ⟨10, _⟩ => ⟨S256x128, .f32⟩
  | .hbm, ⟨11, _⟩ => ⟨S128x256, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x384, .f32⟩
  | .hbm, ⟨16, _⟩ => ⟨S50000x384, .f32⟩
  | .hbm, ⟨17, _⟩ => ⟨S50000x128, .f32⟩
  | .hbm, ⟨18, _⟩ => ⟨S50000x4x32, .f32⟩
  | .hbm, ⟨19, _⟩ => ⟨S50000x128, .f32⟩
  | .hbm, ⟨20, _⟩ => ⟨S50000x4x32, .f32⟩
  | .hbm, ⟨21, _⟩ => ⟨S50000x128, .f32⟩
  | .hbm, ⟨22, _⟩ => ⟨S50000x4x32, .f32⟩
  | .hbm, ⟨23, _⟩ => ⟨S128x128, .f32⟩
  | .hbm, ⟨24, _⟩ => ⟨S600000x128, .f32⟩
  | .hbm, ⟨25, _⟩ => ⟨S600000x4x32, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S1, .i32⟩
  | .hbm, ⟨35, _⟩ => ⟨S_, .i32⟩
  | .hbm, ⟨36, _⟩ => ⟨S600000x1, .i32⟩
  | .hbm, ⟨37, _⟩ => ⟨S600000x1, .i1⟩
  | .hbm, ⟨38, _⟩ => ⟨S1x1, .i32⟩
  | .hbm, ⟨39, _⟩ => ⟨S600000x1, .i32⟩
  | .hbm, ⟨40, _⟩ => ⟨S600000x1, .i1⟩
  | .hbm, ⟨41, _⟩ => ⟨S600000x1, .i1⟩
  | .hbm, ⟨42, _⟩ => ⟨S_, .i1⟩
  | .hbm, ⟨43, _⟩ => ⟨S600000, .i1⟩
  | .hbm, ⟨44, _⟩ => ⟨S600000x4x32, .f32⟩
  | .hbm, ⟨45, _⟩ => ⟨S600000x4x32, .i1⟩
  | .hbm, ⟨46, _⟩ => ⟨S_, .f32⟩
  | .hbm, ⟨47, _⟩ => ⟨S600000x4x32, .f32⟩
  | .hbm, ⟨48, _⟩ => ⟨S600000x4x32, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S1, .i32⟩
  | .hbm, ⟨58, _⟩ => ⟨S_, .i32⟩
  | .hbm, ⟨59, _⟩ => ⟨S600000x1, .i32⟩
  | .hbm, ⟨60, _⟩ => ⟨S600000x1, .i1⟩
  | .hbm, ⟨61, _⟩ => ⟨S1x1, .i32⟩
  | .hbm, ⟨62, _⟩ => ⟨S600000x1, .i32⟩
  | .hbm, ⟨63, _⟩ => ⟨S600000x1, .i1⟩
  | .hbm, ⟨64, _⟩ => ⟨S600000x1, .i1⟩
  | .hbm, ⟨65, _⟩ => ⟨S_, .i1⟩
  | .hbm, ⟨66, _⟩ => ⟨S600000, .i1⟩
  | .hbm, ⟨67, _⟩ => ⟨S600000x4x32, .f32⟩
  | .hbm, ⟨68, _⟩ => ⟨S600000x4x32, .i1⟩
  | .hbm, ⟨69, _⟩ => ⟨S_, .f32⟩
  | .hbm, ⟨70, _⟩ => ⟨S600000x4x32, .f32⟩
  | .hbm, ⟨71, _⟩ => ⟨S600000x4x32, .f32⟩
  | .hbm, ⟨72, _⟩ => ⟨S_, .i32⟩
  | .hbm, ⟨73, _⟩ => ⟨S600000, .i32⟩
  | .hbm, ⟨74, _⟩ => ⟨S600000, .i1⟩
  | .hbm, ⟨75, _⟩ => ⟨S_, .i32⟩
  | .hbm, ⟨76, _⟩ => ⟨S600000, .i32⟩
  | .hbm, ⟨77, _⟩ => ⟨S600000, .i32⟩
  | .hbm, ⟨78, _⟩ => ⟨S600000, .i32⟩
  | .hbm, ⟨79, _⟩ => ⟨S600000x1, .i32⟩
  | .hbm, ⟨80, _⟩ => ⟨S1, .i32⟩
  | .hbm, ⟨81, _⟩ => ⟨S_, .i32⟩
  | .hbm, ⟨82, _⟩ => ⟨S600000x1, .i32⟩
  | .hbm, ⟨83, _⟩ => ⟨S600000x1, .i1⟩
  | .hbm, ⟨84, _⟩ => ⟨S1x1, .i32⟩
  | .hbm, ⟨85, _⟩ => ⟨S600000x1, .i32⟩
  | .hbm, ⟨86, _⟩ => ⟨S600000x1, .i1⟩
  | .hbm, ⟨87, _⟩ => ⟨S600000x1, .i1⟩
  | .hbm, ⟨88, _⟩ => ⟨S_, .i1⟩
  | .hbm, ⟨89, _⟩ => ⟨S600000, .i1⟩
  | .hbm, ⟨90, _⟩ => ⟨S600000x4x32, .f32⟩
  | .hbm, ⟨91, _⟩ => ⟨S600000x4x32, .i1⟩
  | .hbm, ⟨92, _⟩ => ⟨S_, .f32⟩
  | .hbm, ⟨93, _⟩ => ⟨S600000x4x32, .f32⟩
  | .hbm, ⟨94, _⟩ => ⟨S600000x4x32, .f32⟩
  | .hbm, ⟨95, _⟩ => ⟨S600000x4x32, .f32⟩
  | .hbm, ⟨96, _⟩ => ⟨S600000x4x1, .f32⟩
  | .hbm, ⟨97, _⟩ => ⟨S600000x4x32, .f32⟩
  | .hbm, ⟨98, _⟩ => ⟨S_, .f32⟩
  | .hbm, ⟨99, _⟩ => ⟨S50000x4x32, .f32⟩
  | .hbm, ⟨100, _⟩ => ⟨S600000x1, .i32⟩
  | .hbm, ⟨101, _⟩ => ⟨S50000x4x32, .f32⟩
  | .hbm, ⟨102, _⟩ => ⟨S_, .f32⟩
  | .hbm, ⟨103, _⟩ => ⟨S50000x4x1, .f32⟩
  | .hbm, ⟨104, _⟩ => ⟨S600000x1, .i32⟩
  | .hbm, ⟨105, _⟩ => ⟨S50000x4x1, .f32⟩
  | .hbm, ⟨106, _⟩ => ⟨S_, .f32⟩
  | .hbm, ⟨107, _⟩ => ⟨S50000x4x1, .f32⟩
  | .hbm, ⟨108, _⟩ => ⟨S50000x4x1, .f32⟩
  | .hbm, ⟨109, _⟩ => ⟨S50000x4x32, .f32⟩
  | .hbm, ⟨110, _⟩ => ⟨S50000x4x32, .f32⟩
  | .hbm, ⟨111, _⟩ => ⟨S50000x128, .f32⟩
  | .hbm, ⟨112, _⟩ => ⟨S128x256, .f32⟩
  | .hbm, ⟨113, _⟩ => ⟨S256x128, .f32⟩
  | .hbm, ⟨114, _⟩ => ⟨S50000x128, .f32⟩
  | .hbm, ⟨115, _⟩ => ⟨S128x256, .f32⟩
  | .hbm, ⟨116, _⟩ => ⟨S256x128, .f32⟩
  | .hbm, ⟨117, _⟩ => ⟨S600000x128, .f32⟩
  | .hbm, ⟨118, _⟩ => ⟨S600000x128, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S5000x384, .f32⟩
  | .local _ .vmem, ⟨4, _⟩ => ⟨S5000x384, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S500x4x32, .f32⟩
  | .local _ .vmem, ⟨11, _⟩ => ⟨S500x4x32, .f32⟩
  | .local _ .vmem, ⟨12, _⟩ => ⟨S500x4x32, .f32⟩
  | .local _ .vmem, ⟨13, _⟩ => ⟨S500x4x32, .f32⟩
  | .local _ .vmem, ⟨14, _⟩ => ⟨S500x4x32, .f32⟩
  | .local _ .vmem, ⟨15, _⟩ => ⟨S500x4x32, .f32⟩
  | .local _ .vmem, ⟨16, _⟩ => ⟨S500x4x32, .f32⟩
  | .local _ .vmem, ⟨17, _⟩ => ⟨S500x4x32, .f32⟩
  | .local _ .vmem, ⟨18, _⟩ => ⟨S500x4x32, .f32⟩
  | .local _ .vmem, ⟨19, _⟩ => ⟨S500x4x32, .f32⟩
  | .local _ .vmem, ⟨20, _⟩ => ⟨S500x4x1, .f32⟩
  | .local _ .vmem, ⟨21, _⟩ => ⟨S500x4x1, .f32⟩
  | .local _ .vmem, ⟨22, _⟩ => ⟨S500x4x32, .f32⟩
  | .local _ .vmem, ⟨23, _⟩ => ⟨S500x4x32, .f32⟩
  | .local _ .vmem, ⟨24, _⟩ => ⟨S5000x128, .f32⟩
  | .local _ .vmem, ⟨25, _⟩ => ⟨S5000x128, .f32⟩
  | .local _ .vmem, ⟨26, _⟩ => ⟨S128x256, .f32⟩
  | .local _ .vmem, ⟨27, _⟩ => ⟨S256x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x256, .f32⟩
  | .local _ .vmem, ⟨33, _⟩ => ⟨S256x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v14 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v15 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v16 : Ref sig .tc := ⟨.hbm, 94, rfl⟩
abbrev main_v17_0 : Ref sig .tc := ⟨.hbm, 95, rfl⟩
abbrev main_v17_1 : Ref sig .tc := ⟨.hbm, 96, rfl⟩
abbrev main_v17_2 : Ref sig .tc := ⟨.hbm, 97, rfl⟩
abbrev main_cst : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst_0 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_1 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1200], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S500x4x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S500x4x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S500x4x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S500x4x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S500x4x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S500x4x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S500x4x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![120], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  transposes_S128x128_S128x128_1_0 : S128x128.Transposes [1, 0] S128x128
  concatenates_S128x128_S128x128_S128x128_S128x384_d1 : Shape.Concatenates [S128x128, S128x128, S128x128] S128x384 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  shapeCasts_S50000x128_S50000x4x32 : S50000x128.ShapeCasts S50000x4x32
  slices_S50000x384_S50000x128_0_128 : S50000x384.Slices ![0, 128] S50000x128
  slices_S50000x384_S50000x128_0_256 : S50000x384.Slices ![0, 256] S50000x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S600000x128_S600000x4x32 : S600000x128.ShapeCasts S600000x4x32
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x4x32_0 : S600000.BroadcastsInDim S600000x4x32 (![0] : Fin 1 → Fin S600000x4x32.rank)
  bcast_S_S600000x4x32 : S_.BroadcastsInDim S600000x4x32 (![] : Fin 0 → Fin S600000x4x32.rank)
  inb_S500x4x32_S500x4x32_0_0_0 : ∀ a, (![0, 0, 0] : Fin 3 → Nat) a + S500x4x32.size a ≤ S500x4x32.size a
  h_S500x4x32 : 0 < S500x4x32.numel
  shapeCasts_S500x4x32_S500x4x32 : S500x4x32.ShapeCasts S500x4x32
  reduces_S500x4x32_S500x4 : S500x4x32.Reduces [2] S500x4
  shapeCasts_S500x4_S500x4x1 : S500x4.ShapeCasts S500x4x1
  inb_S500x4x1_S500x4x1_0_0_0 : ∀ a, (![0, 0, 0] : Fin 3 → Nat) a + S500x4x1.size a ≤ S500x4x1.size a
  h_S500x4x1 : 0 < S500x4x1.numel
  broadcasts_S500x4x1_S500x4x32 : S500x4x1.Broadcasts S500x4x32
  bcast_S_S50000x4x32 : S_.BroadcastsInDim S50000x4x32 (![] : Fin 0 → Fin S50000x4x32.rank)
  bcast_S_S50000x4x1 : S_.BroadcastsInDim S50000x4x1 (![] : Fin 0 → Fin S50000x4x1.rank)
  bcast_S50000x4x1_S50000x4x32_0_1_2 : S50000x4x1.BroadcastsInDim S50000x4x32 (![0, 1, 2] : Fin 3 → Fin S50000x4x32.rank)
  shapeCasts_S50000x4x32_S50000x128 : S50000x4x32.ShapeCasts S50000x128
  transposes_S256x128_S128x256_1_0 : S256x128.Transposes [1, 0] S128x256
  transposes_S128x256_S256x128_1_0 : S128x256.Transposes [1, 0] S256x128
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S600000x4x32_S600000x128 : S600000x4x32.ShapeCasts S600000x128
  dot_S5000x128_S128x384_S5000x384_1_0_0_1_n_n_wf : DotDims.WF S5000x128 S128x384 S5000x384 [1] [0] [0] [1] [] []
  dot_S10000x128_S128x128_S10000x128_1_0_0_1_n_n_wf : DotDims.WF S10000x128 S128x128 S10000x128 [1] [0] [0] [1] [] []
  gather_S50000x4x32_S600000x1_S600000x4x32_12_0_n_n_0_1_1432_wf : GatherDims.WF S50000x4x32 S600000x1 S600000x4x32 [1, 2] [0] [] [0] [] 1 ![1, 4, 32]
  scatter_S50000x4x32_S600000x1_S600000x4x32_12_0_0_1_wf : ScatterDims.WF S50000x4x32 S600000x1 S600000x4x32 [1, 2] [0] [0] 1
  scatter_S50000x4x1_S600000x1_S600000x4x1_12_0_0_1_wf : ScatterDims.WF S50000x4x1 S600000x1 S600000x4x1 [1, 2] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x384.size a ≤ S50000x384.size a
  hwx0_2 : ∀ i : grid0.Coords, EltTy.bits .f32 = 32 ∨ (Rect.block (s := S50000x384) S5000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S600000x128.size a
  hwx1_0 : ∀ i : grid1.Coords, EltTy.bits .f32 = 32 ∨ (Rect.block (s := S600000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S600000x128.size a
  hwx1_2 : ∀ i : grid1.Coords, EltTy.bits .f32 = 32 ∨ (Rect.block (s := S600000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S500x4x32.size a ≤ S600000x4x32.size a
  hwx2_0 : ∀ i : grid2.Coords, EltTy.bits .f32 = 32 ∨ (Rect.block (s := S600000x4x32) S500x4x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S500x4x32.size a ≤ S600000x4x32.size a
  hwx2_1 : ∀ i : grid2.Coords, EltTy.bits .f32 = 32 ∨ (Rect.block (s := S600000x4x32) S500x4x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S500x4x32.size a ≤ S600000x4x32.size a
  hwx2_2 : ∀ i : grid2.Coords, EltTy.bits .f32 = 32 ∨ (Rect.block (s := S600000x4x32) S500x4x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S500x4x32.size a ≤ S600000x4x32.size a
  hwx2_3 : ∀ i : grid2.Coords, EltTy.bits .f32 = 32 ∨ (Rect.block (s := S600000x4x32) S500x4x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S500x4x32.size a ≤ S600000x4x32.size a
  hwx2_4 : ∀ i : grid2.Coords, EltTy.bits .f32 = 32 ∨ (Rect.block (s := S600000x4x32) S500x4x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S500x4x1.size a ≤ S600000x4x1.size a
  hwx2_5 : ∀ i : grid2.Coords, EltTy.bits .f32 = 32 ∨ (Rect.block (s := S600000x4x1) S500x4x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S500x4x32.size a ≤ S600000x4x32.size a
  hwx2_6 : ∀ i : grid2.Coords, EltTy.bits .f32 = 32 ∨ (Rect.block (s := S600000x4x32) S500x4x32.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S600000x128.size a
  hwx4_0 : ∀ i : grid4.Coords, EltTy.bits .f32 = 32 ∨ (Rect.block (s := S600000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S600000x128.size a
  hwx4_3 : ∀ i : grid4.Coords, EltTy.bits .f32 = 32 ∨ (Rect.block (s := S600000x128) S5000x128.size (cc4_transform_3 i) (hinb4_3 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x4x32_S600000x1_S600000x4x32_12_0_n_n_0_1_1432 : GatherDims S50000x4x32 S600000x1 S600000x4x32 where
  offsetDims := [1, 2]
  collapsedSliceDims := [0]
  operandBatchingDims := []
  startIndicesBatchingDims := []
  startIndexMap := [0]
  indexVectorDim := 1
  sliceSizes := ![1, 4, 32]
  wf := gather_S50000x4x32_S600000x1_S600000x4x32_12_0_n_n_0_1_1432_wf
def scatter_S50000x4x32_S600000x1_S600000x4x32_12_0_0_1 : ScatterDims S50000x4x32 S600000x1 S600000x4x32 where
  updateWindowDims := [1, 2]
  insertedWindowDims := [0]
  scatterDimsToOperandDims := [0]
  indexVectorDim := 1
  wf := scatter_S50000x4x32_S600000x1_S600000x4x32_12_0_0_1_wf
def scatter_S50000x4x1_S600000x1_S600000x4x1_12_0_0_1 : ScatterDims S50000x4x1 S600000x1 S600000x4x1 where
  updateWindowDims := [1, 2]
  insertedWindowDims := [0]
  scatterDimsToOperandDims := [0]
  indexVectorDim := 1
  wf := scatter_S50000x4x1_S600000x1_S600000x4x1_12_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S500x4x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S500x4x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S500x4x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S500x4x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v17_0) S500x4x32.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v17_1) S500x4x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v17_2) S500x4x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v28) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v34) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v35) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S256x128 : Shape := ⟨2, ![256, 128]⟩
abbrev S128x256 : Shape := ⟨2, ![128, 256]⟩
abbrev S50000x4x32 : Shape := ⟨3, ![50000, 4, 32]⟩
abbrev S600000x4x32 : Shape := ⟨3, ![600000, 4, 32]⟩
abbrev S_ : Shape := ⟨0, ![]⟩
abbrev S600000x1 : Shape := ⟨2, ![600000, 1]⟩
abbrev S600000x4 : Shape := ⟨2, ![600000, 4]⟩
abbrev S600000x4x1 : Shape := ⟨3, ![600000, 4, 1]⟩
abbrev S50000x4x1 : Shape := ⟨3, ![50000, 4, 1]⟩
abbrev S50000x256 : Shape := ⟨2, ![50000, 256]⟩
abbrev S600000x256 : Shape := ⟨2, ![600000, 256]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S256x128, .f32⟩
  | .hbm, ⟨9, _⟩ => ⟨S128x256, .f32⟩
  | .hbm, ⟨10, _⟩ => ⟨S256x128, .f32⟩
  | .hbm, ⟨11, _⟩ => ⟨S128x256, .f32⟩
  | .hbm, ⟨12, _⟩ => ⟨S128x128, .f32⟩
  | .hbm, ⟨13, _⟩ => ⟨S50000x128, .f32⟩
  | .hbm, ⟨14, _⟩ => ⟨S50000x4x32, .f32⟩
  | .hbm, ⟨15, _⟩ => ⟨S128x128, .f32⟩
  | .hbm, ⟨16, _⟩ => ⟨S50000x128, .f32⟩
  | .hbm, ⟨17, _⟩ => ⟨S50000x4x32, .f32⟩
  | .hbm, ⟨18, _⟩ => ⟨S128x128, .f32⟩
  | .hbm, ⟨19, _⟩ => ⟨S50000x128, .f32⟩
  | .hbm, ⟨20, _⟩ => ⟨S50000x4x32, .f32⟩
  | .hbm, ⟨21, _⟩ => ⟨S128x128, .f32⟩
  | .hbm, ⟨22, _⟩ => ⟨S600000x128, .f32⟩
  | .hbm, ⟨23, _⟩ => ⟨S600000x4x32, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x4x32, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x4x32, .f32⟩
  | .hbm, ⟨42, _⟩ => ⟨S600000x4x32, .f32⟩
  | .hbm, ⟨43, _⟩ => ⟨S_, .f32⟩
  | .hbm, ⟨44, _⟩ => ⟨S600000x4x32, .f32⟩
  | .hbm, ⟨45, _⟩ => ⟨S600000x4x32, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S600000x4x32, .f32⟩
  | .hbm, ⟨50, _⟩ => ⟨S600000x4x32, .f32⟩
  | .hbm, ⟨51, _⟩ => ⟨S_, .f32⟩
  | .hbm, ⟨52, _⟩ => ⟨S600000x4x32, .f32⟩
  | .hbm, ⟨53, _⟩ => ⟨S600000x4x32, .f32⟩
  | .hbm, ⟨54, _⟩ => ⟨S600000x4x32, .f32⟩
  | .hbm, ⟨55, _⟩ => ⟨S_, .f32⟩
  | .hbm, ⟨56, _⟩ => ⟨S600000x4, .f32⟩
  | .hbm, ⟨57, _⟩ => ⟨S600000x4x1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S600000x4x1, .f32⟩
  | .hbm, ⟨62, _⟩ => ⟨S600000x4x1, .f32⟩
  | .hbm, ⟨63, _⟩ => ⟨S_, .f32⟩
  | .hbm, ⟨64, _⟩ => ⟨S600000x4x1, .f32⟩
  | .hbm, ⟨65, _⟩ => ⟨S600000x4x1, .f32⟩
  | .hbm, ⟨66, _⟩ => ⟨S600000x4x1, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x4x32, .f32⟩
  | .hbm, ⟨76, _⟩ => ⟨S600000x4x32, .f32⟩
  | .hbm, ⟨77, _⟩ => ⟨S600000x4x32, .f32⟩
  | .hbm, ⟨78, _⟩ => ⟨S_, .f32⟩
  | .hbm, ⟨79, _⟩ => ⟨S50000x4x32, .f32⟩
  | .hbm, ⟨80, _⟩ => ⟨S600000x1, .i32⟩
  | .hbm, ⟨81, _⟩ => ⟨S50000x4x32, .f32⟩
  | .hbm, ⟨82, _⟩ => ⟨S_, .f32⟩
  | .hbm, ⟨83, _⟩ => ⟨S50000x4x1, .f32⟩
  | .hbm, ⟨84, _⟩ => ⟨S600000x1, .i32⟩
  | .hbm, ⟨85, _⟩ => ⟨S50000x4x1, .f32⟩
  | .hbm, ⟨86, _⟩ => ⟨S_, .f32⟩
  | .hbm, ⟨87, _⟩ => ⟨S50000x4x1, .f32⟩
  | .hbm, ⟨88, _⟩ => ⟨S50000x4x1, .f32⟩
  | .hbm, ⟨89, _⟩ => ⟨S50000x4x32, .f32⟩
  | .hbm, ⟨90, _⟩ => ⟨S50000x4x32, .f32⟩
  | .hbm, ⟨91, _⟩ => ⟨S50000x128, .f32⟩
  | .hbm, ⟨92, _⟩ => ⟨S128x256, .f32⟩
  | .hbm, ⟨93, _⟩ => ⟨S50000x256, .f32⟩
  | .hbm, ⟨94, _⟩ => ⟨S50000x256, .f32⟩
  | .hbm, ⟨95, _⟩ => ⟨S50000x256, .f32⟩
  | .hbm, ⟨96, _⟩ => ⟨S_, .f32⟩
  | .hbm, ⟨97, _⟩ => ⟨S50000x256, .f32⟩
  | .hbm, ⟨98, _⟩ => ⟨S50000x256, .f32⟩
  | .hbm, ⟨99, _⟩ => ⟨S_, .f32⟩
  | .hbm, ⟨100, _⟩ => ⟨S50000x256, .f32⟩
  | .hbm, ⟨101, _⟩ => ⟨S50000x256, .f32⟩
  | .hbm, ⟨102, _⟩ => ⟨S50000x256, .f32⟩
  | .hbm, ⟨103, _⟩ => ⟨S256x128, .f32⟩
  | .hbm, ⟨104, _⟩ => ⟨S50000x128, .f32⟩
  | .hbm, ⟨105, _⟩ => ⟨S600000x128, .f32⟩
  | .hbm, ⟨106, _⟩ => ⟨S128x256, .f32⟩
  | .hbm, ⟨107, _⟩ => ⟨S600000x256, .f32⟩
  | .hbm, ⟨108, _⟩ => ⟨S600000x256, .f32⟩
  | .hbm, ⟨109, _⟩ => ⟨S600000x256, .f32⟩
  | .hbm, ⟨110, _⟩ => ⟨S_, .f32⟩
  | .hbm, ⟨111, _⟩ => ⟨S600000x256, .f32⟩
  | .hbm, ⟨112, _⟩ => ⟨S600000x256, .f32⟩
  | .hbm, ⟨113, _⟩ => ⟨S_, .f32⟩
  | .hbm, ⟨114, _⟩ => ⟨S600000x256, .f32⟩
  | .hbm, ⟨115, _⟩ => ⟨S600000x256, .f32⟩
  | .hbm, ⟨116, _⟩ => ⟨S600000x256, .f32⟩
  | .hbm, ⟨117, _⟩ => ⟨S256x128, .f32⟩
  | .hbm, ⟨118, _⟩ => ⟨S600000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_cst_7 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v33 : Ref sig .tc := ⟨.hbm, 65, rfl⟩
abbrev main_v34 : Ref sig .tc := ⟨.hbm, 66, rfl⟩
abbrev main_c_8 : Ref sig .tc := ⟨.hbm, 67, rfl⟩
abbrev main_v35 : Ref sig .tc := ⟨.hbm, 68, rfl⟩
abbrev main_v36 : Ref sig .tc := ⟨.hbm, 69, rfl⟩
abbrev main_c_9 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_10 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_11 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_12 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_call3_v0 : Ref sig .tc := ⟨.hbm, 108, rfl⟩
abbrev main_call3_v1 : Ref sig .tc := ⟨.hbm, 109, rfl⟩
abbrev main_call3_cst : Ref sig .tc := ⟨.hbm, 110, rfl⟩
abbrev main_call3_v2 : Ref sig .tc := ⟨.hbm, 111, rfl⟩
abbrev main_call3_v3 : Ref sig .tc := ⟨.hbm, 112, rfl⟩
abbrev main_call3_cst_0 : Ref sig .tc := ⟨.hbm, 113, rfl⟩
abbrev main_call3_v4 : Ref sig .tc := ⟨.hbm, 114, rfl⟩
abbrev main_call3_v5 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩

abbrev nD : Nat := 1
abbrev τ : Topo := Topo.v7x

variable {F : FTy → Type} [FloatOps F]

class Facts₀ : Prop where
  transposes_S128x128_S128x128_1_0 : S128x128.Transposes [1, 0] S128x128
  shapeCasts_S50000x128_S50000x4x32 : S50000x128.ShapeCasts S50000x4x32
  shapeCasts_S600000x128_S600000x4x32 : S600000x128.ShapeCasts S600000x4x32
  bcast_S_S600000 : S_.BroadcastsInDim S600000 (![] : Fin 0 → Fin S600000.rank)
  bcast_S600000_S600000x1_0 : S600000.BroadcastsInDim S600000x1 (![0] : Fin 1 → Fin S600000x1.rank)
  bcast_S_S600000x4x32 : S_.BroadcastsInDim S600000x4x32 (![] : Fin 0 → Fin S600000x4x32.rank)
  reducesTo_S600000x4x32_S600000x4_d2 : S600000x4x32.ReducesTo [2] S600000x4
  h_S_ : 0 < S_.numel
  bcast_S600000x4_S600000x4x1_0_1 : S600000x4.BroadcastsInDim S600000x4x1 (![0, 1] : Fin 2 → Fin S600000x4x1.rank)
  bcast_S_S600000x4x1 : S_.BroadcastsInDim S600000x4x1 (![] : Fin 0 → Fin S600000x4x1.rank)
  bcast_S600000x4x1_S600000x4x32_0_1_2 : S600000x4x1.BroadcastsInDim S600000x4x32 (![0, 1, 2] : Fin 3 → Fin S600000x4x32.rank)
  bcast_S_S50000x4x32 : S_.BroadcastsInDim S50000x4x32 (![] : Fin 0 → Fin S50000x4x32.rank)
  bcast_S_S50000x4x1 : S_.BroadcastsInDim S50000x4x1 (![] : Fin 0 → Fin S50000x4x1.rank)
  bcast_S50000x4x1_S50000x4x32_0_1_2 : S50000x4x1.BroadcastsInDim S50000x4x32 (![0, 1, 2] : Fin 3 → Fin S50000x4x32.rank)
  shapeCasts_S50000x4x32_S50000x128 : S50000x4x32.ShapeCasts S50000x128
  transposes_S256x128_S128x256_1_0 : S256x128.Transposes [1, 0] S128x256
  bcast_S_S50000x256 : S_.BroadcastsInDim S50000x256 (![] : Fin 0 → Fin S50000x256.rank)
  transposes_S128x256_S256x128_1_0 : S128x256.Transposes [1, 0] S256x128
  shapeCasts_S600000x4x32_S600000x128 : S600000x4x32.ShapeCasts S600000x128
  bcast_S_S600000x256 : S_.BroadcastsInDim S600000x256 (![] : Fin 0 → Fin S600000x256.rank)
  dot_S50000x128_S128x128_S50000x128_1_0_0_1_n_n_wf : DotDims.WF S50000x128 S128x128 S50000x128 [1] [0] [0] [1] [] []
  dot_S600000x128_S128x128_S600000x128_1_0_0_1_n_n_wf : DotDims.WF S600000x128 S128x128 S600000x128 [1] [0] [0] [1] [] []
  gather_S50000x4x32_S600000x1_S600000x4x32_12_0_n_n_0_1_1432_wf : GatherDims.WF S50000x4x32 S600000x1 S600000x4x32 [1, 2] [0] [] [0] [] 1 ![1, 4, 32]
  scatter_S50000x4x32_S600000x1_S600000x4x32_12_0_0_1_wf : ScatterDims.WF S50000x4x32 S600000x1 S600000x4x32 [1, 2] [0] [0] 1
  scatter_S50000x4x1_S600000x1_S600000x4x1_12_0_0_1_wf : ScatterDims.WF S50000x4x1 S600000x1 S600000x4x1 [1, 2] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  dot_S600000x128_S128x256_S600000x256_1_0_0_1_n_n_wf : DotDims.WF S600000x128 S128x256 S600000x256 [1] [0] [0] [1] [] []
  dot_S600000x256_S256x128_S600000x128_1_0_0_1_n_n_wf : DotDims.WF S600000x256 S256x128 S600000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x4x32_S600000x1_S600000x4x32_12_0_n_n_0_1_1432 : GatherDims S50000x4x32 S600000x1 S600000x4x32 where
  offsetDims := [1, 2]
  collapsedSliceDims := [0]
  operandBatchingDims := []
  startIndicesBatchingDims := []
  startIndexMap := [0]
  indexVectorDim := 1
  sliceSizes := ![1, 4, 32]
  wf := gather_S50000x4x32_S600000x1_S600000x4x32_12_0_n_n_0_1_1432_wf
def scatter_S50000x4x32_S600000x1_S600000x4x32_12_0_0_1 : ScatterDims S50000x4x32 S600000x1 S600000x4x32 where
  updateWindowDims := [1, 2]
  insertedWindowDims := [0]
  scatterDimsToOperandDims := [0]
  indexVectorDim := 1
  wf := scatter_S50000x4x32_S600000x1_S600000x4x32_12_0_0_1_wf
def scatter_S50000x4x1_S600000x1_S600000x4x1_12_0_0_1 : ScatterDims S50000x4x1 S600000x1 S600000x4x1 where
  updateWindowDims := [1, 2]
  insertedWindowDims := [0]
  scatterDimsToOperandDims := [0]
  indexVectorDim := 1
  wf := scatter_S50000x4x1_S600000x1_S600000x4x1_12_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S600000x128_S128x256_S600000x256_1_0_0_1_n_n : DotDims S600000x128 S128x256 S600000x256 where
  lhsContracting := [1]
  rhsContracting := [0]
  lhsNonContracting := [0]
  rhsNonContracting := [1]
  lhsBatch := []
  rhsBatch := []
  wf := dot_S600000x128_S128x256_S600000x256_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf

class Facts : Prop extends Facts₀ where

variable [Facts]
-- ==== Proof.KR0.lean ====
/- Region 0 of the kernel program: the stacked projection. One grid point reads a block of 5000 rows of the
  node features and the whole 128 x 384 stacked weight, and writes the 5000 x 384 block of products.
  Stated at a parameter V (the buffers' contents when the region is entered): the windows' blocks, what the body leaves
  in the output block (its single store, over the whole block), the body's triple, the region's proof data and the
  body obligation at every grid point.
-/
import proofs.«411279_j64037962384024_2_alg».proof.Proof.Gen.Kernel.Launch
import proofs.«411279_j64037962384024_2_alg».proof.Proof.Gen.Kernel.Skeleton
import proofs.«411279_j64037962384024_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each the whole staging buffer. -/
abbrev r0_x : Rect S5000x128 := Rect.unit (s := S5000x128) ![0, 0] S5000x128.size inb_S5000x128_S5000x128_0_0
abbrev r0_w : Rect S128x384 := Rect.unit (s := S128x384) ![0, 0] S128x384.size inb_S128x384_S128x384_0_0
abbrev r0_o : Rect S5000x384 := Rect.unit (s := S5000x384) ![0, 0] S5000x384.size inb_S5000x384_S5000x384_0_0

/-- What the body leaves in the output window's buffer: the one store's payload over the whole buffer. -/
def out0_2 (x0 : Vec F S5000x128 .f32) (x1 : Vec F S128x384 .f32) : Vec F S5000x384 .f32 :=
  View.canon [⟨r0_o, k0_pay1 (View.ld x0 r0_x) (View.ld x1 r0_w)⟩]

theorem cover0_2 (p0 : Vec F S5000x384 .f32) (y : S5000x384.Idx) :
    ∃ pc ∈ ([⟨r0_o, p0⟩] : List (View.Piece (Elt F) S5000x384 .f32)), y ∈ pc.1.set :=
  View.cover_of_tiled [⟨r0_o, p0⟩] S5000x384.size (by rfl) y

set_option maxHeartbeats 1000000 in
/-- The body on whole staging buffers, the inputs' at read contents x0, x1 and the output's at anything, runs to the
    continuation holding the inputs as they were and the output at out0_2 of the inputs. -/
theorem sound_kernel0 (c : Dev nD) (E : Set ℕ) (i : grid0.Coords) (arg1 : Memref sig .tc .vmem S5000x128 .f32) (harg1 : arg1.IsWhole)
    (arg2 : Memref sig .tc .vmem S128x384 .f32) (harg2 : arg2.IsWhole) (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core c: the arrays as the region finds them; after the body at point t each input's
    buffer at its block and the output's at out0_2 of the input blocks; nothing carried, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1.lean ====
/- Region 1 of the kernel program: the edge projection. One grid point reads a block of 10000 rows of the
  edge features and the whole 128 x 128 weight, and writes the 10000 x 128 block of products.
  Stated at a parameter V (the buffers' contents when the region is entered): the windows' blocks, what the body leaves
  in the output block (its single store, over the whole block), the body's triple, the region's proof data and the
  body obligation at every one of the 60 grid points.
-/
import proofs.«411279_j64037962384024_2_alg».proof.Proof.Gen.Kernel.Launch
import proofs.«411279_j64037962384024_2_alg».proof.Proof.Gen.Kernel.Skeleton
import proofs.«411279_j64037962384024_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point: the row block is fetched at each point,
    the weight at the first point only and its block index never moves afterwards. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through: each the whole staging buffer. -/
abbrev r1_x : Rect S10000x128 := Rect.unit (s := S10000x128) ![0, 0] S10000x128.size inb_S10000x128_S10000x128_0_0
abbrev r1_w : Rect S128x128 := Rect.unit (s := S128x128) ![0, 0] S128x128.size inb_S128x128_S128x128_0_0
abbrev r1_o : Rect S10000x128 := Rect.unit (s := S10000x128) ![0, 0] S10000x128.size inb_S10000x128_S10000x128_0_0

/-- What the body leaves in the output window's buffer: the one store's payload over the whole buffer. -/
def out1_2 (x0 : Vec F S10000x128 .f32) (x1 : Vec F S128x128 .f32) : Vec F S10000x128 .f32 :=
  View.canon [⟨r1_o, k1_pay1 (View.ld x0 r1_x) (View.ld x1 r1_w)⟩]

theorem cover1_2 (p0 : Vec F S10000x128 .f32) (y : S10000x128.Idx) :
    ∃ pc ∈ ([⟨r1_o, p0⟩] : List (View.Piece (Elt F) S10000x128 .f32)), y ∈ pc.1.set :=
  View.cover_of_tiled [⟨r1_o, p0⟩] S10000x128.size (by rfl) y

set_option maxHeartbeats 1000000 in
/-- The body on whole staging buffers, the inputs' at read contents x0, x1 and the output's at anything, runs to the
    continuation holding the inputs as they were and the output at out1_2 of the inputs. -/
theorem sound_kernel1 (c : Dev nD) (E : Set ℕ) (i : grid1.Coords) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core c: the arrays as the region finds them; after the body at point t each input's
    buffer at its block and the output's at out1_2 of the input blocks; nothing carried, nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is handed at point t: the region's invariant and debts, and each window's current staging buffer
    at what the pipeline put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back at point t: the same invariant and debts, and each staging buffer at its after value. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KR2.lean ====
/- Region 2 of the kernel program: the per-edge attention scores. One grid point reads a block of 500 edges
  (4 heads, 32 channels) of each of the gathered keys, the gathered queries, the gathered values and the projected
  edge features, and writes three blocks: the per-channel score (the clipped scaled product of key and query, times
  the edge projection), its clipped exponentiated sum over the channels (one number per edge and head), and the
  values weighted by that number.
  Stated at a parameter V (the buffers' contents when the region is entered): the windows' blocks, what the body leaves
  in each output block (one store each, over the whole block), the body's triple, the region's proof data and the
  body obligation at every grid point.
-/
import proofs.«411279_j64037962384024_2_alg».proof.Proof.Gen.Kernel.Launch
import proofs.«411279_j64037962384024_2_alg».proof.Proof.Gen.Kernel.Skeleton
import proofs.«411279_j64037962384024_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through: each the whole staging buffer. -/
abbrev r2_a : Rect S500x4x32 := Rect.unit (s := S500x4x32) ![0, 0, 0] S500x4x32.size inb_S500x4x32_S500x4x32_0_0_0
abbrev r2_s : Rect S500x4x1 := Rect.unit (s := S500x4x1) ![0, 0, 0] S500x4x1.size inb_S500x4x1_S500x4x1_0_0_0

/-- What the body leaves in the score window's buffer: the first store's payload over the whole buffer. -/
def out2_4 (x0 x1 x2 x3 : Vec F S500x4x32 .f32) : Vec F S500x4x32 .f32 :=
  View.canon [⟨r2_a, k2_pay1 (View.ld x0 r2_a) (View.ld x1 r2_a) (View.ld x3 r2_a)⟩]

/-- What the body leaves in the summed-score window's buffer: the second store's payload over the whole buffer. -/
def out2_5 (x0 x1 x2 x3 : Vec F S500x4x32 .f32) : Vec F S500x4x1 .f32 :=
  View.canon [⟨r2_s, k2_pay2 (View.ld x0 r2_a) (View.ld x1 r2_a) (View.ld x3 r2_a)⟩]

/-- What the body leaves in the weighted-values window's buffer: the third store's payload over the whole buffer. -/
def out2_6 (x0 x1 x2 x3 : Vec F S500x4x32 .f32) : Vec F S500x4x32 .f32 :=
  View.canon [⟨r2_a, k2_pay3 (View.ld x0 r2_a) (View.ld x1 r2_a) (View.ld x3 r2_a) (View.ld x2 r2_a)⟩]

theorem cover2_a (p0 : Vec F S500x4x32 .f32) (y : S500x4x32.Idx) :
    ∃ pc ∈ ([⟨r2_a, p0⟩] : List (View.Piece (Elt F) S500x4x32 .f32)), y ∈ pc.1.set :=
  View.cover_of_tiled [⟨r2_a, p0⟩] S500x4x32.size (by rfl) y

theorem cover2_s (p0 : Vec F S500x4x1 .f32) (y : S500x4x1.Idx) :
    ∃ pc ∈ ([⟨r2_s, p0⟩] : List (View.Piece (Elt F) S500x4x1 .f32)), y ∈ pc.1.set :=
  View.cover_of_tiled [⟨r2_s, p0⟩] S500x4x1.size (by rfl) y

set_option maxHeartbeats 4000000 in
/-- The body on whole staging buffers, the inputs' at read contents x0 .. x3 and the outputs' at anything, runs to the
    continuation holding the inputs as they were and each output at its out2 of the inputs. -/
theorem sound_kernel2 (c : Dev nD) (E : Set ℕ) (i : grid2.Coords) (arg1 : Memref sig .tc .vmem S500x4x32 .f32) (harg1 : arg1.IsWhole)
    (arg2 : Memref sig .tc .vmem S500x4x32 .f32) (harg2 : arg2.IsWhole)
    (arg3 : Memref sig .tc .vmem S500x4x32 .f32) (harg3 : arg3.IsWhole)
    (arg4 : Memref sig .tc .vmem S500x4x32 .f32) (harg4 : arg4.IsWhole)
    (arg5 : Memref sig .tc .vmem S500x4x32 .f32) (harg5 : arg5.IsWhole)
    (arg6 : Memref sig .tc .vmem S500x4x1 .f32) (harg6 : arg6.IsWhole)
    (arg7 : Memref sig .tc .vmem S500x4x32 .f32) (harg7 : arg7.IsWhole)
    (x0 x1 x2 x3 : Vec F S500x4x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out2_4 x0 x1 x2 x3) ∗ owns (c : Thread nD τ) arg6 fullShare (out2_5 x0 x1 x2 x3) ∗ owns (c : Thread nD τ) arg7 fullShare (out2_6 x0 x1 x2 x3)) -∗ K ⟨⟩))
      ⊢ wp frame (wpE (defs₀ (F := F)) Variants.none c none) E (cc2__score_kernel i arg1 harg1 arg2 harg2 arg3 harg3 arg4 harg4 arg5 harg5 arg6 harg6 arg7 harg7) K := by
  simp only [cc2__score_kernel_eq_skeleton]; unfold cc2__score_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_a _)
  isplitl [H5]
  · iexists _; isplitr
    swap; · iexact H5
    ipureintro
    exact View.read_writes_eq_canon _ _ _ (cover2_s _)
  iexists _; isplitr
  swap; · iexact H6
  ipureintro
  exact View.read_writes_eq_canon _ _ _ (cover2_a _)

/-- The region's proof data on core c: the arrays as the region finds them; after the body at point t each input's
    buffer at its block and each output's at its out2 of the input blocks; nothing carried, nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KR3.lean ====
/- Region 3 of the kernel program: the node feed-forward network. One grid point reads a block of 5000 rows of the
  normalized attention output, the whole 128 x 256 first weight and the whole 256 x 128 second weight, and writes the
  5000 x 128 block of the second product of the gated hidden layer.
  Stated at a parameter V (the buffers' contents when the region is entered): the windows' blocks, what the body leaves
  in the output block (its single store, over the whole block), the body's triple, the region's proof data and the
  body obligation at every one of the 10 grid points.
-/
import proofs.«411279_j64037962384024_2_alg».proof.Proof.Gen.Kernel.Launch
import proofs.«411279_j64037962384024_2_alg».proof.Proof.Gen.Kernel.Skeleton
import proofs.«411279_j64037962384024_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point: the row block is fetched at each point,
    the two weights at the first point only and their block indices never move afterwards. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads and stores through: each the whole staging buffer. -/
abbrev r3_x : Rect S5000x128 := Rect.unit (s := S5000x128) ![0, 0] S5000x128.size inb_S5000x128_S5000x128_0_0
abbrev r3_w1 : Rect S128x256 := Rect.unit (s := S128x256) ![0, 0] S128x256.size inb_S128x256_S128x256_0_0
abbrev r3_w2 : Rect S256x128 := Rect.unit (s := S256x128) ![0, 0] S256x128.size inb_S256x128_S256x128_0_0
abbrev r3_o : Rect S5000x128 := Rect.unit (s := S5000x128) ![0, 0] S5000x128.size inb_S5000x128_S5000x128_0_0

/-- What the body leaves in the output window's buffer: the one store's payload over the whole buffer. -/
def out3_3 (x0 : Vec F S5000x128 .f32) (x1 : Vec F S128x256 .f32) (x2 : Vec F S256x128 .f32) : Vec F S5000x128 .f32 :=
  View.canon [⟨r3_o, k3_pay1 (View.ld x0 r3_x) (View.ld x1 r3_w1) (View.ld x2 r3_w2)⟩]

theorem cover3_3 (p0 : Vec F S5000x128 .f32) (y : S5000x128.Idx) :
    ∃ pc ∈ ([⟨r3_o, p0⟩] : List (View.Piece (Elt F) S5000x128 .f32)), y ∈ pc.1.set :=
  View.cover_of_tiled [⟨r3_o, p0⟩] S5000x128.size (by rfl) y

set_option maxHeartbeats 1000000 in
/-- The body on whole staging buffers, the inputs' at read contents x0, x1, x2 and the output's at anything, runs to
    the continuation holding the inputs as they were and the output at out3_3 of the inputs. -/
theorem sound_kernel3 (c : Dev nD) (E : Set ℕ) (i : grid3.Coords) (arg1 : Memref sig .tc .vmem S5000x128 .f32) (harg1 : arg1.IsWhole)
    (arg2 : Memref sig .tc .vmem S128x256 .f32) (harg2 : arg2.IsWhole) (arg3 : Memref sig .tc .vmem S256x128 .f32) (harg3 : arg3.IsWhole)
    (arg4 : Memref sig .tc .vmem S5000x128 .f32) (harg4 : arg4.IsWhole)
    (x0 : Vec F S5000x128 .f32) (x1 : Vec F S128x256 .f32) (x2 : Vec F S256x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__ffn_kernel i arg1 harg1 arg2 harg2 arg3 harg3 arg4 harg4) K := by
  simp only [cc3__ffn_kernel_eq_skeleton]; unfold cc3__ffn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's proof data on core c: the arrays as the region finds them; after the body at point t each input's
    buffer at its block and the output's at out3_3 of the input blocks; nothing carried, nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is handed at point t: the region's invariant and debts, and each window's current staging buffer
    at what the pipeline put there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What the body hands back at point t: the same invariant and debts, and each staging buffer at its after value. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KR4.lean ====
/- Region 4 of the kernel program: the edge feed-forward network. One grid point reads a block of 5000 rows of the
  edge scores, the whole 128 x 256 first weight and the whole 256 x 128 second weight, and writes the 5000 x 128 block
  of the second product of the gated hidden layer.
  Stated at a parameter V (the buffers' contents when the region is entered): the windows' blocks, what the body leaves
  in the output block (its single store, over the whole block), the body's triple, the region's proof data and the
  body obligation at every one of the 120 grid points.
-/
import proofs.«411279_j64037962384024_2_alg».proof.Proof.Gen.Kernel.Launch
import proofs.«411279_j64037962384024_2_alg».proof.Proof.Gen.Kernel.Skeleton
import proofs.«411279_j64037962384024_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every point: the row block is fetched at each point,
    the two weights at the first point only and their block indices never move afterwards. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body loads and stores through: each the whole staging buffer. -/
abbrev r4_x : Rect S5000x128 := Rect.unit (s := S5000x128) ![0, 0] S5000x128.size inb_S5000x128_S5000x128_0_0
abbrev r4_w1 : Rect S128x256 := Rect.unit (s := S128x256) ![0, 0] S128x256.size inb_S128x256_S128x256_0_0
abbrev r4_w2 : Rect S256x128 := Rect.unit (s := S256x128) ![0, 0] S256x128.size inb_S256x128_S256x128_0_0
abbrev r4_o : Rect S5000x128 := Rect.unit (s := S5000x128) ![0, 0] S5000x128.size inb_S5000x128_S5000x128_0_0

/-- What the body leaves in the output window's buffer: the one store's payload over the whole buffer. -/
def out4_3 (x0 : Vec F S5000x128 .f32) (x1 : Vec F S128x256 .f32) (x2 : Vec F S256x128 .f32) : Vec F S5000x128 .f32 :=
  View.canon [⟨r4_o, k4_pay1 (View.ld x0 r4_x) (View.ld x1 r4_w1) (View.ld x2 r4_w2)⟩]

theorem cover4_3 (p0 : Vec F S5000x128 .f32) (y : S5000x128.Idx) :
    ∃ pc ∈ ([⟨r4_o, p0⟩] : List (View.Piece (Elt F) S5000x128 .f32)), y ∈ pc.1.set :=
  View.cover_of_tiled [⟨r4_o, p0⟩] S5000x128.size (by rfl) y

set_option maxHeartbeats 1000000 in
/-- The body on whole staging buffers, the inputs' at read contents x0, x1, x2 and the output's at anything, runs to
    the continuation holding the inputs as they were and the output at out4_3 of the inputs. -/
theorem sound_kernel4 (c : Dev nD) (E : Set ℕ) (i : grid4.Coords) (arg1 : Memref sig .tc .vmem S5000x128 .f32) (harg1 : arg1.IsWhole)
    (arg2 : Memref sig .tc .vmem S128x256 .f32) (harg2 : arg2.IsWhole) (arg3 : Memref sig .tc .vmem S256x128 .f32) (harg3 : arg3.IsWhole)
    (arg4 : Memref sig .tc .vmem S5000x128 .f32) (harg4 : arg4.IsWhole)
    (x0 : Vec F S5000x128 .f32) (x1 : Vec F S128x256 .f32) (x2 : Vec F S256x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__ffn_kernel i arg1 harg1 arg2 harg2 arg3 harg3 arg4 harg4) K := by
  simp only [cc4__ffn_kernel_eq_skeleton]; unfold cc4__ffn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's proof data on core c: the arrays as the region finds them; after the body at point t each input's
    buffer at its block and the output's at out4_3 of the input blocks; nothing carried, nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is handed at point t: the region's invariant and debts, and each window's current staging buffer
    at what the pipeline put there. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- What the body hands back at point t: the same invariant and debts, and each staging buffer at its after value. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KRun.lean ====
/- The run of the program: thirteen items in order, host stretches and the five pallas_call regions.
  The buffers' contents at every boundary are a fold from the launch memory: a host stretch applies its operations;
  a region leaves each of its windows' arrays at what its write-backs fold to and every other buffer as it was.
  Each region is a segment entered from "every unscoped buffer at the boundary's contents" and left at the next
  boundary's; the launch theorem for a list of segments then gives: every weakly fair execution ends, and in every
  final memory every unscoped buffer holds the last boundary's contents. No item writes an argument.
-/
import proofs.«411279_j64037962384024_2_alg».proof.Proof.KR0
import proofs.«411279_j64037962384024_2_alg».proof.Proof.KR1
import proofs.«411279_j64037962384024_2_alg».proof.Proof.KR2
import proofs.«411279_j64037962384024_2_alg».proof.Proof.KR3
import proofs.«411279_j64037962384024_2_alg».proof.Proof.KR4
import proofs.«411279_j64037962384024_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m (c, b)
/-- After the host stretch hostOps0. -/
abbrev W1 : Dev nD → Valuation τ sig (Elt F) := fun c => StableHlo.after hostOps0 (W0 m c)
/-- The same read at the core's references: what the next region's proof data take. -/
abbrev Vin1 : (c : Dev nD) → (b : Ref sig .tc) → Buf (Elt F) ((c : Thread nD τ).loc b) := fun c b => W1 m c b
/-- At region 0's exit: its windows' arrays at what the write-backs fold to, every other buffer as entered. -/
def W2 (c : Dev nD) : Valuation τ sig (Elt F) :=
  Pipeline.withArrays spec0 c (W1 m c) fun w => (dat0 (Vin1 m) c).arrAt w cfg0.N
theorem W2_arr (c : Dev nD) (w : Fin cfg0.W) :
    W2 m c (Proc.devRef .tc (Pipeline.arrRef spec0 w)) = (dat0 (Vin1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vout2 : (c : Dev nD) → (b : Ref sig .tc) → Buf (Elt F) ((c : Thread nD τ).loc b) := fun c b => W2 m c b
theorem hF0 (c : Dev nD) (w : Fin cfg0.W) : (dat0 (Vin1 m) c).arrAt w cfg0.N = Vout2 m c (Pipeline.arrRef spec0 w) :=
  (W2_arr m c w).symm
theorem hrest0 (c : Dev nD) : ∀ b, b ∉ Finset.univ.image (Pipeline.arrRef spec0) → Vout2 m c b = Vin1 m c b :=
  fun b hb => W2_of_ne m c b fun w e => hb (Finset.mem_image.mpr ⟨w, Finset.mem_univ _, e⟩)
/-- A buffer the region does not write back into holds at the exit what it held at the entry: an input window's array by
    the fold of no write-back, any other buffer by not being a window's array. -/
theorem W2_keep (c : Dev nD) (b : Ref sig .tc) (hb : b ∉ ([main_v4] : List (Ref sig .tc))) :
    W2 m c (Proc.devRef .tc b) = W1 m c (Proc.devRef .tc b) := by
  by_cases h0 : b = main_arg0
  · subst h0; exact (W2_arr m c 0).trans (((dat0 (Vin1 m) c).arrAt_in 0 rfl _).trans (A_eq0 (Vin1 m) c 0))
  by_cases h1 : b = main_v3
  · subst h1; exact (W2_arr m c 1).trans (((dat0 (Vin1 m) c).arrAt_in 1 rfl _).trans (A_eq0 (Vin1 m) c 1))
  refine W2_of_ne m c b fun w => ?_
  match w with
  | ⟨0, _⟩ => exact fun e => h0 e.symm
  | ⟨1, _⟩ => exact fun e => h1 e.symm
  | ⟨2, _⟩ => exact fun e => hb (by rw [← e]; exact (by decide : (main_v4 : Ref sig .tc) ∈ ([main_v4] : List (Ref sig .tc))))
/-- After the host stretch hostOps1. -/
abbrev W3 : Dev nD → Valuation τ sig (Elt F) := fun c => StableHlo.after hostOps1 (W2 m c)
/-- The same read at the core's references: what the next region's proof data take. -/
abbrev Vin3 : (c : Dev nD) → (b : Ref sig .tc) → Buf (Elt F) ((c : Thread nD τ).loc b) := fun c b => W3 m c b
/-- At region 1's exit: its windows' arrays at what the write-backs fold to, every other buffer as entered. -/
def W4 (c : Dev nD) : Valuation τ sig (Elt F) :=
  Pipeline.withArrays spec1 c (W3 m c) fun w => (dat1 (Vin3 m) c).arrAt w cfg1.N
theorem W4_arr (c : Dev nD) (w : Fin cfg1.W) :
    W4 m c (Proc.devRef .tc (Pipeline.arrRef spec1 w)) = (dat1 (Vin3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vout4 : (c : Dev nD) → (b : Ref sig .tc) → Buf (Elt F) ((c : Thread nD τ).loc b) := fun c b => W4 m c b
theorem hF1 (c : Dev nD) (w : Fin cfg1.W) : (dat1 (Vin3 m) c).arrAt w cfg1.N = Vout4 m c (Pipeline.arrRef spec1 w) :=
  (W4_arr m c w).symm
theorem hrest1 (c : Dev nD) : ∀ b, b ∉ Finset.univ.image (Pipeline.arrRef spec1) → Vout4 m c b = Vin3 m c b :=
  fun b hb => W4_of_ne m c b fun w e => hb (Finset.mem_image.mpr ⟨w, Finset.mem_univ _, e⟩)
/-- A buffer the region does not write back into holds at the exit what it held at the entry: an input window's array by
    the fold of no write-back, any other buffer by not being a window's array. -/
theorem W4_keep (c : Dev nD) (b : Ref sig .tc) (hb : b ∉ ([main_v12] : List (Ref sig .tc))) :
    W4 m c (Proc.devRef .tc b) = W3 m c (Proc.devRef .tc b) := by
  by_cases h0 : b = main_arg1
  · subst h0; exact (W4_arr m c 0).trans (((dat1 (Vin3 m) c).arrAt_in 0 rfl _).trans (A_eq1 (Vin3 m) c 0))
  by_cases h1 : b = main_v11
  · subst h1; exact (W4_arr m c 1).trans (((dat1 (Vin3 m) c).arrAt_in 1 rfl _).trans (A_eq1 (Vin3 m) c 1))
  refine W4_of_ne m c b fun w => ?_
  match w with
  | ⟨0, _⟩ => exact fun e => h0 e.symm
  | ⟨1, _⟩ => exact fun e => h1 e.symm
  | ⟨2, _⟩ => exact fun e => hb (by rw [← e]; exact (by decide : (main_v12 : Ref sig .tc) ∈ ([main_v12] : List (Ref sig .tc))))
/-- After the host stretch hostOps2. -/
abbrev W5 : Dev nD → Valuation τ sig (Elt F) := fun c => StableHlo.after hostOps2 (W4 m c)
/-- After the host stretch hostOps2_1. -/
abbrev W6 : Dev nD → Valuation τ sig (Elt F) := fun c => StableHlo.after hostOps2_1 (W5 m c)
/-- After the host stretch hostOps2_2. -/
abbrev W7 : Dev nD → Valuation τ sig (Elt F) := fun c => StableHlo.after hostOps2_2 (W6 m c)
/-- After the host stretch hostOps2_3. -/
abbrev W8 : Dev nD → Valuation τ sig (Elt F) := fun c => StableHlo.after hostOps2_3 (W7 m c)
/-- The same read at the core's references: what the next region's proof data take. -/
abbrev Vin8 : (c : Dev nD) → (b : Ref sig .tc) → Buf (Elt F) ((c : Thread nD τ).loc b) := fun c b => W8 m c b
/-- At region 2's exit: its windows' arrays at what the write-backs fold to, every other buffer as entered. -/
def W9 (c : Dev nD) : Valuation τ sig (Elt F) :=
  Pipeline.withArrays spec2 c (W8 m c) fun w => (dat2 (Vin8 m) c).arrAt w cfg2.N
theorem W9_arr (c : Dev nD) (w : Fin cfg2.W) :
    W9 m c (Proc.devRef .tc (Pipeline.arrRef spec2 w)) = (dat2 (Vin8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev Vout9 : (c : Dev nD) → (b : Ref sig .tc) → Buf (Elt F) ((c : Thread nD τ).loc b) := fun c b => W9 m c b
theorem hF2 (c : Dev nD) (w : Fin cfg2.W) : (dat2 (Vin8 m) c).arrAt w cfg2.N = Vout9 m c (Pipeline.arrRef spec2 w) :=
  (W9_arr m c w).symm
theorem hrest2 (c : Dev nD) : ∀ b, b ∉ Finset.univ.image (Pipeline.arrRef spec2) → Vout9 m c b = Vin8 m c b :=
  fun b hb => W9_of_ne m c b fun w e => hb (Finset.mem_image.mpr ⟨w, Finset.mem_univ _, e⟩)
/-- A buffer the region does not write back into holds at the exit what it held at the entry: an input window's array by
    the fold of no write-back, any other buffer by not being a window's array. -/
theorem W9_keep (c : Dev nD) (b : Ref sig .tc) (hb : b ∉ ([main_v17_0, main_v17_1, main_v17_2] : List (Ref sig .tc))) :
    W9 m c (Proc.devRef .tc b) = W8 m c (Proc.devRef .tc b) := by
  by_cases h0 : b = main_v14
  · subst h0; exact (W9_arr m c 0).trans (((dat2 (Vin8 m) c).arrAt_in 0 rfl _).trans (A_eq2 (Vin8 m) c 0))
  by_cases h1 : b = main_v15
  · subst h1; exact (W9_arr m c 1).trans (((dat2 (Vin8 m) c).arrAt_in 1 rfl _).trans (A_eq2 (Vin8 m) c 1))
  by_cases h2 : b = main_v16
  · subst h2; exact (W9_arr m c 2).trans (((dat2 (Vin8 m) c).arrAt_in 2 rfl _).trans (A_eq2 (Vin8 m) c 2))
  by_cases h3 : b = main_v13
  · subst h3; exact (W9_arr m c 3).trans (((dat2 (Vin8 m) c).arrAt_in 3 rfl _).trans (A_eq2 (Vin8 m) c 3))
  refine W9_of_ne m c b fun w => ?_
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => hb (by rw [← e]; exact (by decide : (main_v17_0 : Ref sig .tc) ∈ ([main_v17_0, main_v17_1, main_v17_2] : List (Ref sig .tc))))
  | ⟨5, _⟩ => exact fun e => hb (by rw [← e]; exact (by decide : (main_v17_1 : Ref sig .tc) ∈ ([main_v17_0, main_v17_1, main_v17_2] : List (Ref sig .tc))))
  | ⟨6, _⟩ => exact fun e => hb (by rw [← e]; exact (by decide : (main_v17_2 : Ref sig .tc) ∈ ([main_v17_0, main_v17_1, main_v17_2] : List (Ref sig .tc))))
/-- After the host stretch hostOps3. -/
abbrev W10 : Dev nD → Valuation τ sig (Elt F) := fun c => StableHlo.after hostOps3 (W9 m c)
/-- The same read at the core's references: what the next region's proof data take. -/
abbrev Vin10 : (c : Dev nD) → (b : Ref sig .tc) → Buf (Elt F) ((c : Thread nD τ).loc b) := fun c b => W10 m c b
/-- At region 3's exit: its windows' arrays at what the write-backs fold to, every other buffer as entered. -/
def W11 (c : Dev nD) : Valuation τ sig (Elt F) :=
  Pipeline.withArrays spec3 c (W10 m c) fun w => (dat3 (Vin10 m) c).arrAt w cfg3.N
theorem W11_arr (c : Dev nD) (w : Fin cfg3.W) :
    W11 m c (Proc.devRef .tc (Pipeline.arrRef spec3 w)) = (dat3 (Vin10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
abbrev Vout11 : (c : Dev nD) → (b : Ref sig .tc) → Buf (Elt F) ((c : Thread nD τ).loc b) := fun c b => W11 m c b
theorem hF3 (c : Dev nD) (w : Fin cfg3.W) : (dat3 (Vin10 m) c).arrAt w cfg3.N = Vout11 m c (Pipeline.arrRef spec3 w) :=
  (W11_arr m c w).symm
theorem hrest3 (c : Dev nD) : ∀ b, b ∉ Finset.univ.image (Pipeline.arrRef spec3) → Vout11 m c b = Vin10 m c b :=
  fun b hb => W11_of_ne m c b fun w e => hb (Finset.mem_image.mpr ⟨w, Finset.mem_univ _, e⟩)
/-- A buffer the region does not write back into holds at the exit what it held at the entry: an input window's array by
    the fold of no write-back, any other buffer by not being a window's array. -/
theorem W11_keep (c : Dev nD) (b : Ref sig .tc) (hb : b ∉ ([main_v31] : List (Ref sig .tc))) :
    W11 m c (Proc.devRef .tc b) = W10 m c (Proc.devRef .tc b) := by
  by_cases h0 : b = main_v28
  · subst h0; exact (W11_arr m c 0).trans (((dat3 (Vin10 m) c).arrAt_in 0 rfl _).trans (A_eq3 (Vin10 m) c 0))
  by_cases h1 : b = main_v29
  · subst h1; exact (W11_arr m c 1).trans (((dat3 (Vin10 m) c).arrAt_in 1 rfl _).trans (A_eq3 (Vin10 m) c 1))
  by_cases h2 : b = main_v30
  · subst h2; exact (W11_arr m c 2).trans (((dat3 (Vin10 m) c).arrAt_in 2 rfl _).trans (A_eq3 (Vin10 m) c 2))
  refine W11_of_ne m c b fun w => ?_
  match w with
  | ⟨0, _⟩ => exact fun e => h0 e.symm
  | ⟨1, _⟩ => exact fun e => h1 e.symm
  | ⟨2, _⟩ => exact fun e => h2 e.symm
  | ⟨3, _⟩ => exact fun e => hb (by rw [← e]; exact (by decide : (main_v31 : Ref sig .tc) ∈ ([main_v31] : List (Ref sig .tc))))
/-- After the host stretch hostOps4. -/
abbrev W12 : Dev nD → Valuation τ sig (Elt F) := fun c => StableHlo.after hostOps4 (W11 m c)
/-- The same read at the core's references: what the next region's proof data take. -/
abbrev Vin12 : (c : Dev nD) → (b : Ref sig .tc) → Buf (Elt F) ((c : Thread nD τ).loc b) := fun c b => W12 m c b
/-- At region 4's exit: its windows' arrays at what the write-backs fold to, every other buffer as entered. -/
def W13 (c : Dev nD) : Valuation τ sig (Elt F) :=
  Pipeline.withArrays spec4 c (W12 m c) fun w => (dat4 (Vin12 m) c).arrAt w cfg4.N
theorem W13_arr (c : Dev nD) (w : Fin cfg4.W) :
    W13 m c (Proc.devRef .tc (Pipeline.arrRef spec4 w)) = (dat4 (Vin12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
abbrev Vout13 : (c : Dev nD) → (b : Ref sig .tc) → Buf (Elt F) ((c : Thread nD τ).loc b) := fun c b => W13 m c b
theorem hF4 (c : Dev nD) (w : Fin cfg4.W) : (dat4 (Vin12 m) c).arrAt w cfg4.N = Vout13 m c (Pipeline.arrRef spec4 w) :=
  (W13_arr m c w).symm
theorem hrest4 (c : Dev nD) : ∀ b, b ∉ Finset.univ.image (Pipeline.arrRef spec4) → Vout13 m c b = Vin12 m c b :=
  fun b hb => W13_of_ne m c b fun w e => hb (Finset.mem_image.mpr ⟨w, Finset.mem_univ _, e⟩)
/-- A buffer the region does not write back into holds at the exit what it held at the entry: an input window's array by
    the fold of no write-back, any other buffer by not being a window's array. -/
theorem W13_keep (c : Dev nD) (b : Ref sig .tc) (hb : b ∉ ([main_v35] : List (Ref sig .tc))) :
    W13 m c (Proc.devRef .tc b) = W12 m c (Proc.devRef .tc b) := by
  by_cases h0 : b = main_v34
  · subst h0; exact (W13_arr m c 0).trans (((dat4 (Vin12 m) c).arrAt_in 0 rfl _).trans (A_eq4 (Vin12 m) c 0))
  by_cases h1 : b = main_v32
  · subst h1; exact (W13_arr m c 1).trans (((dat4 (Vin12 m) c).arrAt_in 1 rfl _).trans (A_eq4 (Vin12 m) c 1))
  by_cases h2 : b = main_v33
  · subst h2; exact (W13_arr m c 2).trans (((dat4 (Vin12 m) c).arrAt_in 2 rfl _).trans (A_eq4 (Vin12 m) c 2))
  refine W13_of_ne m c b fun w => ?_
  match w with
  | ⟨0, _⟩ => exact fun e => h0 e.symm
  | ⟨1, _⟩ => exact fun e => h1 e.symm
  | ⟨2, _⟩ => exact fun e => h2 e.symm
  | ⟨3, _⟩ => exact fun e => hb (by rw [← e]; exact (by decide : (main_v35 : Ref sig .tc) ∈ ([main_v35] : List (Ref sig .tc))))

/-! ## No item writes an argument -/

/-- A buffer that no host stretch writes and no region writes back into holds at the end what it held at launch. -/
theorem W13_of_input (c : Dev nD) (b : Ref sig .tc) (h0 : b ∉ hostOps0_W) (h1 : b ∉ hostOps1_W) (h2 : b ∉ hostOps2_W)
    (h21 : b ∉ hostOps2_1_W) (h22 : b ∉ hostOps2_2_W) (h23 : b ∉ hostOps2_3_W) (h3 : b ∉ hostOps3_W) (h4 : b ∉ hostOps4_W)
    (hr0 : b ∉ ([main_v4] : List (Ref sig .tc))) (hr1 : b ∉ ([main_v12] : List (Ref sig .tc)))
    (hr2 : b ∉ ([main_v17_0, main_v17_1, main_v17_2] : List (Ref sig .tc))) (hr3 : b ∉ ([main_v31] : List (Ref sig .tc)))
    (hr4 : b ∉ ([main_v35] : List (Ref sig .tc))) :
    W13 m c (Proc.devRef .tc b) = m ((c : Thread nD τ).loc b) :=
  (W13_keep m c b hr4).trans <| (StableHlo.after_of_writes_sub hostOps4 _ hostOps4_writes h4).trans <|
  (W11_keep m c b hr3).trans <| (StableHlo.after_of_writes_sub hostOps3 _ hostOps3_writes h3).trans <|
  (W9_keep m c b hr2).trans <| (StableHlo.after_of_writes_sub hostOps2_3 _ hostOps2_3_writes h23).trans <|
  (StableHlo.after_of_writes_sub hostOps2_2 _ hostOps2_2_writes h22).trans <|
  (StableHlo.after_of_writes_sub hostOps2_1 _ hostOps2_1_writes h21).trans <|
  (StableHlo.after_of_writes_sub hostOps2 _ hostOps2_writes h2).trans <|
  (W4_keep m c b hr1).trans <| (StableHlo.after_of_writes_sub hostOps1 _ hostOps1_writes h1).trans <|
  (W2_keep m c b hr0).trans <| (StableHlo.after_of_writes_sub hostOps0 _ hostOps0_writes h0).trans rfl

theorem W13_main_arg0 (c : Dev nD) : W13 m c (Proc.devRef .tc main_arg0) = m ((c : Thread nD τ).loc main_arg0) :=
  W13_of_input m c main_arg0 (by decide) (by decide) (by decide) (by decide) (by decide) (by decide) (by decide) (by decide) (by decide) (by decide) (by decide) (by decide) (by decide)
theorem W13_main_arg1 (c : Dev nD) : W13 m c (Proc.devRef .tc main_arg1) = m ((c : Thread nD τ).loc main_arg1) :=
  W13_of_input m c main_arg1 (by decide) (by decide) (by decide) (by decide) (by decide) (by decide) (by decide) (by decide) (by decide) (by decide) (by decide) (by decide) (by decide)
theorem W13_main_arg2 (c : Dev nD) : W13 m c (Proc.devRef .tc main_arg2) = m ((c : Thread nD τ).loc main_arg2) :=
  W13_of_input m c main_arg2 (by decide) (by decide) (by decide) (by decide) (by decide) (by decide) (by decide) (by decide) (by decide) (by decide) (by decide) (by decide) (by decide)
theorem W13_main_arg3 (c : Dev nD) : W13 m c (Proc.devRef .tc main_arg3) = m ((c : Thread nD τ).loc main_arg3) :=
  W13_of_input m c main_arg3 (by decide) (by decide) (by decide) (by decide) (by decide) (by decide) (by decide) (by decide) (by decide) (by decide) (by decide) (by decide) (by decide)
theorem W13_main_arg4 (c : Dev nD) : W13 m c (Proc.devRef .tc main_arg4) = m ((c : Thread nD τ).loc main_arg4) :=
  W13_of_input m c main_arg4 (by decide) (by decide) (by decide) (by decide) (by decide) (by decide) (by decide) (by decide) (by decide) (by decide) (by decide) (by decide) (by decide)
theorem W13_main_arg5 (c : Dev nD) : W13 m c (Proc.devRef .tc main_arg5) = m ((c : Thread nD τ).loc main_arg5) :=
  W13_of_input m c main_arg5 (by decide) (by decide) (by decide) (by decide) (by decide) (by decide) (by decide) (by decide) (by decide) (by decide) (by decide) (by decide) (by decide)
theorem W13_main_arg6 (c : Dev nD) : W13 m c (Proc.devRef .tc main_arg6) = m ((c : Thread nD τ).loc main_arg6) :=
  W13_of_input m c main_arg6 (by decide) (by decide) (by decide) (by decide) (by decide) (by decide) (by decide) (by decide) (by decide) (by decide) (by decide) (by decide) (by decide)
theorem W13_main_arg7 (c : Dev nD) : W13 m c (Proc.devRef .tc main_arg7) = m ((c : Thread nD τ).loc main_arg7) :=
  W13_of_input m c main_arg7 (by decide) (by decide) (by decide) (by decide) (by decide) (by decide) (by decide) (by decide) (by decide) (by decide) (by decide) (by decide) (by decide)
theorem W13_main_arg8 (c : Dev nD) : W13 m c (Proc.devRef .tc main_arg8) = m ((c : Thread nD τ).loc main_arg8) :=
  W13_of_input m c main_arg8 (by decide) (by decide) (by decide) (by decide) (by decide) (by decide) (by decide) (by decide) (by decide) (by decide) (by decide) (by decide) (by decide)
theorem W13_main_arg9 (c : Dev nD) : W13 m c (Proc.devRef .tc main_arg9) = m ((c : Thread nD τ).loc main_arg9) :=
  W13_of_input m c main_arg9 (by decide) (by decide) (by decide) (by decide) (by decide) (by decide) (by decide) (by decide) (by decide) (by decide) (by decide) (by decide) (by decide)
theorem W13_main_arg10 (c : Dev nD) : W13 m c (Proc.devRef .tc main_arg10) = m ((c : Thread nD τ).loc main_arg10) :=
  W13_of_input m c main_arg10 (by decide) (by decide) (by decide) (by decide) (by decide) (by decide) (by decide) (by decide) (by decide) (by decide) (by decide) (by decide) (by decide)
theorem W13_main_arg11 (c : Dev nD) : W13 m c (Proc.devRef .tc main_arg11) = m ((c : Thread nD τ).loc main_arg11) :=
  W13_of_input m c main_arg11 (by decide) (by decide) (by decide) (by decide) (by decide) (by decide) (by decide) (by decide) (by decide) (by decide) (by decide) (by decide) (by decide)

/-! ## The proof data family and the thread state -/

/-- No pallas_call of the program has a prefetched table. -/
abbrev hadm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) hadm p) c
  | ⟨0, _⟩ => fun c => dat0 (Vin1 m) c
  | ⟨1, _⟩ => fun c => dat1 (Vin3 m) c
  | ⟨2, _⟩ => fun c => dat2 (Vin8 m) c
  | ⟨3, _⟩ => fun c => dat3 (Vin10 m) c
  | ⟨4, _⟩ => fun c => dat4 (Vin12 m) c
abbrev 𝒱₀ : Variants := Variants.none
/-- No core owes another anything. -/
abbrev Lv : GSem nD τ sig → Finset Unit := fun _ => ∅
abbrev lvl : GSem nD τ sig → Unit → ℕ := fun _ _ => 0
/-- What rides beside the buffers through every segment: the core's generator register at some state and its dues, none. -/
abbrev Rst (c : Dev nD) : sProp 𝕄 := iprop((∃ r, prngReg c r) ∗ ∃ W, owes (c : Thread nD τ) (0 : CellTallies nD τ sig Unit) W)
/-- A host stretch as a segment from the contents W, Rst riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at W1, left at W2. Its windows' arrays are split
    out of the unscoped buffers and put back at the exit contents; the generator register goes into the region's invariant
    and comes out; nothing is owed; the kernel has no semaphore of its own. -/
def reg0 : Pipeline.RegionSeg (pcfgs (F := F)) hadm (pdats m) () defs₀ 𝒱₀ Lv lvl 0 where
  win := launch0.win.to₀
  block_pos := launch0.block_pos
  stage_whole := launch0.stage_whole
  K := PEmpty
  osem k := k.elim
  ho := Pipeline.OwnSemFacts.none _
  hbody c := (body_obligation0 (Vin1 m) c).loose
  hwaits := Pipeline.hwaits_of_owed_zero _ _ _ _ Lv lvl 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (Vin1 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (Vin1 m c) (Vout2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its windows' arrays are split
    out of the unscoped buffers and put back at the exit contents; the generator register goes into the region's invariant
    and comes out; nothing is owed; the kernel has no semaphore of its own. -/
def reg1 : Pipeline.RegionSeg (pcfgs (F := F)) hadm (pdats m) () defs₀ 𝒱₀ Lv lvl 1 where
  win := launch1.win.to₀
  block_pos := launch1.block_pos
  stage_whole := launch1.stage_whole
  K := PEmpty
  osem k := k.elim
  ho := Pipeline.OwnSemFacts.none _
  hbody c := (body_obligation1 (Vin3 m) c).loose
  hwaits := Pipeline.hwaits_of_owed_zero _ _ _ _ Lv lvl 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (Vin3 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (Vin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (Vin3 m c) (Vout4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W8, left at W9. Its windows' arrays are split
    out of the unscoped buffers and put back at the exit contents; the generator register goes into the region's invariant
    and comes out; nothing is owed; the kernel has no semaphore of its own. -/
def reg2 : Pipeline.RegionSeg (pcfgs (F := F)) hadm (pdats m) () defs₀ 𝒱₀ Lv lvl 2 where
  win := launch2.win.to₀
  block_pos := launch2.block_pos
  stage_whole := launch2.stage_whole
  K := PEmpty
  osem k := k.elim
  ho := Pipeline.OwnSemFacts.none _
  hbody c := (body_obligation2 (Vin8 m) c).loose
  hwaits := Pipeline.hwaits_of_owed_zero _ _ _ _ Lv lvl 2 fun _ _ => rfl
  pre c := iprop(StableHlo.held (c : Thread nD τ) (Pipeline.ucRefs τ sig) (W8 m c) ∗ Rst c)
  post c := iprop(StableHlo.held (c : Thread nD τ) (Pipeline.ucRefs τ sig) (W9 m c) ∗ Rst c)
  X c := iprop(∃ r, prngReg c r)
  Y c := iprop(∃ r, prngReg c r)
  Z c := Pipeline.unscopedRest (Ix := Unit) (Name := ℕ) (U := UR sig nD τ) (Lvl := ℕ) spec2 c (Vin8 m c)
  hentry c := by
    rw [Pipeline.ownSems0_none]
    have hsplit := Pipeline.arrays_of_unscopedBufs (p := 2) (pcfgs (F := F)) hadm (pdats m) launch2.win launch2.arr_whole c
      ((pdats m 2 c).share_full fun _ => rfl) (Vin8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m) ((pdats m 2 c).share_full fun _ => rfl)
      (Vin8 m c) (Vout9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W10, left at W11. Its windows' arrays are split
    out of the unscoped buffers and put back at the exit contents; the generator register goes into the region's invariant
    and comes out; nothing is owed; the kernel has no semaphore of its own. -/
def reg3 : Pipeline.RegionSeg (pcfgs (F := F)) hadm (pdats m) () defs₀ 𝒱₀ Lv lvl 3 where
  win := launch3.win.to₀
  block_pos := launch3.block_pos
  stage_whole := launch3.stage_whole
  K := PEmpty
  osem k := k.elim
  ho := Pipeline.OwnSemFacts.none _
  hbody c := (body_obligation3 (Vin10 m) c).loose
  hwaits := Pipeline.hwaits_of_owed_zero _ _ _ _ Lv lvl 3 fun _ _ => rfl
  pre c := iprop(StableHlo.held (c : Thread nD τ) (Pipeline.ucRefs τ sig) (W10 m c) ∗ Rst c)
  post c := iprop(StableHlo.held (c : Thread nD τ) (Pipeline.ucRefs τ sig) (W11 m c) ∗ Rst c)
  X c := iprop(∃ r, prngReg c r)
  Y c := iprop(∃ r, prngReg c r)
  Z c := Pipeline.unscopedRest (Ix := Unit) (Name := ℕ) (U := UR sig nD τ) (Lvl := ℕ) spec3 c (Vin10 m c)
  hentry c := by
    rw [Pipeline.ownSems0_none]
    have hsplit := Pipeline.arrays_of_unscopedBufs (p := 3) (pcfgs (F := F)) hadm (pdats m) launch3.win launch3.arr_whole c
      ((pdats m 3 c).share_full fun _ => rfl) (Vin10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (pdats m) ((pdats m 3 c).share_full fun _ => rfl)
      (Vin10 m c) (Vout11 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W12, left at W13. Its windows' arrays are split
    out of the unscoped buffers and put back at the exit contents; the generator register goes into the region's invariant
    and comes out; nothing is owed; the kernel has no semaphore of its own. -/
def reg4 : Pipeline.RegionSeg (pcfgs (F := F)) hadm (pdats m) () defs₀ 𝒱₀ Lv lvl 4 where
  win := launch4.win.to₀
  block_pos := launch4.block_pos
  stage_whole := launch4.stage_whole
  K := PEmpty
  osem k := k.elim
  ho := Pipeline.OwnSemFacts.none _
  hbody c := (body_obligation4 (Vin12 m) c).loose
  hwaits := Pipeline.hwaits_of_owed_zero _ _ _ _ Lv lvl 4 fun _ _ => rfl
  pre c := iprop(StableHlo.held (c : Thread nD τ) (Pipeline.ucRefs τ sig) (W12 m c) ∗ Rst c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (Vin12 m c)
  hentry c := by
    rw [Pipeline.ownSems0_none]
    have hsplit := Pipeline.arrays_of_unscopedBufs (p := 4) (pcfgs (F := F)) hadm (pdats m) launch4.win launch4.arr_whole c
      ((pdats m 4 c).share_full fun _ => rfl) (Vin12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) hadm (Ix := Unit) (Name := ℕ) (U := UR sig nD τ) (Lvl := ℕ)
      launch4.win launch4.arr_whole c (pdats m) ((pdats m 4 c).share_full fun _ => rfl)
      (Vin12 m c) (Vout13 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's thirteen segments in order. -/
abbrev hsegs : List (Pipeline.Seg (pcfgs (F := F)) hadm (pdats m) () defs₀ 𝒱₀ Lv lvl) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .region (reg2 m),
    .host (hseg hostOps3 hostOps3_sub hostOps3_fresh (W9 m)),
    .region (reg3 m),
    .host (hseg hostOps4 hostOps4_sub hostOps4_fresh (W11 m)),
    .region (reg4 m) ]
/-- The program IS the run of the segments. -/
theorem main_run (c : Dev nD) : main (F := F) c = Pipeline.Seg.run (hsegs m) := (main_chain c).trans (by chain_rfl)

set_option backward.isDefEq.respectTransparency.types false in
/-- From any memory with zero counters every weakly fair execution of the program terminates, nothing faulting, and in
    every final memory every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) hadm (pdats m) () cellOf_inj emb₁ defs₀ 𝒱₀ Lv lvl m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W13_main_arg0 m c),
    (h c _ (mem_uc main_arg1 (by decide))).trans (W13_main_arg1 m c),
    (h c _ (mem_uc main_arg2 (by decide))).trans (W13_main_arg2 m c),
    (h c _ (mem_uc main_arg3 (by decide))).trans (W13_main_arg3 m c),
    (h c _ (mem_uc main_arg4 (by decide))).trans (W13_main_arg4 m c),
    (h c _ (mem_uc main_arg5 (by decide))).trans (W13_main_arg5 m c),
    (h c _ (mem_uc main_arg6 (by decide))).trans (W13_main_arg6 m c),
    (h c _ (mem_uc main_arg7 (by decide))).trans (W13_main_arg7 m c),
    (h c _ (mem_uc main_arg8 (by decide))).trans (W13_main_arg8 m c),
    (h c _ (mem_uc main_arg9 (by decide))).trans (W13_main_arg9 m c),
    (h c _ (mem_uc main_arg10 (by decide))).trans (W13_main_arg10 m c),
    (h c _ (mem_uc main_arg11 (by decide))).trans (W13_main_arg11 m c)⟩)
    (run_all m ρ)

end Cert.Kernel.Hand

end
-- ==== Proof.KiR0.lean ====
/-
  Region 0 of the idealized kernel program: the stacked projection. One grid point reads a block of 5000 rows of the
  node features and the whole 128 x 384 stacked weight, and writes the 5000 x 384 block of products.
  Stated at a parameter V (the buffers' contents when the region is entered): the windows' blocks, what the body leaves
  in the output block (its single store, over the whole block), the body's triple, the region's proof data and the
  body obligation at every grid point.
-/
import proofs.«411279_j64037962384024_2_alg».proof.Proof.Gen.KernelIdeal.Launch
import proofs.«411279_j64037962384024_2_alg».proof.Proof.Gen.KernelIdeal.Skeleton
import proofs.«411279_j64037962384024_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each the whole staging buffer. -/
abbrev r0_x : Rect S5000x128 := Rect.unit (s := S5000x128) ![0, 0] S5000x128.size inb_S5000x128_S5000x128_0_0
abbrev r0_w : Rect S128x384 := Rect.unit (s := S128x384) ![0, 0] S128x384.size inb_S128x384_S128x384_0_0
abbrev r0_o : Rect S5000x384 := Rect.unit (s := S5000x384) ![0, 0] S5000x384.size inb_S5000x384_S5000x384_0_0

/-- What the body leaves in the output window's buffer: the one store's payload over the whole buffer. -/
def out0_2 (x0 : Vec F S5000x128 .f32) (x1 : Vec F S128x384 .f32) : Vec F S5000x384 .f32 :=
  View.canon [⟨r0_o, k0_pay1 (View.ld x0 r0_x) (View.ld x1 r0_w)⟩]

theorem cover0_2 (p0 : Vec F S5000x384 .f32) (y : S5000x384.Idx) :
    ∃ pc ∈ ([⟨r0_o, p0⟩] : List (View.Piece (Elt F) S5000x384 .f32)), y ∈ pc.1.set :=
  View.cover_of_tiled [⟨r0_o, p0⟩] S5000x384.size (by rfl) y

set_option maxHeartbeats 1000000 in
/-- The body on whole staging buffers, the inputs' at read contents x0, x1 and the output's at anything, runs to the
    continuation holding the inputs as they were and the output at out0_2 of the inputs. -/
theorem sound_kernel0 (c : Dev nD) (E : Set ℕ) (i : grid0.Coords) (arg1 : Memref sig .tc .vmem S5000x128 .f32) (harg1 : arg1.IsWhole)
    (arg2 : Memref sig .tc .vmem S128x384 .f32) (harg2 : arg2.IsWhole) (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core c: the arrays as the region finds them; after the body at point t each input's
    buffer at its block and the output's at out0_2 of the input blocks; nothing carried, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiR1.lean ====
/-
  Region 1 of the idealized kernel program: the edge projection. One grid point reads a block of 10000 rows of the
  edge features and the whole 128 x 128 weight, and writes the 10000 x 128 block of products.
  Stated at a parameter V (the buffers' contents when the region is entered): the windows' blocks, what the body leaves
  in the output block (its single store, over the whole block), the body's triple, the region's proof data and the
  body obligation at every one of the 60 grid points.
-/
import proofs.«411279_j64037962384024_2_alg».proof.Proof.Gen.KernelIdeal.Launch
import proofs.«411279_j64037962384024_2_alg».proof.Proof.Gen.KernelIdeal.Skeleton
import proofs.«411279_j64037962384024_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point: the row block is fetched at each point,
    the weight at the first point only and its block index never moves afterwards. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through: each the whole staging buffer. -/
abbrev r1_x : Rect S10000x128 := Rect.unit (s := S10000x128) ![0, 0] S10000x128.size inb_S10000x128_S10000x128_0_0
abbrev r1_w : Rect S128x128 := Rect.unit (s := S128x128) ![0, 0] S128x128.size inb_S128x128_S128x128_0_0
abbrev r1_o : Rect S10000x128 := Rect.unit (s := S10000x128) ![0, 0] S10000x128.size inb_S10000x128_S10000x128_0_0

/-- What the body leaves in the output window's buffer: the one store's payload over the whole buffer. -/
def out1_2 (x0 : Vec F S10000x128 .f32) (x1 : Vec F S128x128 .f32) : Vec F S10000x128 .f32 :=
  View.canon [⟨r1_o, k1_pay1 (View.ld x0 r1_x) (View.ld x1 r1_w)⟩]

theorem cover1_2 (p0 : Vec F S10000x128 .f32) (y : S10000x128.Idx) :
    ∃ pc ∈ ([⟨r1_o, p0⟩] : List (View.Piece (Elt F) S10000x128 .f32)), y ∈ pc.1.set :=
  View.cover_of_tiled [⟨r1_o, p0⟩] S10000x128.size (by rfl) y

set_option maxHeartbeats 1000000 in
/-- The body on whole staging buffers, the inputs' at read contents x0, x1 and the output's at anything, runs to the
    continuation holding the inputs as they were and the output at out1_2 of the inputs. -/
theorem sound_kernel1 (c : Dev nD) (E : Set ℕ) (i : grid1.Coords) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core c: the arrays as the region finds them; after the body at point t each input's
    buffer at its block and the output's at out1_2 of the input blocks; nothing carried, nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is handed at point t: the region's invariant and debts, and each window's current staging buffer
    at what the pipeline put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back at point t: the same invariant and debts, and each staging buffer at its after value. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiR2.lean ====
/-
  Region 2 of the idealized kernel program: the per-edge attention scores. One grid point reads a block of 500 edges
  (4 heads, 32 channels) of each of the gathered keys, the gathered queries, the gathered values and the projected
  edge features, and writes three blocks: the per-channel score (the clipped scaled product of key and query, times
  the edge projection), its clipped exponentiated sum over the channels (one number per edge and head), and the
  values weighted by that number.
  Stated at a parameter V (the buffers' contents when the region is entered): the windows' blocks, what the body leaves
  in each output block (one store each, over the whole block), the body's triple, the region's proof data and the
  body obligation at every grid point.
-/
import proofs.«411279_j64037962384024_2_alg».proof.Proof.Gen.KernelIdeal.Launch
import proofs.«411279_j64037962384024_2_alg».proof.Proof.Gen.KernelIdeal.Skeleton
import proofs.«411279_j64037962384024_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through: each the whole staging buffer. -/
abbrev r2_a : Rect S500x4x32 := Rect.unit (s := S500x4x32) ![0, 0, 0] S500x4x32.size inb_S500x4x32_S500x4x32_0_0_0
abbrev r2_s : Rect S500x4x1 := Rect.unit (s := S500x4x1) ![0, 0, 0] S500x4x1.size inb_S500x4x1_S500x4x1_0_0_0

/-- What the body leaves in the score window's buffer: the first store's payload over the whole buffer. -/
def out2_4 (x0 x1 x2 x3 : Vec F S500x4x32 .f32) : Vec F S500x4x32 .f32 :=
  View.canon [⟨r2_a, k2_pay1 (View.ld x0 r2_a) (View.ld x1 r2_a) (View.ld x3 r2_a)⟩]

/-- What the body leaves in the summed-score window's buffer: the second store's payload over the whole buffer. -/
def out2_5 (x0 x1 x2 x3 : Vec F S500x4x32 .f32) : Vec F S500x4x1 .f32 :=
  View.canon [⟨r2_s, k2_pay2 (View.ld x0 r2_a) (View.ld x1 r2_a) (View.ld x3 r2_a)⟩]

/-- What the body leaves in the weighted-values window's buffer: the third store's payload over the whole buffer. -/
def out2_6 (x0 x1 x2 x3 : Vec F S500x4x32 .f32) : Vec F S500x4x32 .f32 :=
  View.canon [⟨r2_a, k2_pay3 (View.ld x0 r2_a) (View.ld x1 r2_a) (View.ld x3 r2_a) (View.ld x2 r2_a)⟩]

theorem cover2_a (p0 : Vec F S500x4x32 .f32) (y : S500x4x32.Idx) :
    ∃ pc ∈ ([⟨r2_a, p0⟩] : List (View.Piece (Elt F) S500x4x32 .f32)), y ∈ pc.1.set :=
  View.cover_of_tiled [⟨r2_a, p0⟩] S500x4x32.size (by rfl) y

theorem cover2_s (p0 : Vec F S500x4x1 .f32) (y : S500x4x1.Idx) :
    ∃ pc ∈ ([⟨r2_s, p0⟩] : List (View.Piece (Elt F) S500x4x1 .f32)), y ∈ pc.1.set :=
  View.cover_of_tiled [⟨r2_s, p0⟩] S500x4x1.size (by rfl) y

set_option maxHeartbeats 4000000 in
/-- The body on whole staging buffers, the inputs' at read contents x0 .. x3 and the outputs' at anything, runs to the
    continuation holding the inputs as they were and each output at its out2 of the inputs. -/
theorem sound_kernel2 (c : Dev nD) (E : Set ℕ) (i : grid2.Coords) (arg1 : Memref sig .tc .vmem S500x4x32 .f32) (harg1 : arg1.IsWhole)
    (arg2 : Memref sig .tc .vmem S500x4x32 .f32) (harg2 : arg2.IsWhole)
    (arg3 : Memref sig .tc .vmem S500x4x32 .f32) (harg3 : arg3.IsWhole)
    (arg4 : Memref sig .tc .vmem S500x4x32 .f32) (harg4 : arg4.IsWhole)
    (arg5 : Memref sig .tc .vmem S500x4x32 .f32) (harg5 : arg5.IsWhole)
    (arg6 : Memref sig .tc .vmem S500x4x1 .f32) (harg6 : arg6.IsWhole)
    (arg7 : Memref sig .tc .vmem S500x4x32 .f32) (harg7 : arg7.IsWhole)
    (x0 x1 x2 x3 : Vec F S500x4x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out2_4 x0 x1 x2 x3) ∗ owns (c : Thread nD τ) arg6 fullShare (out2_5 x0 x1 x2 x3) ∗ owns (c : Thread nD τ) arg7 fullShare (out2_6 x0 x1 x2 x3)) -∗ K ⟨⟩))
      ⊢ wp frame (wpE (defs₀ (F := F)) Variants.none c none) E (cc2__score_kernel i arg1 harg1 arg2 harg2 arg3 harg3 arg4 harg4 arg5 harg5 arg6 harg6 arg7 harg7) K := by
  simp only [cc2__score_kernel_eq_skeleton]; unfold cc2__score_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_a _)
  isplitl [H5]
  · iexists _; isplitr
    swap; · iexact H5
    ipureintro
    exact View.read_writes_eq_canon _ _ _ (cover2_s _)
  iexists _; isplitr
  swap; · iexact H6
  ipureintro
  exact View.read_writes_eq_canon _ _ _ (cover2_a _)

/-- The region's proof data on core c: the arrays as the region finds them; after the body at point t each input's
    buffer at its block and each output's at its out2 of the input blocks; nothing carried, nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiR3.lean ====
/- Region 3 of the idealized kernel program: the node feed-forward network. One grid point reads a block of 5000 rows of the
  normalized attention output, the whole 128 x 256 first weight and the whole 256 x 128 second weight, and writes the
  5000 x 128 block of the second product of the gated hidden layer.
  Stated at a parameter V (the buffers' contents when the region is entered): the windows' blocks, what the body leaves
  in the output block (its single store, over the whole block), the body's triple, the region's proof data and the
  body obligation at every one of the 10 grid points.
-/
import proofs.«411279_j64037962384024_2_alg».proof.Proof.Gen.KernelIdeal.Launch
import proofs.«411279_j64037962384024_2_alg».proof.Proof.Gen.KernelIdeal.Skeleton
import proofs.«411279_j64037962384024_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point: the row block is fetched at each point,
    the two weights at the first point only and their block indices never move afterwards. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads and stores through: each the whole staging buffer. -/
abbrev r3_x : Rect S5000x128 := Rect.unit (s := S5000x128) ![0, 0] S5000x128.size inb_S5000x128_S5000x128_0_0
abbrev r3_w1 : Rect S128x256 := Rect.unit (s := S128x256) ![0, 0] S128x256.size inb_S128x256_S128x256_0_0
abbrev r3_w2 : Rect S256x128 := Rect.unit (s := S256x128) ![0, 0] S256x128.size inb_S256x128_S256x128_0_0
abbrev r3_o : Rect S5000x128 := Rect.unit (s := S5000x128) ![0, 0] S5000x128.size inb_S5000x128_S5000x128_0_0

/-- What the body leaves in the output window's buffer: the one store's payload over the whole buffer. -/
def out3_3 (x0 : Vec F S5000x128 .f32) (x1 : Vec F S128x256 .f32) (x2 : Vec F S256x128 .f32) : Vec F S5000x128 .f32 :=
  View.canon [⟨r3_o, k3_pay1 (View.ld x0 r3_x) (View.ld x1 r3_w1) (View.ld x2 r3_w2)⟩]

theorem cover3_3 (p0 : Vec F S5000x128 .f32) (y : S5000x128.Idx) :
    ∃ pc ∈ ([⟨r3_o, p0⟩] : List (View.Piece (Elt F) S5000x128 .f32)), y ∈ pc.1.set :=
  View.cover_of_tiled [⟨r3_o, p0⟩] S5000x128.size (by rfl) y

set_option maxHeartbeats 1000000 in
/-- The body on whole staging buffers, the inputs' at read contents x0, x1, x2 and the output's at anything, runs to
    the continuation holding the inputs as they were and the output at out3_3 of the inputs. -/
theorem sound_kernel3 (c : Dev nD) (E : Set ℕ) (i : grid3.Coords) (arg1 : Memref sig .tc .vmem S5000x128 .f32) (harg1 : arg1.IsWhole)
    (arg2 : Memref sig .tc .vmem S128x256 .f32) (harg2 : arg2.IsWhole) (arg3 : Memref sig .tc .vmem S256x128 .f32) (harg3 : arg3.IsWhole)
    (arg4 : Memref sig .tc .vmem S5000x128 .f32) (harg4 : arg4.IsWhole)
    (x0 : Vec F S5000x128 .f32) (x1 : Vec F S128x256 .f32) (x2 : Vec F S256x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__ffn_kernel i arg1 harg1 arg2 harg2 arg3 harg3 arg4 harg4) K := by
  simp only [cc3__ffn_kernel_eq_skeleton]; unfold cc3__ffn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The region's proof data on core c: the arrays as the region finds them; after the body at point t each input's
    buffer at its block and the output's at out3_3 of the input blocks; nothing carried, nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is handed at point t: the region's invariant and debts, and each window's current staging buffer
    at what the pipeline put there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What the body hands back at point t: the same invariant and debts, and each staging buffer at its after value. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KiR4.lean ====
/- Region 4 of the idealized kernel program: the edge feed-forward network. One grid point reads a block of 5000 rows of the
  edge scores, the whole 128 x 256 first weight and the whole 256 x 128 second weight, and writes the 5000 x 128 block
  of the second product of the gated hidden layer.
  Stated at a parameter V (the buffers' contents when the region is entered): the windows' blocks, what the body leaves
  in the output block (its single store, over the whole block), the body's triple, the region's proof data and the
  body obligation at every one of the 120 grid points.
-/
import proofs.«411279_j64037962384024_2_alg».proof.Proof.Gen.KernelIdeal.Launch
import proofs.«411279_j64037962384024_2_alg».proof.Proof.Gen.KernelIdeal.Skeleton
import proofs.«411279_j64037962384024_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every point: the row block is fetched at each point,
    the two weights at the first point only and their block indices never move afterwards. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body loads and stores through: each the whole staging buffer. -/
abbrev r4_x : Rect S5000x128 := Rect.unit (s := S5000x128) ![0, 0] S5000x128.size inb_S5000x128_S5000x128_0_0
abbrev r4_w1 : Rect S128x256 := Rect.unit (s := S128x256) ![0, 0] S128x256.size inb_S128x256_S128x256_0_0
abbrev r4_w2 : Rect S256x128 := Rect.unit (s := S256x128) ![0, 0] S256x128.size inb_S256x128_S256x128_0_0
abbrev r4_o : Rect S5000x128 := Rect.unit (s := S5000x128) ![0, 0] S5000x128.size inb_S5000x128_S5000x128_0_0

/-- What the body leaves in the output window's buffer: the one store's payload over the whole buffer. -/
def out4_3 (x0 : Vec F S5000x128 .f32) (x1 : Vec F S128x256 .f32) (x2 : Vec F S256x128 .f32) : Vec F S5000x128 .f32 :=
  View.canon [⟨r4_o, k4_pay1 (View.ld x0 r4_x) (View.ld x1 r4_w1) (View.ld x2 r4_w2)⟩]

theorem cover4_3 (p0 : Vec F S5000x128 .f32) (y : S5000x128.Idx) :
    ∃ pc ∈ ([⟨r4_o, p0⟩] : List (View.Piece (Elt F) S5000x128 .f32)), y ∈ pc.1.set :=
  View.cover_of_tiled [⟨r4_o, p0⟩] S5000x128.size (by rfl) y

set_option maxHeartbeats 1000000 in
/-- The body on whole staging buffers, the inputs' at read contents x0, x1, x2 and the output's at anything, runs to
    the continuation holding the inputs as they were and the output at out4_3 of the inputs. -/
theorem sound_kernel4 (c : Dev nD) (E : Set ℕ) (i : grid4.Coords) (arg1 : Memref sig .tc .vmem S5000x128 .f32) (harg1 : arg1.IsWhole)
    (arg2 : Memref sig .tc .vmem S128x256 .f32) (harg2 : arg2.IsWhole) (arg3 : Memref sig .tc .vmem S256x128 .f32) (harg3 : arg3.IsWhole)
    (arg4 : Memref sig .tc .vmem S5000x128 .f32) (harg4 : arg4.IsWhole)
    (x0 : Vec F S5000x128 .f32) (x1 : Vec F S128x256 .f32) (x2 : Vec F S256x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__ffn_kernel i arg1 harg1 arg2 harg2 arg3 harg3 arg4 harg4) K := by
  simp only [cc4__ffn_kernel_eq_skeleton]; unfold cc4__ffn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's proof data on core c: the arrays as the region finds them; after the body at point t each input's
    buffer at its block and the output's at out4_3 of the input blocks; nothing carried, nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is handed at point t: the region's invariant and debts, and each window's current staging buffer
    at what the pipeline put there. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- What the body hands back at point t: the same invariant and debts, and each staging buffer at its after value. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KiRun.lean ====
/- The run of the program: thirteen items in order, host stretches and the five pallas_call regions.
  The buffers' contents at every boundary are a fold from the launch memory: a host stretch applies its operations;
  a region leaves each of its windows' arrays at what its write-backs fold to and every other buffer as it was.
  Each region is a segment entered from "every unscoped buffer at the boundary's contents" and left at the next
  boundary's; the launch theorem for a list of segments then gives: every weakly fair execution ends, and in every
  final memory every unscoped buffer holds the last boundary's contents. No item writes an argument.
-/
import proofs.«411279_j64037962384024_2_alg».proof.Proof.KiR0
import proofs.«411279_j64037962384024_2_alg».proof.Proof.KiR1
import proofs.«411279_j64037962384024_2_alg».proof.Proof.KiR2
import proofs.«411279_j64037962384024_2_alg».proof.Proof.KiR3
import proofs.«411279_j64037962384024_2_alg».proof.Proof.KiR4
import proofs.«411279_j64037962384024_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m (c, b)
/-- After the host stretch hostOps0. -/
abbrev W1 : Dev nD → Valuation τ sig (Elt F) := fun c => StableHlo.after hostOps0 (W0 m c)
/-- The same read at the core's references: what the next region's proof data take. -/
abbrev Vin1 : (c : Dev nD) → (b : Ref sig .tc) → Buf (Elt F) ((c : Thread nD τ).loc b) := fun c b => W1 m c b
/-- At region 0's exit: its windows' arrays at what the write-backs fold to, every other buffer as entered. -/
def W2 (c : Dev nD) : Valuation τ sig (Elt F) :=
  Pipeline.withArrays spec0 c (W1 m c) fun w => (dat0 (Vin1 m) c).arrAt w cfg0.N
theorem W2_arr (c : Dev nD) (w : Fin cfg0.W) :
    W2 m c (Proc.devRef .tc (Pipeline.arrRef spec0 w)) = (dat0 (Vin1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vout2 : (c : Dev nD) → (b : Ref sig .tc) → Buf (Elt F) ((c : Thread nD τ).loc b) := fun c b => W2 m c b
theorem hF0 (c : Dev nD) (w : Fin cfg0.W) : (dat0 (Vin1 m) c).arrAt w cfg0.N = Vout2 m c (Pipeline.arrRef spec0 w) :=
  (W2_arr m c w).symm
theorem hrest0 (c : Dev nD) : ∀ b, b ∉ Finset.univ.image (Pipeline.arrRef spec0) → Vout2 m c b = Vin1 m c b :=
  fun b hb => W2_of_ne m c b fun w e => hb (Finset.mem_image.mpr ⟨w, Finset.mem_univ _, e⟩)
/-- A buffer the region does not write back into holds at the exit what it held at the entry: an input window's array by
    the fold of no write-back, any other buffer by not being a window's array. -/
theorem W2_keep (c : Dev nD) (b : Ref sig .tc) (hb : b ∉ ([main_v4] : List (Ref sig .tc))) :
    W2 m c (Proc.devRef .tc b) = W1 m c (Proc.devRef .tc b) := by
  by_cases h0 : b = main_arg0
  · subst h0; exact (W2_arr m c 0).trans (((dat0 (Vin1 m) c).arrAt_in 0 rfl _).trans (A_eq0 (Vin1 m) c 0))
  by_cases h1 : b = main_v3
  · subst h1; exact (W2_arr m c 1).trans (((dat0 (Vin1 m) c).arrAt_in 1 rfl _).trans (A_eq0 (Vin1 m) c 1))
  refine W2_of_ne m c b fun w => ?_
  match w with
  | ⟨0, _⟩ => exact fun e => h0 e.symm
  | ⟨1, _⟩ => exact fun e => h1 e.symm
  | ⟨2, _⟩ => exact fun e => hb (by rw [← e]; exact (by decide : (main_v4 : Ref sig .tc) ∈ ([main_v4] : List (Ref sig .tc))))
/-- After the host stretch hostOps1. -/
abbrev W3 : Dev nD → Valuation τ sig (Elt F) := fun c => StableHlo.after hostOps1 (W2 m c)
/-- The same read at the core's references: what the next region's proof data take. -/
abbrev Vin3 : (c : Dev nD) → (b : Ref sig .tc) → Buf (Elt F) ((c : Thread nD τ).loc b) := fun c b => W3 m c b
/-- At region 1's exit: its windows' arrays at what the write-backs fold to, every other buffer as entered. -/
def W4 (c : Dev nD) : Valuation τ sig (Elt F) :=
  Pipeline.withArrays spec1 c (W3 m c) fun w => (dat1 (Vin3 m) c).arrAt w cfg1.N
theorem W4_arr (c : Dev nD) (w : Fin cfg1.W) :
    W4 m c (Proc.devRef .tc (Pipeline.arrRef spec1 w)) = (dat1 (Vin3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vout4 : (c : Dev nD) → (b : Ref sig .tc) → Buf (Elt F) ((c : Thread nD τ).loc b) := fun c b => W4 m c b
theorem hF1 (c : Dev nD) (w : Fin cfg1.W) : (dat1 (Vin3 m) c).arrAt w cfg1.N = Vout4 m c (Pipeline.arrRef spec1 w) :=
  (W4_arr m c w).symm
theorem hrest1 (c : Dev nD) : ∀ b, b ∉ Finset.univ.image (Pipeline.arrRef spec1) → Vout4 m c b = Vin3 m c b :=
  fun b hb => W4_of_ne m c b fun w e => hb (Finset.mem_image.mpr ⟨w, Finset.mem_univ _, e⟩)
/-- A buffer the region does not write back into holds at the exit what it held at the entry: an input window's array by
    the fold of no write-back, any other buffer by not being a window's array. -/
theorem W4_keep (c : Dev nD) (b : Ref sig .tc) (hb : b ∉ ([main_v12] : List (Ref sig .tc))) :
    W4 m c (Proc.devRef .tc b) = W3 m c (Proc.devRef .tc b) := by
  by_cases h0 : b = main_arg1
  · subst h0; exact (W4_arr m c 0).trans (((dat1 (Vin3 m) c).arrAt_in 0 rfl _).trans (A_eq1 (Vin3 m) c 0))
  by_cases h1 : b = main_v11
  · subst h1; exact (W4_arr m c 1).trans (((dat1 (Vin3 m) c).arrAt_in 1 rfl _).trans (A_eq1 (Vin3 m) c 1))
  refine W4_of_ne m c b fun w => ?_
  match w with
  | ⟨0, _⟩ => exact fun e => h0 e.symm
  | ⟨1, _⟩ => exact fun e => h1 e.symm
  | ⟨2, _⟩ => exact fun e => hb (by rw [← e]; exact (by decide : (main_v12 : Ref sig .tc) ∈ ([main_v12] : List (Ref sig .tc))))
/-- After the host stretch hostOps2. -/
abbrev W5 : Dev nD → Valuation τ sig (Elt F) := fun c => StableHlo.after hostOps2 (W4 m c)
/-- After the host stretch hostOps2_1. -/
abbrev W6 : Dev nD → Valuation τ sig (Elt F) := fun c => StableHlo.after hostOps2_1 (W5 m c)
/-- After the host stretch hostOps2_2. -/
abbrev W7 : Dev nD → Valuation τ sig (Elt F) := fun c => StableHlo.after hostOps2_2 (W6 m c)
/-- After the host stretch hostOps2_3. -/
abbrev W8 : Dev nD → Valuation τ sig (Elt F) := fun c => StableHlo.after hostOps2_3 (W7 m c)
/-- The same read at the core's references: what the next region's proof data take. -/
abbrev Vin8 : (c : Dev nD) → (b : Ref sig .tc) → Buf (Elt F) ((c : Thread nD τ).loc b) := fun c b => W8 m c b
/-- At region 2's exit: its windows' arrays at what the write-backs fold to, every other buffer as entered. -/
def W9 (c : Dev nD) : Valuation τ sig (Elt F) :=
  Pipeline.withArrays spec2 c (W8 m c) fun w => (dat2 (Vin8 m) c).arrAt w cfg2.N
theorem W9_arr (c : Dev nD) (w : Fin cfg2.W) :
    W9 m c (Proc.devRef .tc (Pipeline.arrRef spec2 w)) = (dat2 (Vin8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev Vout9 : (c : Dev nD) → (b : Ref sig .tc) → Buf (Elt F) ((c : Thread nD τ).loc b) := fun c b => W9 m c b
theorem hF2 (c : Dev nD) (w : Fin cfg2.W) : (dat2 (Vin8 m) c).arrAt w cfg2.N = Vout9 m c (Pipeline.arrRef spec2 w) :=
  (W9_arr m c w).symm
theorem hrest2 (c : Dev nD) : ∀ b, b ∉ Finset.univ.image (Pipeline.arrRef spec2) → Vout9 m c b = Vin8 m c b :=
  fun b hb => W9_of_ne m c b fun w e => hb (Finset.mem_image.mpr ⟨w, Finset.mem_univ _, e⟩)
/-- A buffer the region does not write back into holds at the exit what it held at the entry: an input window's array by
    the fold of no write-back, any other buffer by not being a window's array. -/
theorem W9_keep (c : Dev nD) (b : Ref sig .tc) (hb : b ∉ ([main_v17_0, main_v17_1, main_v17_2] : List (Ref sig .tc))) :
    W9 m c (Proc.devRef .tc b) = W8 m c (Proc.devRef .tc b) := by
  by_cases h0 : b = main_v14
  · subst h0; exact (W9_arr m c 0).trans (((dat2 (Vin8 m) c).arrAt_in 0 rfl _).trans (A_eq2 (Vin8 m) c 0))
  by_cases h1 : b = main_v15
  · subst h1; exact (W9_arr m c 1).trans (((dat2 (Vin8 m) c).arrAt_in 1 rfl _).trans (A_eq2 (Vin8 m) c 1))
  by_cases h2 : b = main_v16
  · subst h2; exact (W9_arr m c 2).trans (((dat2 (Vin8 m) c).arrAt_in 2 rfl _).trans (A_eq2 (Vin8 m) c 2))
  by_cases h3 : b = main_v13
  · subst h3; exact (W9_arr m c 3).trans (((dat2 (Vin8 m) c).arrAt_in 3 rfl _).trans (A_eq2 (Vin8 m) c 3))
  refine W9_of_ne m c b fun w => ?_
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => hb (by rw [← e]; exact (by decide : (main_v17_0 : Ref sig .tc) ∈ ([main_v17_0, main_v17_1, main_v17_2] : List (Ref sig .tc))))
  | ⟨5, _⟩ => exact fun e => hb (by rw [← e]; exact (by decide : (main_v17_1 : Ref sig .tc) ∈ ([main_v17_0, main_v17_1, main_v17_2] : List (Ref sig .tc))))
  | ⟨6, _⟩ => exact fun e => hb (by rw [← e]; exact (by decide : (main_v17_2 : Ref sig .tc) ∈ ([main_v17_0, main_v17_1, main_v17_2] : List (Ref sig .tc))))
/-- After the host stretch hostOps3. -/
abbrev W10 : Dev nD → Valuation τ sig (Elt F) := fun c => StableHlo.after hostOps3 (W9 m c)
/-- The same read at the core's references: what the next region's proof data take. -/
abbrev Vin10 : (c : Dev nD) → (b : Ref sig .tc) → Buf (Elt F) ((c : Thread nD τ).loc b) := fun c b => W10 m c b
/-- At region 3's exit: its windows' arrays at what the write-backs fold to, every other buffer as entered. -/
def W11 (c : Dev nD) : Valuation τ sig (Elt F) :=
  Pipeline.withArrays spec3 c (W10 m c) fun w => (dat3 (Vin10 m) c).arrAt w cfg3.N
theorem W11_arr (c : Dev nD) (w : Fin cfg3.W) :
    W11 m c (Proc.devRef .tc (Pipeline.arrRef spec3 w)) = (dat3 (Vin10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
abbrev Vout11 : (c : Dev nD) → (b : Ref sig .tc) → Buf (Elt F) ((c : Thread nD τ).loc b) := fun c b => W11 m c b
theorem hF3 (c : Dev nD) (w : Fin cfg3.W) : (dat3 (Vin10 m) c).arrAt w cfg3.N = Vout11 m c (Pipeline.arrRef spec3 w) :=
  (W11_arr m c w).symm
theorem hrest3 (c : Dev nD) : ∀ b, b ∉ Finset.univ.image (Pipeline.arrRef spec3) → Vout11 m c b = Vin10 m c b :=
  fun b hb => W11_of_ne m c b fun w e => hb (Finset.mem_image.mpr ⟨w, Finset.mem_univ _, e⟩)
/-- A buffer the region does not write back into holds at the exit what it held at the entry: an input window's array by
    the fold of no write-back, any other buffer by not being a window's array. -/
theorem W11_keep (c : Dev nD) (b : Ref sig .tc) (hb : b ∉ ([main_v31] : List (Ref sig .tc))) :
    W11 m c (Proc.devRef .tc b) = W10 m c (Proc.devRef .tc b) := by
  by_cases h0 : b = main_v28
  · subst h0; exact (W11_arr m c 0).trans (((dat3 (Vin10 m) c).arrAt_in 0 rfl _).trans (A_eq3 (Vin10 m) c 0))
  by_cases h1 : b = main_v29
  · subst h1; exact (W11_arr m c 1).trans (((dat3 (Vin10 m) c).arrAt_in 1 rfl _).trans (A_eq3 (Vin10 m) c 1))
  by_cases h2 : b = main_v30
  · subst h2; exact (W11_arr m c 2).trans (((dat3 (Vin10 m) c).arrAt_in 2 rfl _).trans (A_eq3 (Vin10 m) c 2))
  refine W11_of_ne m c b fun w => ?_
  match w with
  | ⟨0, _⟩ => exact fun e => h0 e.symm
  | ⟨1, _⟩ => exact fun e => h1 e.symm
  | ⟨2, _⟩ => exact fun e => h2 e.symm
  | ⟨3, _⟩ => exact fun e => hb (by rw [← e]; exact (by decide : (main_v31 : Ref sig .tc) ∈ ([main_v31] : List (Ref sig .tc))))
/-- After the host stretch hostOps4. -/
abbrev W12 : Dev nD → Valuation τ sig (Elt F) := fun c => StableHlo.after hostOps4 (W11 m c)
/-- The same read at the core's references: what the next region's proof data take. -/
abbrev Vin12 : (c : Dev nD) → (b : Ref sig .tc) → Buf (Elt F) ((c : Thread nD τ).loc b) := fun c b => W12 m c b
/-- At region 4's exit: its windows' arrays at what the write-backs fold to, every other buffer as entered. -/
def W13 (c : Dev nD) : Valuation τ sig (Elt F) :=
  Pipeline.withArrays spec4 c (W12 m c) fun w => (dat4 (Vin12 m) c).arrAt w cfg4.N
theorem W13_arr (c : Dev nD) (w : Fin cfg4.W) :
    W13 m c (Proc.devRef .tc (Pipeline.arrRef spec4 w)) = (dat4 (Vin12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
abbrev Vout13 : (c : Dev nD) → (b : Ref sig .tc) → Buf (Elt F) ((c : Thread nD τ).loc b) := fun c b => W13 m c b
theorem hF4 (c : Dev nD) (w : Fin cfg4.W) : (dat4 (Vin12 m) c).arrAt w cfg4.N = Vout13 m c (Pipeline.arrRef spec4 w) :=
  (W13_arr m c w).symm
theorem hrest4 (c : Dev nD) : ∀ b, b ∉ Finset.univ.image (Pipeline.arrRef spec4) → Vout13 m c b = Vin12 m c b :=
  fun b hb => W13_of_ne m c b fun w e => hb (Finset.mem_image.mpr ⟨w, Finset.mem_univ _, e⟩)
/-- A buffer the region does not write back into holds at the exit what it held at the entry: an input window's array by
    the fold of no write-back, any other buffer by not being a window's array. -/
theorem W13_keep (c : Dev nD) (b : Ref sig .tc) (hb : b ∉ ([main_v35] : List (Ref sig .tc))) :
    W13 m c (Proc.devRef .tc b) = W12 m c (Proc.devRef .tc b) := by
  by_cases h0 : b = main_v34
  · subst h0; exact (W13_arr m c 0).trans (((dat4 (Vin12 m) c).arrAt_in 0 rfl _).trans (A_eq4 (Vin12 m) c 0))
  by_cases h1 : b = main_v32
  · subst h1; exact (W13_arr m c 1).trans (((dat4 (Vin12 m) c).arrAt_in 1 rfl _).trans (A_eq4 (Vin12 m) c 1))
  by_cases h2 : b = main_v33
  · subst h2; exact (W13_arr m c 2).trans (((dat4 (Vin12 m) c).arrAt_in 2 rfl _).trans (A_eq4 (Vin12 m) c 2))
  refine W13_of_ne m c b fun w => ?_
  match w with
  | ⟨0, _⟩ => exact fun e => h0 e.symm
  | ⟨1, _⟩ => exact fun e => h1 e.symm
  | ⟨2, _⟩ => exact fun e => h2 e.symm
  | ⟨3, _⟩ => exact fun e => hb (by rw [← e]; exact (by decide : (main_v35 : Ref sig .tc) ∈ ([main_v35] : List (Ref sig .tc))))

/-! ## No item writes an argument -/

/-- A buffer that no host stretch writes and no region writes back into holds at the end what it held at launch. -/
theorem W13_of_input (c : Dev nD) (b : Ref sig .tc) (h0 : b ∉ hostOps0_W) (h1 : b ∉ hostOps1_W) (h2 : b ∉ hostOps2_W)
    (h21 : b ∉ hostOps2_1_W) (h22 : b ∉ hostOps2_2_W) (h23 : b ∉ hostOps2_3_W) (h3 : b ∉ hostOps3_W) (h4 : b ∉ hostOps4_W)
    (hr0 : b ∉ ([main_v4] : List (Ref sig .tc))) (hr1 : b ∉ ([main_v12] : List (Ref sig .tc)))
    (hr2 : b ∉ ([main_v17_0, main_v17_1, main_v17_2] : List (Ref sig .tc))) (hr3 : b ∉ ([main_v31] : List (Ref sig .tc)))
    (hr4 : b ∉ ([main_v35] : List (Ref sig .tc))) :
    W13 m c (Proc.devRef .tc b) = m ((c : Thread nD τ).loc b) :=
  (W13_keep m c b hr4).trans <| (StableHlo.after_of_writes_sub hostOps4 _ hostOps4_writes h4).trans <|
  (W11_keep m c b hr3).trans <| (StableHlo.after_of_writes_sub hostOps3 _ hostOps3_writes h3).trans <|
  (W9_keep m c b hr2).trans <| (StableHlo.after_of_writes_sub hostOps2_3 _ hostOps2_3_writes h23).trans <|
  (StableHlo.after_of_writes_sub hostOps2_2 _ hostOps2_2_writes h22).trans <|
  (StableHlo.after_of_writes_sub hostOps2_1 _ hostOps2_1_writes h21).trans <|
  (StableHlo.after_of_writes_sub hostOps2 _ hostOps2_writes h2).trans <|
  (W4_keep m c b hr1).trans <| (StableHlo.after_of_writes_sub hostOps1 _ hostOps1_writes h1).trans <|
  (W2_keep m c b hr0).trans <| (StableHlo.after_of_writes_sub hostOps0 _ hostOps0_writes h0).trans rfl

theorem W13_main_arg0 (c : Dev nD) : W13 m c (Proc.devRef .tc main_arg0) = m ((c : Thread nD τ).loc main_arg0) :=
  W13_of_input m c main_arg0 (by decide) (by decide) (by decide) (by decide) (by decide) (by decide) (by decide) (by decide) (by decide) (by decide) (by decide) (by decide) (by decide)
theorem W13_main_arg1 (c : Dev nD) : W13 m c (Proc.devRef .tc main_arg1) = m ((c : Thread nD τ).loc main_arg1) :=
  W13_of_input m c main_arg1 (by decide) (by decide) (by decide) (by decide) (by decide) (by decide) (by decide) (by decide) (by decide) (by decide) (by decide) (by decide) (by decide)
theorem W13_main_arg2 (c : Dev nD) : W13 m c (Proc.devRef .tc main_arg2) = m ((c : Thread nD τ).loc main_arg2) :=
  W13_of_input m c main_arg2 (by decide) (by decide) (by decide) (by decide) (by decide) (by decide) (by decide) (by decide) (by decide) (by decide) (by decide) (by decide) (by decide)
theorem W13_main_arg3 (c : Dev nD) : W13 m c (Proc.devRef .tc main_arg3) = m ((c : Thread nD τ).loc main_arg3) :=
  W13_of_input m c main_arg3 (by decide) (by decide) (by decide) (by decide) (by decide) (by decide) (by decide) (by decide) (by decide) (by decide) (by decide) (by decide) (by decide)
theorem W13_main_arg4 (c : Dev nD) : W13 m c (Proc.devRef .tc main_arg4) = m ((c : Thread nD τ).loc main_arg4) :=
  W13_of_input m c main_arg4 (by decide) (by decide) (by decide) (by decide) (by decide) (by decide) (by decide) (by decide) (by decide) (by decide) (by decide) (by decide) (by decide)
theorem W13_main_arg5 (c : Dev nD) : W13 m c (Proc.devRef .tc main_arg5) = m ((c : Thread nD τ).loc main_arg5) :=
  W13_of_input m c main_arg5 (by decide) (by decide) (by decide) (by decide) (by decide) (by decide) (by decide) (by decide) (by decide) (by decide) (by decide) (by decide) (by decide)
theorem W13_main_arg6 (c : Dev nD) : W13 m c (Proc.devRef .tc main_arg6) = m ((c : Thread nD τ).loc main_arg6) :=
  W13_of_input m c main_arg6 (by decide) (by decide) (by decide) (by decide) (by decide) (by decide) (by decide) (by decide) (by decide) (by decide) (by decide) (by decide) (by decide)
theorem W13_main_arg7 (c : Dev nD) : W13 m c (Proc.devRef .tc main_arg7) = m ((c : Thread nD τ).loc main_arg7) :=
  W13_of_input m c main_arg7 (by decide) (by decide) (by decide) (by decide) (by decide) (by decide) (by decide) (by decide) (by decide) (by decide) (by decide) (by decide) (by decide)
theorem W13_main_arg8 (c : Dev nD) : W13 m c (Proc.devRef .tc main_arg8) = m ((c : Thread nD τ).loc main_arg8) :=
  W13_of_input m c main_arg8 (by decide) (by decide) (by decide) (by decide) (by decide) (by decide) (by decide) (by decide) (by decide) (by decide) (by decide) (by decide) (by decide)
theorem W13_main_arg9 (c : Dev nD) : W13 m c (Proc.devRef .tc main_arg9) = m ((c : Thread nD τ).loc main_arg9) :=
  W13_of_input m c main_arg9 (by decide) (by decide) (by decide) (by decide) (by decide) (by decide) (by decide) (by decide) (by decide) (by decide) (by decide) (by decide) (by decide)
theorem W13_main_arg10 (c : Dev nD) : W13 m c (Proc.devRef .tc main_arg10) = m ((c : Thread nD τ).loc main_arg10) :=
  W13_of_input m c main_arg10 (by decide) (by decide) (by decide) (by decide) (by decide) (by decide) (by decide) (by decide) (by decide) (by decide) (by decide) (by decide) (by decide)
theorem W13_main_arg11 (c : Dev nD) : W13 m c (Proc.devRef .tc main_arg11) = m ((c : Thread nD τ).loc main_arg11) :=
  W13_of_input m c main_arg11 (by decide) (by decide) (by decide) (by decide) (by decide) (by decide) (by decide) (by decide) (by decide) (by decide) (by decide) (by decide) (by decide)

/-! ## The proof data family and the thread state -/

/-- No pallas_call of the program has a prefetched table. -/
abbrev hadm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) hadm p) c
  | ⟨0, _⟩ => fun c => dat0 (Vin1 m) c
  | ⟨1, _⟩ => fun c => dat1 (Vin3 m) c
  | ⟨2, _⟩ => fun c => dat2 (Vin8 m) c
  | ⟨3, _⟩ => fun c => dat3 (Vin10 m) c
  | ⟨4, _⟩ => fun c => dat4 (Vin12 m) c
abbrev 𝒱₀ : Variants := Variants.none
/-- No core owes another anything. -/
abbrev Lv : GSem nD τ sig → Finset Unit := fun _ => ∅
abbrev lvl : GSem nD τ sig → Unit → ℕ := fun _ _ => 0
/-- What rides beside the buffers through every segment: the core's generator register at some state and its dues, none. -/
abbrev Rst (c : Dev nD) : sProp 𝕄 := iprop((∃ r, prngReg c r) ∗ ∃ W, owes (c : Thread nD τ) (0 : CellTallies nD τ sig Unit) W)
/-- A host stretch as a segment from the contents W, Rst riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- Region 0 over the thread state: entered from every unscoped buffer at W1, left at W2. Its windows' arrays are split
    out of the unscoped buffers and put back at the exit contents; the generator register goes into the region's invariant
    and comes out; nothing is owed; the kernel has no semaphore of its own. -/
def reg0 : Pipeline.RegionSeg (pcfgs (F := F)) hadm (pdats m) () defs₀ 𝒱₀ Lv lvl 0 where
  win := launch0.win.to₀
  block_pos := launch0.block_pos
  stage_whole := launch0.stage_whole
  K := PEmpty
  osem k := k.elim
  ho := Pipeline.OwnSemFacts.none _
  hbody c := (body_obligation0 (Vin1 m) c).loose
  hwaits := Pipeline.hwaits_of_owed_zero _ _ _ _ Lv lvl 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (Vin1 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (Vin1 m c) (Vout2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its windows' arrays are split
    out of the unscoped buffers and put back at the exit contents; the generator register goes into the region's invariant
    and comes out; nothing is owed; the kernel has no semaphore of its own. -/
def reg1 : Pipeline.RegionSeg (pcfgs (F := F)) hadm (pdats m) () defs₀ 𝒱₀ Lv lvl 1 where
  win := launch1.win.to₀
  block_pos := launch1.block_pos
  stage_whole := launch1.stage_whole
  K := PEmpty
  osem k := k.elim
  ho := Pipeline.OwnSemFacts.none _
  hbody c := (body_obligation1 (Vin3 m) c).loose
  hwaits := Pipeline.hwaits_of_owed_zero _ _ _ _ Lv lvl 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (Vin3 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (Vin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (Vin3 m c) (Vout4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W8, left at W9. Its windows' arrays are split
    out of the unscoped buffers and put back at the exit contents; the generator register goes into the region's invariant
    and comes out; nothing is owed; the kernel has no semaphore of its own. -/
def reg2 : Pipeline.RegionSeg (pcfgs (F := F)) hadm (pdats m) () defs₀ 𝒱₀ Lv lvl 2 where
  win := launch2.win.to₀
  block_pos := launch2.block_pos
  stage_whole := launch2.stage_whole
  K := PEmpty
  osem k := k.elim
  ho := Pipeline.OwnSemFacts.none _
  hbody c := (body_obligation2 (Vin8 m) c).loose
  hwaits := Pipeline.hwaits_of_owed_zero _ _ _ _ Lv lvl 2 fun _ _ => rfl
  pre c := iprop(StableHlo.held (c : Thread nD τ) (Pipeline.ucRefs τ sig) (W8 m c) ∗ Rst c)
  post c := iprop(StableHlo.held (c : Thread nD τ) (Pipeline.ucRefs τ sig) (W9 m c) ∗ Rst c)
  X c := iprop(∃ r, prngReg c r)
  Y c := iprop(∃ r, prngReg c r)
  Z c := Pipeline.unscopedRest (Ix := Unit) (Name := ℕ) (U := UR sig nD τ) (Lvl := ℕ) spec2 c (Vin8 m c)
  hentry c := by
    rw [Pipeline.ownSems0_none]
    have hsplit := Pipeline.arrays_of_unscopedBufs (p := 2) (pcfgs (F := F)) hadm (pdats m) launch2.win launch2.arr_whole c
      ((pdats m 2 c).share_full fun _ => rfl) (Vin8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m) ((pdats m 2 c).share_full fun _ => rfl)
      (Vin8 m c) (Vout9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W10, left at W11. Its windows' arrays are split
    out of the unscoped buffers and put back at the exit contents; the generator register goes into the region's invariant
    and comes out; nothing is owed; the kernel has no semaphore of its own. -/
def reg3 : Pipeline.RegionSeg (pcfgs (F := F)) hadm (pdats m) () defs₀ 𝒱₀ Lv lvl 3 where
  win := launch3.win.to₀
  block_pos := launch3.block_pos
  stage_whole := launch3.stage_whole
  K := PEmpty
  osem k := k.elim
  ho := Pipeline.OwnSemFacts.none _
  hbody c := (body_obligation3 (Vin10 m) c).loose
  hwaits := Pipeline.hwaits_of_owed_zero _ _ _ _ Lv lvl 3 fun _ _ => rfl
  pre c := iprop(StableHlo.held (c : Thread nD τ) (Pipeline.ucRefs τ sig) (W10 m c) ∗ Rst c)
  post c := iprop(StableHlo.held (c : Thread nD τ) (Pipeline.ucRefs τ sig) (W11 m c) ∗ Rst c)
  X c := iprop(∃ r, prngReg c r)
  Y c := iprop(∃ r, prngReg c r)
  Z c := Pipeline.unscopedRest (Ix := Unit) (Name := ℕ) (U := UR sig nD τ) (Lvl := ℕ) spec3 c (Vin10 m c)
  hentry c := by
    rw [Pipeline.ownSems0_none]
    have hsplit := Pipeline.arrays_of_unscopedBufs (p := 3) (pcfgs (F := F)) hadm (pdats m) launch3.win launch3.arr_whole c
      ((pdats m 3 c).share_full fun _ => rfl) (Vin10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (pdats m) ((pdats m 3 c).share_full fun _ => rfl)
      (Vin10 m c) (Vout11 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W12, left at W13. Its windows' arrays are split
    out of the unscoped buffers and put back at the exit contents; the generator register goes into the region's invariant
    and comes out; nothing is owed; the kernel has no semaphore of its own. -/
def reg4 : Pipeline.RegionSeg (pcfgs (F := F)) hadm (pdats m) () defs₀ 𝒱₀ Lv lvl 4 where
  win := launch4.win.to₀
  block_pos := launch4.block_pos
  stage_whole := launch4.stage_whole
  K := PEmpty
  osem k := k.elim
  ho := Pipeline.OwnSemFacts.none _
  hbody c := (body_obligation4 (Vin12 m) c).loose
  hwaits := Pipeline.hwaits_of_owed_zero _ _ _ _ Lv lvl 4 fun _ _ => rfl
  pre c := iprop(StableHlo.held (c : Thread nD τ) (Pipeline.ucRefs τ sig) (W12 m c) ∗ Rst c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (Vin12 m c)
  hentry c := by
    rw [Pipeline.ownSems0_none]
    have hsplit := Pipeline.arrays_of_unscopedBufs (p := 4) (pcfgs (F := F)) hadm (pdats m) launch4.win launch4.arr_whole c
      ((pdats m 4 c).share_full fun _ => rfl) (Vin12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) hadm (Ix := Unit) (Name := ℕ) (U := UR sig nD τ) (Lvl := ℕ)
      launch4.win launch4.arr_whole c (pdats m) ((pdats m 4 c).share_full fun _ => rfl)
      (Vin12 m c) (Vout13 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's thirteen segments in order. -/
abbrev hsegs : List (Pipeline.Seg (pcfgs (F := F)) hadm (pdats m) () defs₀ 𝒱₀ Lv lvl) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .region (reg2 m),
    .host (hseg hostOps3 hostOps3_sub hostOps3_fresh (W9 m)),
    .region (reg3 m),
    .host (hseg hostOps4 hostOps4_sub hostOps4_fresh (W11 m)),
    .region (reg4 m) ]
/-- The program IS the run of the segments. -/
theorem main_run (c : Dev nD) : main (F := F) c = Pipeline.Seg.run (hsegs m) := (main_chain c).trans (by chain_rfl)

set_option backward.isDefEq.respectTransparency.types false in
/-- From any memory with zero counters every weakly fair execution of the program terminates, nothing faulting, and in
    every final memory every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) hadm (pdats m) () cellOf_inj emb₁ defs₀ 𝒱₀ Lv lvl m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W13_main_arg0 m c),
    (h c _ (mem_uc main_arg1 (by decide))).trans (W13_main_arg1 m c),
    (h c _ (mem_uc main_arg2 (by decide))).trans (W13_main_arg2 m c),
    (h c _ (mem_uc main_arg3 (by decide))).trans (W13_main_arg3 m c),
    (h c _ (mem_uc main_arg4 (by decide))).trans (W13_main_arg4 m c),
    (h c _ (mem_uc main_arg5 (by decide))).trans (W13_main_arg5 m c),
    (h c _ (mem_uc main_arg6 (by decide))).trans (W13_main_arg6 m c),
    (h c _ (mem_uc main_arg7 (by decide))).trans (W13_main_arg7 m c),
    (h c _ (mem_uc main_arg8 (by decide))).trans (W13_main_arg8 m c),
    (h c _ (mem_uc main_arg9 (by decide))).trans (W13_main_arg9 m c),
    (h c _ (mem_uc main_arg10 (by decide))).trans (W13_main_arg10 m c),
    (h c _ (mem_uc main_arg11 (by decide))).trans (W13_main_arg11 m c)⟩)
    (run_all m ρ)

end Cert.KernelIdeal.Hand

end
-- ==== Proof.LibNary3.lean ====
/-
  A `stablehlo.concatenate` of THREE operands, read back from a straight line of host operations.

  The value a three-operand operation writes is its function of the family of its operands' contents. Stated over a literal
  family of three references, the family is spelt entry by entry — each operand's contents at its own reference — so that
  what those three buffers hold can be rewritten further by the result lemmas of the operations that wrote them; and a family
  spelt entry by entry read at `0`, `1` or `2` is that entry.
-/
import Idealize.ShloMosaic.Lib.StableHlo.Run

namespace Idealize.ShloMosaic.StableHlo

variable {τ : Topo} {sig : RefSig} {Val : EltTy → Type} {x a b y : Ref sig .tc}

/-- `nary` over a LITERAL family of three references: the result with each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for one pass of `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A family of three spelt entry by entry, read at `0`, … -/
theorem cons3_zero {α : Fin 3 → Sort _} (a : α 0) (b : α 1) (c : α 2) (e : (i : Fin 0) → α i.succ.succ.succ) :
    (Fin.cons a (Fin.cons (α := fun i : Fin 2 => α i.succ) b (Fin.cons (α := fun i : Fin 1 => α i.succ.succ) c e)) : (k : Fin 3) → α k) 0 = a := rfl
/-- … at `1`, … -/
theorem cons3_one {α : Fin 3 → Sort _} (a : α 0) (b : α 1) (c : α 2) (e : (i : Fin 0) → α i.succ.succ.succ) :
    (Fin.cons a (Fin.cons (α := fun i : Fin 2 => α i.succ) b (Fin.cons (α := fun i : Fin 1 => α i.succ.succ) c e)) : (k : Fin 3) → α k) 1 = b := rfl
/-- … and at `2`. -/
theorem cons3_two {α : Fin 3 → Sort _} (a : α 0) (b : α 1) (c : α 2) (e : (i : Fin 0) → α i.succ.succ.succ) :
    (Fin.cons a (Fin.cons (α := fun i : Fin 2 => α i.succ) b (Fin.cons (α := fun i : Fin 1 => α i.succ.succ) c e)) : (k : Fin 3) → α k) 2 = c := rfl

/-- What one buffer holds after a straight line of host operations, as ONE `simp` pass over the operations' result lemmas,
    a three-operand operation's operands read entry by entry. -/
macro "after_results_simp3" : tactic =>
  `(tactic| (simp (disch := decide) only [after_cons, after_nil,
      nullary_result', unary_result', binary_result', ternary_result', quaternary_result', reshape_result', nary3_result',
      cons3_zero, cons3_one, cons3_two,
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KiHost.lean ====
/-
  The host stretches of the idealized kernel program, read back: what a buffer holds after a stretch, as the stretch's
  operations applied to what the buffers held before it. A stretch is a straight line of pure operations, each writing
  one fresh buffer, so the value of a buffer after it is the composed term of the operations that lead to it.
-/
import proofs.«411279_j64037962384024_2_alg».proof.Proof.Gen.KernelIdeal.Launch
import proofs.«411279_j64037962384024_2_alg».proof.Proof.LibNary3
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F] [Named F]
variable (W : Valuation τ sig (Elt F))

/-- After the first stretch the stacked weight is the three transposed weights side by side. -/
theorem read_v3 : StableHlo.after hostOps0 W (Proc.devRef .tc main_v3)
    = concatenate S128x384 1 [⟨S128x128, transpose S128x128 [1, 0] (W (Proc.devRef .tc main_arg4)) transposes_S128x128_S128x128_1_0⟩,
        ⟨S128x128, transpose S128x128 [1, 0] (W (Proc.devRef .tc main_arg5)) transposes_S128x128_S128x128_1_0⟩,
        ⟨S128x128, transpose S128x128 [1, 0] (W (Proc.devRef .tc main_arg6)) transposes_S128x128_S128x128_1_0⟩] concatenates_S128x128_S128x128_S128x128_S128x384_d1 := by
  show StableHlo.after hostOps0 W (Proc.devRef .tc main_v3) = _
  after_results_simp3 <;> rfl

/-- After the second stretch: the three column bands of the stacked product, each reshaped to [N, 4, 32], and the
    transposed edge weight. -/
theorem read_v6 : StableHlo.after hostOps1 W (Proc.devRef .tc main_v6)
    = shapeCast S50000x4x32 (extractStridedSlice S50000x128 ![0, 0] (W (Proc.devRef .tc main_v4)) slices_S50000x384_S50000x128_0_0) shapeCasts_S50000x128_S50000x4x32 := by
  show StableHlo.after hostOps1 W (Proc.devRef .tc main_v6) = _
  after_results_simp <;> rfl
theorem read_v8 : StableHlo.after hostOps1 W (Proc.devRef .tc main_v8)
    = shapeCast S50000x4x32 (extractStridedSlice S50000x128 ![0, 128] (W (Proc.devRef .tc main_v4)) slices_S50000x384_S50000x128_0_128) shapeCasts_S50000x128_S50000x4x32 := by
  show StableHlo.after hostOps1 W (Proc.devRef .tc main_v8) = _
  after_results_simp <;> rfl
theorem read_v10 : StableHlo.after hostOps1 W (Proc.devRef .tc main_v10)
    = shapeCast S50000x4x32 (extractStridedSlice S50000x128 ![0, 256] (W (Proc.devRef .tc main_v4)) slices_S50000x384_S50000x128_0_256) shapeCasts_S50000x128_S50000x4x32 := by
  show StableHlo.after hostOps1 W (Proc.devRef .tc main_v10) = _
  after_results_simp <;> rfl
theorem read_v11 : StableHlo.after hostOps1 W (Proc.devRef .tc main_v11)
    = transpose S128x128 [1, 0] (W (Proc.devRef .tc main_arg7)) transposes_S128x128_S128x128_1_0 := by
  show StableHlo.after hostOps1 W (Proc.devRef .tc main_v11) = _
  after_results_simp <;> rfl

/-- After the third stretch: the edge projection reshaped to [E, 4, 32]. -/
theorem read_v13 : StableHlo.after hostOps2 W (Proc.devRef .tc main_v13)
    = shapeCast S600000x4x32 (W (Proc.devRef .tc main_v12)) shapeCasts_S600000x128_S600000x4x32 := by
  show StableHlo.after hostOps2 W (Proc.devRef .tc main_v13) = _
  after_results_simp <;> rfl

/-- After the stretch between the score region and the node network: the aggregated features, and the two transposed
    weights of the node network. -/
theorem read_v28 : StableHlo.after hostOps3 W (Proc.devRef .tc main_v28)
    = shapeCast S50000x128 (Host.divf
        (Host.scatterAdd scatter_S50000x4x32_S600000x1_S600000x4x32_12_0_0_1
          (broadcastInDim S50000x4x32 ![] bcast_S_S50000x4x32 (constant S_ .f32 0x00000000#32))
          (broadcastInDim S600000x1 ![0] bcast_S600000_S600000x1_0 (W (Proc.devRef .tc main_arg3)))
          (W (Proc.devRef .tc main_v17_2)))
        (broadcastInDim S50000x4x32 ![0, 1, 2] bcast_S50000x4x1_S50000x4x32_0_1_2
          (addf (Host.scatterAdd scatter_S50000x4x1_S600000x1_S600000x4x1_12_0_0_1
              (broadcastInDim S50000x4x1 ![] bcast_S_S50000x4x1 (constant S_ .f32 0x00000000#32))
              (broadcastInDim S600000x1 ![0] bcast_S600000_S600000x1_0 (W (Proc.devRef .tc main_arg3)))
              (W (Proc.devRef .tc main_v17_1)))
            (broadcastInDim S50000x4x1 ![] bcast_S_S50000x4x1 (constant S_ .f32 0x358637BD#32)))))
      shapeCasts_S50000x4x32_S50000x128 := by
  show StableHlo.after hostOps3 W (Proc.devRef .tc main_v28) = _
  after_results_simp <;> rfl
theorem read_v29 : StableHlo.after hostOps3 W (Proc.devRef .tc main_v29)
    = transpose S128x256 [1, 0] (W (Proc.devRef .tc main_arg8)) transposes_S256x128_S128x256_1_0 := by
  show StableHlo.after hostOps3 W (Proc.devRef .tc main_v29) = _
  after_results_simp <;> rfl
theorem read_v30 : StableHlo.after hostOps3 W (Proc.devRef .tc main_v30)
    = transpose S256x128 [1, 0] (W (Proc.devRef .tc main_arg9)) transposes_S128x256_S256x128_1_0 := by
  show StableHlo.after hostOps3 W (Proc.devRef .tc main_v30) = _
  after_results_simp <;> rfl

/-- After the last stretch: the two transposed weights of the edge network and the scores flattened to [E, 128]. -/
theorem read_v32 : StableHlo.after hostOps4 W (Proc.devRef .tc main_v32)
    = transpose S128x256 [1, 0] (W (Proc.devRef .tc main_arg10)) transposes_S256x128_S128x256_1_0 := by
  show StableHlo.after hostOps4 W (Proc.devRef .tc main_v32) = _
  after_results_simp <;> rfl
theorem read_v33 : StableHlo.after hostOps4 W (Proc.devRef .tc main_v33)
    = transpose S256x128 [1, 0] (W (Proc.devRef .tc main_arg11)) transposes_S128x256_S256x128_1_0 := by
  show StableHlo.after hostOps4 W (Proc.devRef .tc main_v33) = _
  after_results_simp <;> rfl
theorem read_v34 : StableHlo.after hostOps4 W (Proc.devRef .tc main_v34)
    = shapeCast S600000x128 (W (Proc.devRef .tc main_v17_0)) shapeCasts_S600000x4x32_S600000x128 := by
  show StableHlo.after hostOps4 W (Proc.devRef .tc main_v34) = _
  after_results_simp <;> rfl

end Cert.KernelIdeal.Val

end
-- ==== Proof.KiTake.lean ====
/-
  jnp.take against a plain gather, and the index range the precondition states.

  jnp.take normalises an index column (a negative index gets the table's extent 50000 added), gathers the rows at the
  normalised indices, and replaces by NaN every row whose normalised index lies outside [0, 49999]. The precondition
  says every entry of the two index inputs lies in [0, 49999]. Such an index is not negative, so normalising leaves it
  as it is; it is inside the range, so the row's mask bit — the "and" over a unit axis of the two comparisons — is one,
  and the select keeps the gathered row. What is left is the plain gather at the normalised index column.
-/
import proofs.«411279_j64037962384024_2_alg».proof.Proof.Gen.KernelIdeal.Launch
import proofs.«411279_j64037962384024_2_alg».proof.Proof.Gen.Pre_finite_inputs
import proofs.«411279_j64037962384024_2_alg».proof.Defs
import Idealize.ShloMosaic.Lib.StableHlo.Run
import Idealize.ShloMosaic.Lib.StableHlo.Predicate
import Idealize.ShloMosaic.Lib.ReduceAll

set_option maxRecDepth 16384

noncomputable section

namespace Cert.KernelIdeal.Val

open Cert.KernelIdeal Cert.KernelIdeal.Gen
open Idealize.ShloMosaic Idealize.ShloMosaic.TcCoe Idealize.SL.Sem

/-! ## Words -/

/-- A word that is not negative is not replaced: the select on "index < 0" keeps it. -/
theorem word_keep (w : BitVec 32) (h0 : IntOp.cmpi .sge w 0#32 = 1#1) :
    Scalar.select (IntOp.cmpi .slt w 0#32) (IntOp.addi w 50000#32) w = w := by
  unfold Scalar.select
  rw [if_neg]
  intro h
  have h1 := IntOp.cmpi_slt.1 h
  have h2 := IntOp.cmpi_sge.1 h0
  omega

/-- A left fold by "and" from 1 over 1s is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl =>
    foldl_andi_ones f l _ (IntOp.andi_eq_one.2 ⟨h, hl a (List.mem_cons_self ..)⟩) (fun n hn => hl n (List.mem_cons_of_mem _ hn))

/-- An "and"-reduce from 1 of an array of 1s is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_ones x _ _ hinit (fun n _ => hx n)

/-! ## The normalised index column -/

/-- The index column jnp.take gathers at: a negative index has the table's extent added, and the vector is kept as an
    [E, 1] column. -/
def takeIdx (idx : S600000.Idx → BitVec 32) : S600000x1.Idx → BitVec 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 50000#32))) idx)

/-- Under the range hypothesis an entry of the column is an entry of the index vector, unchanged. -/
theorem takeIdx_apply (idx : S600000.Idx → BitVec 32)
    (hidx : ∀ e : S600000.Idx, IntOp.cmpi .sge (idx e) 0#32 = 1#1 ∧ IntOp.cmpi .sle (idx e) 49999#32 = 1#1)
    (i : S600000x1.Idx) : ∃ e : S600000.Idx, takeIdx idx i = idx e :=
  ⟨_, word_keep _ (hidx _).1⟩

/-- The mask of jnp.take — both comparisons of the normalised column, "and"-reduced over the unit axis — is 1 at every row. -/
theorem take_mask_ones (idx : S600000.Idx → BitVec 32)
    (hidx : ∀ e : S600000.Idx, IntOp.cmpi .sge (idx e) 0#32 = 1#1 ∧ IntOp.cmpi .sle (idx e) 49999#32 = 1#1) (e : S600000.Idx) :
    Host.reduce IntOp.andi
      (andi (cmpi .sge (takeIdx idx) (broadcastInDim S600000x1 ![] bcast_S_S600000x1 (constantI S_ 32 0#32)))
        (cmpi .sle (takeIdx idx) (broadcastInDim S600000x1 ![0, 1] bcast_S1x1_S600000x1_0_1
          (broadcastInDim S1x1 ![1] bcast_S1_S1x1_1 (constantI S1 32 49999#32)))))
      (constantI S_ 1 1#1) reducesTo_S600000x1_S600000_d1 h_S_ e = 1#1 := by
  refine reduce_andi_ones _ _ _ _ rfl (fun i => ?_) e
  obtain ⟨e', he'⟩ := takeIdx_apply idx hidx i
  show IntOp.andi (IntOp.cmpi .sge (takeIdx idx i) 0#32) (IntOp.cmpi .sle (takeIdx idx i) 49999#32) = 1#1
  rw [he']
  exact IntOp.andi_eq_one.2 (hidx e')

/-- jnp.take at in-range indices: the select under the (all-ones) mask keeps the gathered rows. -/
theorem take_eq_gather {α : Type} (g nan : S600000x4x32.Idx → α) (idx : S600000.Idx → BitVec 32)
    (hidx : ∀ e : S600000.Idx, IntOp.cmpi .sge (idx e) 0#32 = 1#1 ∧ IntOp.cmpi .sle (idx e) 49999#32 = 1#1) :
    select (broadcastInDim S600000x4x32 ![0] bcast_S600000_S600000x4x32_0
      (Host.reduce IntOp.andi
        (andi (cmpi .sge (takeIdx idx) (broadcastInDim S600000x1 ![] bcast_S_S600000x1 (constantI S_ 32 0#32)))
          (cmpi .sle (takeIdx idx) (broadcastInDim S600000x1 ![0, 1] bcast_S1x1_S600000x1_0_1
            (broadcastInDim S1x1 ![1] bcast_S1_S1x1_1 (constantI S1 32 49999#32)))))
        (constantI S_ 1 1#1) reducesTo_S600000x1_S600000_d1 h_S_)) g nan = g := by
  funext j
  show Scalar.select _ (g j) (nan j) = g j
  unfold Scalar.select
  rw [if_pos]
  exact take_mask_ones idx hidx _

/-! ## The three calls read back -/

set_option maxHeartbeats 1000000 in
/-- Call 0 (K rows at src). -/
theorem take_read_call0 (W : Valuation τ sig (Elt Ideal))
    (hidx : ∀ e : S600000.Idx, IntOp.cmpi .sge (W (Proc.devRef .tc main_arg2) e) 0#32 = 1#1
      ∧ IntOp.cmpi .sle (W (Proc.devRef .tc main_arg2) e) 49999#32 = 1#1) :
    StableHlo.after hostOps2_1 W (Proc.devRef .tc main_v14)
      = Host.gather gather_S50000x4x32_S600000x1_S600000x4x32_12_0_n_n_0_1_1432 (W (Proc.devRef .tc main_v8))
          (takeIdx (W (Proc.devRef .tc main_arg2))) := by
  after_results_simp
  simp only [StableHlo.TRef.ofBuf, StableHlo.TRef.toBuf, cast_cast]
  simp only [cast_eq]
  exact take_eq_gather _ _ _ hidx

set_option maxHeartbeats 1000000 in
/-- Call 1 (Q rows at dst). -/
theorem take_read_call1 (W : Valuation τ sig (Elt Ideal))
    (hidx : ∀ e : S600000.Idx, IntOp.cmpi .sge (W (Proc.devRef .tc main_arg3) e) 0#32 = 1#1
      ∧ IntOp.cmpi .sle (W (Proc.devRef .tc main_arg3) e) 49999#32 = 1#1) :
    StableHlo.after hostOps2_2 W (Proc.devRef .tc main_v15)
      = Host.gather gather_S50000x4x32_S600000x1_S600000x4x32_12_0_n_n_0_1_1432 (W (Proc.devRef .tc main_v6))
          (takeIdx (W (Proc.devRef .tc main_arg3))) := by
  after_results_simp
  simp only [StableHlo.TRef.ofBuf, StableHlo.TRef.toBuf, cast_cast]
  simp only [cast_eq]
  exact take_eq_gather _ _ _ hidx

set_option maxHeartbeats 1000000 in
/-- Call 2 (V rows at src). -/
theorem take_read_call2 (W : Valuation τ sig (Elt Ideal))
    (hidx : ∀ e : S600000.Idx, IntOp.cmpi .sge (W (Proc.devRef .tc main_arg2) e) 0#32 = 1#1
      ∧ IntOp.cmpi .sle (W (Proc.devRef .tc main_arg2) e) 49999#32 = 1#1) :
    StableHlo.after hostOps2_3 W (Proc.devRef .tc main_v16)
      = Host.gather gather_S50000x4x32_S600000x1_S600000x4x32_12_0_n_n_0_1_1432 (W (Proc.devRef .tc main_v10))
          (takeIdx (W (Proc.devRef .tc main_arg2))) := by
  after_results_simp
  simp only [StableHlo.TRef.ofBuf, StableHlo.TRef.toBuf, cast_cast]
  simp only [cast_eq]
  exact take_eq_gather _ _ _ hidx

/-! ## The precondition's index range -/

instance : Subsingleton Cert.Pre_finite_inputs.S_.Idx := ⟨fun a b => funext fun d => d.elim0⟩

/-- jnp.all of the two range comparisons of an index vector being 1 says every entry is in [0, 49999]. -/
theorem range_of_all (idx : Cert.Pre_finite_inputs.S600000.Idx → BitVec 32) (j : Cert.Pre_finite_inputs.S_.Idx)
    (h : Host.reduce IntOp.andi
      (andi (cmpi .sge idx (broadcastInDim Cert.Pre_finite_inputs.S600000 ![] Cert.Pre_finite_inputs.Facts.bcast_S_S600000 (constantI Cert.Pre_finite_inputs.S_ 32 0#32)))
        (cmpi .sle idx (broadcastInDim Cert.Pre_finite_inputs.S600000 ![] Cert.Pre_finite_inputs.Facts.bcast_S_S600000 (constantI Cert.Pre_finite_inputs.S_ 32 49999#32))))
      (constantI Cert.Pre_finite_inputs.S_ 1 1#1) Cert.Pre_finite_inputs.Facts.reducesTo_S600000_S_d0 Cert.Pre_finite_inputs.Facts.h_S_ j = 1#1)
    (e : Cert.Pre_finite_inputs.S600000.Idx) :
    IntOp.cmpi .sge (idx e) 0#32 = 1#1 ∧ IntOp.cmpi .sle (idx e) 49999#32 = 1#1 :=
  IntOp.andi_eq_one.1 (Host.reduce_andi_all _ _ _ _ j h e)

/-- The precondition, decoded: on every device both index inputs lie in [0, 49999], entry by entry. -/
theorem pre_idx (m : (ℓ : Loc nD τ sig) → Buf (Elt Ideal) ℓ) (hpre : Cert.Pre_KernelIdeal m) (c : Dev nD) :
    (∀ e : S600000.Idx, IntOp.cmpi .sge (m ((c.tc : Thread nD τ).loc main_arg2) e) 0#32 = 1#1
      ∧ IntOp.cmpi .sle (m ((c.tc : Thread nD τ).loc main_arg2) e) 49999#32 = 1#1)
    ∧ (∀ e : S600000.Idx, IntOp.cmpi .sge (m ((c.tc : Thread nD τ).loc main_arg3) e) 0#32 = 1#1
      ∧ IntOp.cmpi .sle (m ((c.tc : Thread nD τ).loc main_arg3) e) 49999#32 = 1#1) := by
  have e : IntOp.andi (IntOp.andi _ _) _ = 1#1 := congrFun (hpre c) (fun a => a.elim0)
  obtain ⟨e1, e3⟩ := IntOp.andi_eq_one.1 e
  obtain ⟨-, e2⟩ := IntOp.andi_eq_one.1 e1
  exact ⟨range_of_all _ _ e2, range_of_all _ _ e3⟩

end Cert.KernelIdeal.Val

end
-- ==== Proof.KiV0.lean ====
/- Region 0 at the ideal instance: the stacked projection. Every grid point writes back the block of 5000 rows of
  (node features) x (the three transposed weights side by side); the blocks tile the 50000 x 384 result. Its column
  bands [0,128), [128,256), [256,384), each reshaped to [N, 4, 32], are the reference's three separate projections:
  a column of the stacked weight inside band j is the same column of the j-th transposed weight.
-/
import proofs.«411279_j64037962384024_2_alg».proof.Proof.KiR0
import proofs.«411279_j64037962384024_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

/-! ## The products, entry by entry -/

/-- Entry (r, m) of the stacked product: the sum over k of feature (r, k) times stacked weight (k, m). -/
def stackedProjAt (A0 : S50000x128.Idx → EReal) (W : S128x384.Idx → EReal) (r : Fin 50000) (m : Fin 384) : EReal :=
  ∑ k : Fin 128, A0 (ix2 r k) * W (ix2 k m)

/-- The whole 50000 x 384 stacked product as one function of the index. -/
def stackedProj (A0 : S50000x128.Idx → EReal) (W : S128x384.Idx → EReal) : S50000x384.Idx → EReal :=
  fun i => stackedProjAt A0 W (i 0) (i 1)

theorem stackedProj_apply (A0 : S50000x128.Idx → EReal) (W : S128x384.Idx → EReal) (i : S50000x384.Idx)
    (r : Fin 50000) (m : Fin 384) (hr : (i 0).val = r.val) (hm : (i 1).val = m.val) :
    stackedProj A0 W i = stackedProjAt A0 W r m := by
  have e0 : (i 0 : Fin 50000) = r := Fin.ext hr
  have e1 : (i 1 : Fin 384) = m := Fin.ext hm
  show stackedProjAt A0 W (i 0) (i 1) = _
  rw [e0, e1]

/-- Entry (r, n) of one projection: the sum over k of feature (r, k) times weight (n, k); the weight enters transposed. -/
def nodeProjAt (A0 : S50000x128.Idx → EReal) (A : S128x128.Idx → EReal) (r : Fin 50000) (n : Fin 128) : EReal :=
  ∑ k : Fin 128, A0 (ix2 r k) * A (ix2 n k)

/-- One 50000 x 128 projection as one function of the index. -/
def nodeProj (A0 : S50000x128.Idx → EReal) (A : S128x128.Idx → EReal) : S50000x128.Idx → EReal :=
  fun i => nodeProjAt A0 A (i 0) (i 1)

/-! ## The body's payload at an index: a 5000 x 128 block times the 128 x 384 stacked weight -/

theorem lhs_st_0 (i : S5000x384.Idx) (q : dot_S5000x128_S128x384_S5000x384_1_0_0_1_n_n.contr.Idx) :
    (dot_S5000x128_S128x384_S5000x384_1_0_0_1_n_n.lhsIdx i q 0).val = (i 0).val := by
  unfold DotDims.lhsIdx
  rw [dif_neg (show ¬(0 : Fin S5000x128.rank) ∈ dot_S5000x128_S128x384_S5000x384_1_0_0_1_n_n.lhsBatch by decide), dif_pos (show (0 : Fin S5000x128.rank) ∈ dot_S5000x128_S128x384_S5000x384_1_0_0_1_n_n.lhsNonContracting by decide)]
  rfl
theorem lhs_st_1 (i : S5000x384.Idx) (q : dot_S5000x128_S128x384_S5000x384_1_0_0_1_n_n.contr.Idx) :
    (dot_S5000x128_S128x384_S5000x384_1_0_0_1_n_n.lhsIdx i q 1).val = (q ⟨0, by decide⟩).val :=
  dot_S5000x128_S128x384_S5000x384_1_0_0_1_n_n.lhsIdx_val_of_single rfl i q
theorem rhs_st_0 (i : S5000x384.Idx) (q : dot_S5000x128_S128x384_S5000x384_1_0_0_1_n_n.contr.Idx) :
    (dot_S5000x128_S128x384_S5000x384_1_0_0_1_n_n.rhsIdx i q 0).val = (q ⟨0, by decide⟩).val :=
  dot_S5000x128_S128x384_S5000x384_1_0_0_1_n_n.rhsIdx_val_of_single rfl i q
theorem rhs_st_1 (i : S5000x384.Idx) (q : dot_S5000x128_S128x384_S5000x384_1_0_0_1_n_n.contr.Idx) :
    (dot_S5000x128_S128x384_S5000x384_1_0_0_1_n_n.rhsIdx i q 1).val = (i 1).val := by
  unfold DotDims.rhsIdx
  rw [dif_neg (show ¬(1 : Fin S128x384.rank) ∈ dot_S5000x128_S128x384_S5000x384_1_0_0_1_n_n.rhsBatch by decide), dif_pos (show (1 : Fin S128x384.rank) ∈ dot_S5000x128_S128x384_S5000x384_1_0_0_1_n_n.rhsNonContracting by decide)]
  rfl

/-- Entry (p, q) of the body's payload: the format changes are the identity on the extended reals and the accumulator
    is zero, so it is the plain sum over k of x0 (p, k) times x1 (k, q). -/
theorem st_pay_apply (x0 : Vec Ideal S5000x128 .f32) (x1 : Vec Ideal S128x384 .f32) (p : Fin 5000) (q : Fin 384) :
    k0_pay1 (F := Ideal) x0 x1 (ix2 p q) = ∑ k : Fin 128, x0 (ix2 p k) * x1 (ix2 k q) := by
  unfold k0_pay1
  refine (Ideal.matmul_constant_zero_apply dot_S5000x128_S128x384_S5000x384_1_0_0_1_n_n none _ _ (ix2 p q)).trans ?_
  rw [← Equiv.sum_comp (ValueIdx.contrEquiv1 dot_S5000x128_S128x384_S5000x384_1_0_0_1_n_n 128 rfl rfl).symm]
  refine Finset.sum_congr rfl fun k _ => ?_
  have hk := ValueIdx.contrEquiv1_symm_val dot_S5000x128_S128x384_S5000x384_1_0_0_1_n_n 128 rfl rfl k
  have el : dot_S5000x128_S128x384_S5000x384_1_0_0_1_n_n.lhsIdx (ix2 p q) ((ValueIdx.contrEquiv1 dot_S5000x128_S128x384_S5000x384_1_0_0_1_n_n 128 rfl rfl).symm k) = ix2 p k := funext fun a => Fin.ext (by
    match a with
    | ⟨0, _⟩ => exact lhs_st_0 _ _
    | ⟨1, _⟩ => exact (lhs_st_1 _ _).trans hk)
  have er : dot_S5000x128_S128x384_S5000x384_1_0_0_1_n_n.rhsIdx (ix2 p q) ((ValueIdx.contrEquiv1 dot_S5000x128_S128x384_S5000x384_1_0_0_1_n_n 128 rfl rfl).symm k) = ix2 k q := funext fun a => Fin.ext (by
    match a with
    | ⟨0, _⟩ => exact (rhs_st_0 _ _).trans hk
    | ⟨1, _⟩ => exact rhs_st_1 _ _)
  rw [el, er]
  rw [truncf_apply, truncf_apply, shapeCast_self]

/-! ## The blocks: where a block's entry sits in its array -/

theorem zeros_st : (![0, 0] : Fin 2 → Nat) = fun _ => 0 := funext fun a => by fin_cases a <;> rfl

/-- The printed index maps over the 10 grid points: the feature block and the output block of point t are the t-th
    blocks of 5000 rows, the stacked weight's block is always the whole of it. -/
theorem st_index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry x of the feature block at point t is the array's entry 5000 t rows further down. -/
theorem st_rows_blk (c : Dev nD) (t : Fin cfg0.N) (x : S5000x128.Idx) (i : S50000x128.Idx)
    (hi0 : (i 0).val = t.val * 5000 + (x 0).val) (hi1 : (i 1).val = (x 1).val) :
    (iblk0 V c 0 t : Vec Ideal S5000x128 .f32) x = (V c main_arg0 : S50000x128.Idx → EReal) i := by
  obtain ⟨e00, e01, -, -, -, -⟩ := st_index_facts t
  unfold iblk0
  rw [View.read_apply]
  show V c main_arg0 _ = V c main_arg0 i
  congr 1
  funext a
  apply Fin.ext
  match a with
  | ⟨0, _⟩ => show win0_0.index t (0 : Fin 2) * 5000 + 1 * (x 0).val = (i 0).val; rw [e00, hi0]; omega
  | ⟨1, _⟩ => show win0_0.index t (1 : Fin 2) * 128 + 1 * (x 1).val = (i 1).val; rw [e01, hi1]; omega

/-- The stacked weight's block at any point is the whole stacked weight. -/
theorem st_weight_blk (c : Dev nD) (t : Fin cfg0.N) (x : S128x384.Idx) :
    (iblk0 V c 1 t : Vec Ideal S128x384 .f32) x = (V c main_v3 : S128x384.Idx → EReal) x := by
  obtain ⟨-, -, e10, e11, -, -⟩ := st_index_facts t
  unfold iblk0
  rw [View.read_apply]
  show V c main_v3 _ = V c main_v3 x
  congr 1
  funext a
  apply Fin.ext
  match a with
  | ⟨0, _⟩ => show win0_1.index t (0 : Fin 2) * 128 + 1 * (x 0).val = (x 0).val; rw [e10]; omega
  | ⟨1, _⟩ => show win0_1.index t (1 : Fin 2) * 384 + 1 * (x 1).val = (x 1).val; rw [e11]; omega

/-! ## What a point writes back, and the array after the region -/

/-- Point t writes back block t of the stacked product: rows 5000 t to 5000 t + 4999, all 384 columns. -/
theorem st_flushed (c : Dev nD) (A0 : S50000x128.Idx → EReal) (W : S128x384.Idx → EReal)
    (h0 : V c main_arg0 = A0) (hW : V c main_v3 = W) (t : Fin cfg0.N) :
    (dat0 V c).flushed 2 t = ((cfg0.win 2).blk t).view.read (Elt Ideal) (stackedProj A0 W) := by
  show (cfg0.win 2).cut (grid0.coords t) ((dat0 V c).after 2 t) = _
  rw [after0_2]
  unfold out0_2
  rw [View.canon_unit_zero zeros_st]
  simp only [View.ld_unit_zero (S := S5000x128) zeros_st, View.ld_unit_zero (S := S128x384) zeros_st]
  funext j
  obtain ⟨p, q, rfl⟩ : ∃ (p : Fin 5000) (q : Fin 384), j = ix2 p q := ⟨j 0, j 1, eq_ix2 j⟩
  show k0_pay1 (F := Ideal) (iblk0 V c 0 t) (iblk0 V c 1 t) (ix2 p q) = stackedProj A0 W (((cfg0.win 2).blk t).view.emb (ix2 p q))
  obtain ⟨-, -, -, -, e20, e21⟩ := st_index_facts t
  have hN : cfg0.N = 10 := N_0
  have ht : t.val < 10 := hN ▸ t.isLt
  have hr : t.val * 5000 + p.val < 50000 := by have := p.isLt; omega
  refine (st_pay_apply (iblk0 V c 0 t) (iblk0 V c 1 t) p q).trans ?_
  refine Eq.trans ?_ (stackedProj_apply A0 W _ ⟨t.val * 5000 + p.val, hr⟩ q ?_ ?_).symm
  · unfold stackedProjAt
    refine Finset.sum_congr rfl fun k _ => ?_
    have eL : (iblk0 V c 0 t : Vec Ideal S5000x128 .f32) (ix2 p k) = A0 (ix2 ⟨t.val * 5000 + p.val, hr⟩ k) :=
      (st_rows_blk V c t (ix2 p k) (ix2 ⟨t.val * 5000 + p.val, hr⟩ k) rfl rfl).trans (congrFun h0 _)
    have eR : (iblk0 V c 1 t : Vec Ideal S128x384 .f32) (ix2 k q) = W (ix2 k q) :=
      (st_weight_blk V c t (ix2 k q)).trans (congrFun hW _)
    rw [eL, eR]
  · show win0_2.index t (0 : Fin 2) * 5000 + 1 * p.val = t.val * 5000 + p.val
    rw [e20]; omega
  · show win0_2.index t (1 : Fin 2) * 384 + 1 * q.val = q.val
    rw [e21]; omega

/-- An index of the output array is in point t's block iff each coordinate is in the block's range on its axis. -/
theorem st_mem_blk (t : Fin cfg0.N) (i : S50000x384.Idx) :
    i ∈ ((cfg0.win 2).blk t).view.set ↔ ∀ a : Fin 2, win0_2.index t a * S5000x384.size a ≤ (i a).val ∧ (i a).val < win0_2.index t a * S5000x384.size a + S5000x384.size a := by
  show i ∈ ((View.whole main_v4).slice (win0_2.rect t)).set ↔ _
  rw [View.set_slice_whole, Rect.mem_set_unit]
  exact Iff.rfl

/-- Row r of the output is written back by point r / 5000: the 10 blocks tile the 50000 rows. -/
theorem st_cover (i : S50000x384.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 384 := (i 1).isLt
  have hlt : (i 0).val / 5000 < cfg0.N := by rw [hN]; omega
  refine ⟨⟨(i 0).val / 5000, hlt⟩, flush0_2 _, ?_⟩
  rw [st_mem_blk]
  obtain ⟨-, -, -, -, e20, e21⟩ := st_index_facts ⟨(i 0).val / 5000, hlt⟩
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hlt⟩ (1 : Fin 2) * 384 ≤ (i 1).val ∧ (i 1).val < win0_2.index ⟨(i 0).val / 5000, hlt⟩ (1 : Fin 2) * 384 + 384
    rw [e21]; omega

/-- The output array after the region is the whole stacked product. -/
theorem stacked_final (c : Dev nD) (A0 : S50000x128.Idx → EReal) (W : S128x384.Idx → EReal)
    (h0 : V c main_arg0 = A0) (hW : V c main_v3 = W) :
    (dat0 V c).arrAt 2 cfg0.N = stackedProj A0 W :=
  (dat0 V c).arrAt_eq_of_cover 2 (stackedProj A0 W) (fun t _ => st_flushed V c A0 W h0 hW t) st_cover

/-! ## A column band of the stacked product is one projection -/

/-- If columns o to o + 127 of the stacked weight are the rows of a weight A (column o + n, at row k, is A (n, k)),
    the band of the stacked product cut from column o is the projection by A. -/
theorem stacked_band (A0 : S50000x128.Idx → EReal) (W : S128x384.Idx → EReal) (A : S128x128.Idx → EReal)
    (o : Nat) (ho : o + 128 ≤ 384) (hs : S50000x384.Slices ![0, o] S50000x128)
    (hW : ∀ k n : Fin 128, W (ix2 k ⟨o + n.val, by have := n.isLt; omega⟩) = A (ix2 n k)) :
    extractStridedSlice S50000x128 ![0, o] (stackedProj A0 W) hs = nodeProj A0 A := by
  funext j
  obtain ⟨r, n, rfl⟩ : ∃ (r : Fin 50000) (n : Fin 128), j = ix2 r n := ⟨j 0, j 1, eq_ix2 j⟩
  refine (slice2_axis1_eq o (stackedProj A0 W) hs r n).trans ?_
  show stackedProjAt A0 W r ⟨o + n.val, _⟩ = nodeProjAt A0 A r n
  unfold stackedProjAt nodeProjAt
  exact Finset.sum_congr rfl fun k _ => by rw [hW k n]

/-- Column n of band 0 of the stacked weight, at row k, is entry (n, k) of the first weight. -/
theorem stacked_weight_band0 (A4 A5 A6 : S128x128.Idx → EReal) (k n : Fin 128) (hm : 0 + n.val < 384) :
    concatenate S128x384 1 [⟨S128x128, transpose S128x128 [1, 0] A4 transposes_S128x128_S128x128_1_0⟩,
      ⟨S128x128, transpose S128x128 [1, 0] A5 transposes_S128x128_S128x128_1_0⟩,
      ⟨S128x128, transpose S128x128 [1, 0] A6 transposes_S128x128_S128x128_1_0⟩] concatenates_S128x128_S128x128_S128x128_S128x384_d1 (ix2 k ⟨0 + n.val, hm⟩)
      = A4 (ix2 n k) :=
  (concatenate_apply_piece (1 : Fin S128x384.rank) [⟨S128x128, transpose S128x128 [1, 0] A4 transposes_S128x128_S128x128_1_0⟩,
      ⟨S128x128, transpose S128x128 [1, 0] A5 transposes_S128x128_S128x128_1_0⟩,
      ⟨S128x128, transpose S128x128 [1, 0] A6 transposes_S128x128_S128x128_1_0⟩]
    concatenates_S128x128_S128x128_S128x128_S128x384_d1 (ix2 k ⟨0 + n.val, hm⟩)
    0 (by show (0 : Nat) < 3; omega) S128x128 (transpose S128x128 [1, 0] A4 transposes_S128x128_S128x128_1_0) rfl rfl 0 rfl (ix2 k n)
    (fun b hb => match b, hb with
      | ⟨0, _⟩, _ => rfl
      | ⟨1, _⟩, hb => absurd rfl hb)
    rfl).trans
  (transpose_apply [1, 0] A4 transposes_S128x128_S128x128_1_0 (ix2 k n) (ix2 n k) (fun b => match b with
    | ⟨0, _⟩ => rfl
    | ⟨1, _⟩ => rfl))

/-- Column n of band 1 of the stacked weight, at row k, is entry (n, k) of the second weight. -/
theorem stacked_weight_band1 (A4 A5 A6 : S128x128.Idx → EReal) (k n : Fin 128) (hm : 128 + n.val < 384) :
    concatenate S128x384 1 [⟨S128x128, transpose S128x128 [1, 0] A4 transposes_S128x128_S128x128_1_0⟩,
      ⟨S128x128, transpose S128x128 [1, 0] A5 transposes_S128x128_S128x128_1_0⟩,
      ⟨S128x128, transpose S128x128 [1, 0] A6 transposes_S128x128_S128x128_1_0⟩] concatenates_S128x128_S128x128_S128x128_S128x384_d1 (ix2 k ⟨128 + n.val, hm⟩)
      = A5 (ix2 n k) :=
  (concatenate_apply_piece (1 : Fin S128x384.rank) [⟨S128x128, transpose S128x128 [1, 0] A4 transposes_S128x128_S128x128_1_0⟩,
      ⟨S128x128, transpose S128x128 [1, 0] A5 transposes_S128x128_S128x128_1_0⟩,
      ⟨S128x128, transpose S128x128 [1, 0] A6 transposes_S128x128_S128x128_1_0⟩]
    concatenates_S128x128_S128x128_S128x128_S128x384_d1 (ix2 k ⟨128 + n.val, hm⟩)
    1 (by show (1 : Nat) < 3; omega) S128x128 (transpose S128x128 [1, 0] A5 transposes_S128x128_S128x128_1_0) rfl rfl 128 rfl (ix2 k n)
    (fun b hb => match b, hb with
      | ⟨0, _⟩, _ => rfl
      | ⟨1, _⟩, hb => absurd rfl hb)
    rfl).trans
  (transpose_apply [1, 0] A5 transposes_S128x128_S128x128_1_0 (ix2 k n) (ix2 n k) (fun b => match b with
    | ⟨0, _⟩ => rfl
    | ⟨1, _⟩ => rfl))

/-- Column n of band 2 of the stacked weight, at row k, is entry (n, k) of the third weight. -/
theorem stacked_weight_band2 (A4 A5 A6 : S128x128.Idx → EReal) (k n : Fin 128) (hm : 256 + n.val < 384) :
    concatenate S128x384 1 [⟨S128x128, transpose S128x128 [1, 0] A4 transposes_S128x128_S128x128_1_0⟩,
      ⟨S128x128, transpose S128x128 [1, 0] A5 transposes_S128x128_S128x128_1_0⟩,
      ⟨S128x128, transpose S128x128 [1, 0] A6 transposes_S128x128_S128x128_1_0⟩] concatenates_S128x128_S128x128_S128x128_S128x384_d1 (ix2 k ⟨256 + n.val, hm⟩)
      = A6 (ix2 n k) :=
  (concatenate_apply_piece (1 : Fin S128x384.rank) [⟨S128x128, transpose S128x128 [1, 0] A4 transposes_S128x128_S128x128_1_0⟩,
      ⟨S128x128, transpose S128x128 [1, 0] A5 transposes_S128x128_S128x128_1_0⟩,
      ⟨S128x128, transpose S128x128 [1, 0] A6 transposes_S128x128_S128x128_1_0⟩]
    concatenates_S128x128_S128x128_S128x128_S128x384_d1 (ix2 k ⟨256 + n.val, hm⟩)
    2 (by show (2 : Nat) < 3; omega) S128x128 (transpose S128x128 [1, 0] A6 transposes_S128x128_S128x128_1_0) rfl rfl 256 rfl (ix2 k n)
    (fun b hb => match b, hb with
      | ⟨0, _⟩, _ => rfl
      | ⟨1, _⟩, hb => absurd rfl hb)
    rfl).trans
  (transpose_apply [1, 0] A6 transposes_S128x128_S128x128_1_0 (ix2 k n) (ix2 n k) (fun b => match b with
    | ⟨0, _⟩ => rfl
    | ⟨1, _⟩ => rfl))

/-! ## The reference's projections are the same sums -/

/-- The reference's first projection contracts the features against the transposed weight: the same sum. -/
theorem ref_proj_Q (A0 : S50000x128.Idx → EReal) (A4 : S128x128.Idx → EReal) :
    Cert.ReferenceIdeal.Read.val_main_v1 (F := Ideal) A0 A4 = nodeProj A0 A4 := by
  funext i
  rw [Cert.ReferenceIdeal.Read.val_main_v1_apply]
  show _ = nodeProjAt A0 A4 (i 0) (i 1)
  unfold nodeProjAt
  refine Finset.sum_congr rfl fun k _ => ?_
  rw [Cert.ReferenceIdeal.Read.val_main_v0_apply]
  have eL : Cert.ReferenceIdeal.Read.lidx_main_v1 i k = ix2 (i 0 : Fin 50000) k :=
    funext fun a => Fin.ext (by match a with | ⟨0, _⟩ => rfl | ⟨1, _⟩ => rfl)
  have eR : Cert.ReferenceIdeal.Read.idx_main_v0 (Cert.ReferenceIdeal.Read.ridx_main_v1 i k) = ix2 (i 1 : Fin 128) k :=
    funext fun a => Fin.ext (by match a with | ⟨0, _⟩ => rfl | ⟨1, _⟩ => rfl)
  rw [eL, eR]
  rfl

/-- The reference's second projection contracts the features against the transposed weight: the same sum. -/
theorem ref_proj_K (A0 : S50000x128.Idx → EReal) (A5 : S128x128.Idx → EReal) :
    Cert.ReferenceIdeal.Read.val_main_v4 (F := Ideal) A0 A5 = nodeProj A0 A5 := by
  funext i
  rw [Cert.ReferenceIdeal.Read.val_main_v4_apply]
  show _ = nodeProjAt A0 A5 (i 0) (i 1)
  unfold nodeProjAt
  refine Finset.sum_congr rfl fun k _ => ?_
  rw [Cert.ReferenceIdeal.Read.val_main_v3_apply]
  have eL : Cert.ReferenceIdeal.Read.lidx_main_v4 i k = ix2 (i 0 : Fin 50000) k :=
    funext fun a => Fin.ext (by match a with | ⟨0, _⟩ => rfl | ⟨1, _⟩ => rfl)
  have eR : Cert.ReferenceIdeal.Read.idx_main_v3 (Cert.ReferenceIdeal.Read.ridx_main_v4 i k) = ix2 (i 1 : Fin 128) k :=
    funext fun a => Fin.ext (by match a with | ⟨0, _⟩ => rfl | ⟨1, _⟩ => rfl)
  rw [eL, eR]
  rfl

/-- The reference's third projection contracts the features against the transposed weight: the same sum. -/
theorem ref_proj_V (A0 : S50000x128.Idx → EReal) (A6 : S128x128.Idx → EReal) :
    Cert.ReferenceIdeal.Read.val_main_v7 (F := Ideal) A0 A6 = nodeProj A0 A6 := by
  funext i
  rw [Cert.ReferenceIdeal.Read.val_main_v7_apply]
  show _ = nodeProjAt A0 A6 (i 0) (i 1)
  unfold nodeProjAt
  refine Finset.sum_congr rfl fun k _ => ?_
  rw [Cert.ReferenceIdeal.Read.val_main_v6_apply]
  have eL : Cert.ReferenceIdeal.Read.lidx_main_v7 i k = ix2 (i 0 : Fin 50000) k :=
    funext fun a => Fin.ext (by match a with | ⟨0, _⟩ => rfl | ⟨1, _⟩ => rfl)
  have eR : Cert.ReferenceIdeal.Read.idx_main_v6 (Cert.ReferenceIdeal.Read.ridx_main_v7 i k) = ix2 (i 1 : Fin 128) k :=
    funext fun a => Fin.ext (by match a with | ⟨0, _⟩ => rfl | ⟨1, _⟩ => rfl)
  rw [eL, eR]
  rfl

/-! ## The three bands -/

/-- Band 0 of the region's output array, reshaped, is the reference's projection by the first weight. -/
theorem region0_Q (c : Dev nD) (A0 : S50000x128.Idx → EReal) (A4 A5 A6 : S128x128.Idx → EReal)
    (h0 : V c main_arg0 = A0)
    (h3 : V c main_v3 = concatenate S128x384 1 [⟨S128x128, transpose S128x128 [1, 0] A4 transposes_S128x128_S128x128_1_0⟩,
      ⟨S128x128, transpose S128x128 [1, 0] A5 transposes_S128x128_S128x128_1_0⟩,
      ⟨S128x128, transpose S128x128 [1, 0] A6 transposes_S128x128_S128x128_1_0⟩] concatenates_S128x128_S128x128_S128x128_S128x384_d1) :
    shapeCast S50000x4x32 (extractStridedSlice S50000x128 ![0, 0] ((dat0 V c).arrAt 2 cfg0.N) slices_S50000x384_S50000x128_0_0) shapeCasts_S50000x128_S50000x4x32
      = Cert.ReferenceIdeal.Read.val_main_v2 (F := Ideal) A0 A4 := by
  have e : extractStridedSlice S50000x128 ![0, 0] ((dat0 V c).arrAt 2 cfg0.N) slices_S50000x384_S50000x128_0_0
      = Cert.ReferenceIdeal.Read.val_main_v1 (F := Ideal) A0 A4 := by
    rw [stacked_final V c A0 _ h0 h3, ref_proj_Q A0 A4]
    exact stacked_band A0 _ A4 0 (by omega) slices_S50000x384_S50000x128_0_0
      (fun k n => stacked_weight_band0 A4 A5 A6 k n (by have := n.isLt; omega))
  unfold Cert.ReferenceIdeal.Read.val_main_v2
  rw [e]

/-- Band 1 likewise, by the second weight. -/
theorem region0_K (c : Dev nD) (A0 : S50000x128.Idx → EReal) (A4 A5 A6 : S128x128.Idx → EReal)
    (h0 : V c main_arg0 = A0)
    (h3 : V c main_v3 = concatenate S128x384 1 [⟨S128x128, transpose S128x128 [1, 0] A4 transposes_S128x128_S128x128_1_0⟩,
      ⟨S128x128, transpose S128x128 [1, 0] A5 transposes_S128x128_S128x128_1_0⟩,
      ⟨S128x128, transpose S128x128 [1, 0] A6 transposes_S128x128_S128x128_1_0⟩] concatenates_S128x128_S128x128_S128x128_S128x384_d1) :
    shapeCast S50000x4x32 (extractStridedSlice S50000x128 ![0, 128] ((dat0 V c).arrAt 2 cfg0.N) slices_S50000x384_S50000x128_0_128) shapeCasts_S50000x128_S50000x4x32
      = Cert.ReferenceIdeal.Read.val_main_v5 (F := Ideal) A0 A5 := by
  have e : extractStridedSlice S50000x128 ![0, 128] ((dat0 V c).arrAt 2 cfg0.N) slices_S50000x384_S50000x128_0_128
      = Cert.ReferenceIdeal.Read.val_main_v4 (F := Ideal) A0 A5 := by
    rw [stacked_final V c A0 _ h0 h3, ref_proj_K A0 A5]
    exact stacked_band A0 _ A5 128 (by omega) slices_S50000x384_S50000x128_0_128
      (fun k n => stacked_weight_band1 A4 A5 A6 k n (by have := n.isLt; omega))
  unfold Cert.ReferenceIdeal.Read.val_main_v5
  rw [e]

/-- Band 2 likewise, by the third weight. -/
theorem region0_V (c : Dev nD) (A0 : S50000x128.Idx → EReal) (A4 A5 A6 : S128x128.Idx → EReal)
    (h0 : V c main_arg0 = A0)
    (h3 : V c main_v3 = concatenate S128x384 1 [⟨S128x128, transpose S128x128 [1, 0] A4 transposes_S128x128_S128x128_1_0⟩,
      ⟨S128x128, transpose S128x128 [1, 0] A5 transposes_S128x128_S128x128_1_0⟩,
      ⟨S128x128, transpose S128x128 [1, 0] A6 transposes_S128x128_S128x128_1_0⟩] concatenates_S128x128_S128x128_S128x128_S128x384_d1) :
    shapeCast S50000x4x32 (extractStridedSlice S50000x128 ![0, 256] ((dat0 V c).arrAt 2 cfg0.N) slices_S50000x384_S50000x128_0_256) shapeCasts_S50000x128_S50000x4x32
      = Cert.ReferenceIdeal.Read.val_main_v8 (F := Ideal) A0 A6 := by
  have e : extractStridedSlice S50000x128 ![0, 256] ((dat0 V c).arrAt 2 cfg0.N) slices_S50000x384_S50000x128_0_256
      = Cert.ReferenceIdeal.Read.val_main_v7 (F := Ideal) A0 A6 := by
    rw [stacked_final V c A0 _ h0 h3, ref_proj_V A0 A6]
    exact stacked_band A0 _ A6 256 (by omega) slices_S50000x384_S50000x128_0_256
      (fun k n => stacked_weight_band2 A4 A5 A6 k n (by have := n.isLt; omega))
  unfold Cert.ReferenceIdeal.Read.val_main_v8
  rw [e]

end Cert.KernelIdeal.Val

end
-- ==== Proof.KiV1.lean ====
/-
  Region 1 at the ideal instance: the edge projection. Every grid point writes back the block of 10000 rows of
  (edge features) x (transposed weight); the blocks tile the 600000 x 128 result, so the array after the region is the
  whole product, which is the reference's projection of the edge features, and its [E, 4, 32] reading the reference's proj_e.
-/
import proofs.«411279_j64037962384024_2_alg».proof.Proof.KiR1
import proofs.«411279_j64037962384024_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

/-! ## The product, entry by entry -/

/-- Entry (r, n) of the edge projection: the sum over k of feature (r, k) times weight (n, k); the weight enters
    transposed, so its ROW n is what column n of the product contracts against. -/
def edgeProjAt (A1 : S600000x128.Idx → EReal) (A7 : S128x128.Idx → EReal) (r : Fin 600000) (n : Fin 128) : EReal :=
  ∑ k : Fin 128, A1 (ix2 r k) * A7 (ix2 n k)

/-- The whole 600000 x 128 product as one function of the index. -/
def edgeProj (A1 : S600000x128.Idx → EReal) (A7 : S128x128.Idx → EReal) : S600000x128.Idx → EReal :=
  fun i => edgeProjAt A1 A7 (i 0) (i 1)

/-- The product at an index whose coordinates are known as numbers. -/
theorem edgeProj_apply (A1 : S600000x128.Idx → EReal) (A7 : S128x128.Idx → EReal) (i : S600000x128.Idx)
    (r : Fin 600000) (n : Fin 128) (hr : (i 0).val = r.val) (hn : (i 1).val = n.val) :
    edgeProj A1 A7 i = edgeProjAt A1 A7 r n := by
  have e0 : (i 0 : Fin 600000) = r := Fin.ext hr
  have e1 : (i 1 : Fin 128) = n := Fin.ext hn
  show edgeProjAt A1 A7 (i 0) (i 1) = _
  rw [e0, e1]

/-! ## The body's payload at an index: a 10000 x 128 block times the 128 x 128 weight block -/

theorem lhs_pe_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_pe_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_pe_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_pe_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (p, q) of the body's payload: the format changes are the identity on the extended reals and the accumulator
    is zero, so it is the plain sum over k of x0 (p, k) times x1 (k, q). -/
theorem pe_pay_apply (x0 : Vec Ideal S10000x128 .f32) (x1 : Vec Ideal S128x128 .f32) (p : Fin 10000) (q : Fin 128) :
    k1_pay1 (F := Ideal) x0 x1 (ix2 p q) = ∑ k : Fin 128, x0 (ix2 p k) * x1 (ix2 k q) := by
  unfold k1_pay1
  refine (Ideal.matmul_constant_zero_apply dot_S10000x128_S128x128_S10000x128_1_0_0_1_n_n none _ _ (ix2 p q)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_pe_0 _ _
    | ⟨1, _⟩ => exact (lhs_pe_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_pe_0 _ _).trans hk
    | ⟨1, _⟩ => exact rhs_pe_1 _ _)
  rw [el, er]
  rw [truncf_apply, truncf_apply, shapeCast_self]

/-! ## The blocks: where a block's entry sits in its array -/

theorem zeros_pe : (![0, 0] : Fin 2 → Nat) = fun _ => 0 := funext fun a => by fin_cases a <;> rfl

/-- The printed index maps over the 60 grid points: the feature block and the output block of point t are the t-th
    blocks of 10000 rows, the weight's block is always the whole weight. -/
theorem pe_index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry x of the feature block at point t is the array's entry 10000 t rows further down. -/
theorem pe_rows_blk (c : Dev nD) (t : Fin cfg1.N) (x : S10000x128.Idx) (i : S600000x128.Idx)
    (hi0 : (i 0).val = t.val * 10000 + (x 0).val) (hi1 : (i 1).val = (x 1).val) :
    (iblk1 V c 0 t : Vec Ideal S10000x128 .f32) x = (V c main_arg1 : S600000x128.Idx → EReal) i := by
  obtain ⟨e00, e01, -, -, -, -⟩ := pe_index_facts t
  unfold iblk1
  rw [View.read_apply]
  show V c main_arg1 _ = V c main_arg1 i
  congr 1
  funext a
  apply Fin.ext
  match a with
  | ⟨0, _⟩ => show win1_0.index t (0 : Fin 2) * 10000 + 1 * (x 0).val = (i 0).val; rw [e00, hi0]; omega
  | ⟨1, _⟩ => show win1_0.index t (1 : Fin 2) * 128 + 1 * (x 1).val = (i 1).val; rw [e01, hi1]; omega

/-- The weight block at any point is the whole weight array. -/
theorem pe_weight_blk (c : Dev nD) (t : Fin cfg1.N) (x : S128x128.Idx) :
    (iblk1 V c 1 t : Vec Ideal S128x128 .f32) x = (V c main_v11 : S128x128.Idx → EReal) x := by
  obtain ⟨-, -, e10, e11, -, -⟩ := pe_index_facts t
  unfold iblk1
  rw [View.read_apply]
  show V c main_v11 _ = V c main_v11 x
  congr 1
  funext a
  apply Fin.ext
  match a with
  | ⟨0, _⟩ => show win1_1.index t (0 : Fin 2) * 128 + 1 * (x 0).val = (x 0).val; rw [e10]; omega
  | ⟨1, _⟩ => show win1_1.index t (1 : Fin 2) * 128 + 1 * (x 1).val = (x 1).val; rw [e11]; omega

/-! ## What a point writes back, and the array after the region -/

/-- Point t writes back block t of the product: rows 10000 t to 10000 t + 9999. -/
theorem pe_flushed (c : Dev nD) (A1 : S600000x128.Idx → EReal) (A7 : S128x128.Idx → EReal)
    (h0 : V c main_arg1 = A1) (h1 : V c main_v11 = transpose S128x128 [1, 0] A7 transposes_S128x128_S128x128_1_0)
    (t : Fin cfg1.N) :
    (dat1 V c).flushed 2 t = ((cfg1.win 2).blk t).view.read (Elt Ideal) (edgeProj A1 A7) := by
  show (cfg1.win 2).cut (grid1.coords t) ((dat1 V c).after 2 t) = _
  rw [after1_2]
  unfold out1_2
  rw [View.canon_unit_zero zeros_pe]
  simp only [View.ld_unit_zero (S := S10000x128) zeros_pe, View.ld_unit_zero (S := S128x128) zeros_pe]
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (ix2 p q) = edgeProj A1 A7 (((cfg1.win 2).blk t).view.emb (ix2 p q))
  obtain ⟨-, -, -, -, e20, e21⟩ := pe_index_facts t
  have hN : cfg1.N = 60 := N_1
  have ht : t.val < 60 := hN ▸ t.isLt
  have hr : t.val * 10000 + p.val < 600000 := by have := p.isLt; omega
  refine (pe_pay_apply (iblk1 V c 0 t) (iblk1 V c 1 t) p q).trans ?_
  refine Eq.trans ?_ (edgeProj_apply A1 A7 _ ⟨t.val * 10000 + p.val, hr⟩ q ?_ ?_).symm
  · unfold edgeProjAt
    refine Finset.sum_congr rfl fun k _ => ?_
    have eL : (iblk1 V c 0 t : Vec Ideal S10000x128 .f32) (ix2 p k) = A1 (ix2 ⟨t.val * 10000 + p.val, hr⟩ k) :=
      (pe_rows_blk V c t (ix2 p k) (ix2 ⟨t.val * 10000 + p.val, hr⟩ k) rfl rfl).trans (congrFun h0 _)
    have eR : (iblk1 V c 1 t : Vec Ideal S128x128 .f32) (ix2 k q) = A7 (ix2 q k) :=
      (pe_weight_blk V c t (ix2 k q)).trans ((congrFun h1 _).trans
        (transpose_apply [1, 0] A7 transposes_S128x128_S128x128_1_0 (ix2 k q) (ix2 q k) (fun b => match b with
          | ⟨0, _⟩ => rfl
          | ⟨1, _⟩ => rfl)))
    rw [eL, eR]
  · show win1_2.index t (0 : Fin 2) * 10000 + 1 * p.val = t.val * 10000 + p.val
    rw [e20]; omega
  · show win1_2.index t (1 : Fin 2) * 128 + 1 * q.val = q.val
    rw [e21]; omega

/-- An index of the output array is in point t's block iff each coordinate is in the block's range on its axis. -/
theorem pe_mem_blk (t : Fin cfg1.N) (i : S600000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v12).slice (win1_2.rect t)).set ↔ _
  rw [View.set_slice_whole, Rect.mem_set_unit]
  exact Iff.rfl

/-- Row r of the output is written back by point r / 10000: the 60 blocks tile the 600000 rows. -/
theorem pe_cover (i : S600000x128.Idx) :
    ∃ t : Fin cfg1.N, (cfg1.win 2).flush t = true ∧ i ∈ ((cfg1.win 2).blk t).view.set := by
  have hN : cfg1.N = 60 := N_1
  have hi0 : (i 0).val < 600000 := (i 0).isLt
  have hi1 : (i 1).val < 128 := (i 1).isLt
  have hlt : (i 0).val / 10000 < cfg1.N := by rw [hN]; omega
  refine ⟨⟨(i 0).val / 10000, hlt⟩, flush1_2 _, ?_⟩
  rw [pe_mem_blk]
  obtain ⟨-, -, -, -, e20, e21⟩ := pe_index_facts ⟨(i 0).val / 10000, hlt⟩
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e20]; show (i 0).val / 10000 * 10000 ≤ (i 0).val ∧ (i 0).val < (i 0).val / 10000 * 10000 + 10000; omega
  | ⟨1, _⟩ =>
    show win1_2.index ⟨(i 0).val / 10000, hlt⟩ (1 : Fin 2) * 128 ≤ (i 1).val ∧ (i 1).val < win1_2.index ⟨(i 0).val / 10000, hlt⟩ (1 : Fin 2) * 128 + 128
    rw [e21]; omega

/-- The output array after the region is the whole product. -/
theorem pe_final (c : Dev nD) (A1 : S600000x128.Idx → EReal) (A7 : S128x128.Idx → EReal)
    (h0 : V c main_arg1 = A1) (h1 : V c main_v11 = transpose S128x128 [1, 0] A7 transposes_S128x128_S128x128_1_0) :
    (dat1 V c).arrAt 2 cfg1.N = edgeProj A1 A7 :=
  (dat1 V c).arrAt_eq_of_cover 2 (edgeProj A1 A7) (fun t _ => pe_flushed V c A1 A7 h0 h1 t) pe_cover

/-! ## The reference's projection is the same product -/

/-- The reference contracts the features against the transposed weight: entry (r, n) is the same sum. -/
theorem pe_reference (A1 : S600000x128.Idx → EReal) (A7 : S128x128.Idx → EReal) :
    Cert.ReferenceIdeal.Read.val_main_v10 (F := Ideal) A1 A7 = edgeProj A1 A7 := by
  funext i
  rw [Cert.ReferenceIdeal.Read.val_main_v10_apply]
  show _ = edgeProjAt A1 A7 (i 0) (i 1)
  unfold edgeProjAt
  refine Finset.sum_congr rfl fun k _ => ?_
  rw [Cert.ReferenceIdeal.Read.val_main_v9_apply]
  have eL : Cert.ReferenceIdeal.Read.lidx_main_v10 i k = ix2 (i 0 : Fin 600000) k :=
    funext fun a => Fin.ext (by match a with | ⟨0, _⟩ => rfl | ⟨1, _⟩ => rfl)
  have eR : Cert.ReferenceIdeal.Read.idx_main_v9 (Cert.ReferenceIdeal.Read.ridx_main_v10 i k) = ix2 (i 1 : Fin 128) k :=
    funext fun a => Fin.ext (by match a with | ⟨0, _⟩ => rfl | ⟨1, _⟩ => rfl)
  rw [eL, eR]
  rfl

/-- The region's output array, reshaped to [E, 4, 32], is the reference's edge projection of the same operands. -/
theorem region1_pe (c : Dev nD) (A1 : S600000x128.Idx → EReal) (A7 : S128x128.Idx → EReal)
    (h0 : V c main_arg1 = A1) (h1 : V c main_v11 = transpose S128x128 [1, 0] A7 transposes_S128x128_S128x128_1_0) :
    shapeCast S600000x4x32 ((dat1 V c).arrAt 2 cfg1.N) shapeCasts_S600000x128_S600000x4x32
      = Cert.ReferenceIdeal.Read.val_main_v11 (F := Ideal) A1 A7 := by
  unfold Cert.ReferenceIdeal.Read.val_main_v11
  rw [pe_final V c A1 A7 h0 h1, pe_reference A1 A7]

end Cert.KernelIdeal.Val

end
-- ==== Proof.KiV2.lean ====
/-
  Region 2 at the ideal instance: the per-edge attention scores. Every grid point handles 500 edges: rows 500 t … 500 t + 499
  of all seven windows, and the body is pointwise in the edge. The kernel multiplies key times query by the named
  scale 2097152 / 11863283 where the reference divides by 11863283 / 2097152, the exact value of its divisor word: on
  every extended real the quotient by a nonzero real is the product with its reciprocal. Both clip to the same two
  bounds, sum the 32 channels of the clipped score (the reference from the zero word, which adds nothing), take the same
  exponential, and multiply the values by the weight of their edge and head. The blocks tile the three output arrays
  and every point writes its block back, so after the region the arrays are the reference's three terms of the arrays
  the region found in its inputs.
-/
import proofs.«411279_j64037962384024_2_alg».proof.Proof.KiR2
import proofs.«411279_j64037962384024_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

/-! ## The reference's three terms over the gathered arrays -/

/-- The reference's score: the product of keys and queries divided by the scale, clipped to [-5, 5], times the edge
    projection. -/
def refScore (ks qd pe : S600000x4x32.Idx → EReal) : S600000x4x32.Idx → EReal :=
  mulf (F := Ideal) (φ := .f32)
    (minimumf (broadcastInDim Cert.ReferenceIdeal.S600000x4x32 ![] Cert.ReferenceIdeal.Gen.bcast_S_S600000x4x32 (id (constant (F := Ideal) Cert.ReferenceIdeal.S_ .f32 0x40A00000#32)))
      (maximumf (broadcastInDim Cert.ReferenceIdeal.S600000x4x32 ![] Cert.ReferenceIdeal.Gen.bcast_S_S600000x4x32 (id (constant (F := Ideal) Cert.ReferenceIdeal.S_ .f32 0xC0A00000#32)))
        (Host.divf (F := Ideal) (mulf (F := Ideal) (φ := .f32) ks qd) (broadcastInDim Cert.ReferenceIdeal.S600000x4x32 ![] Cert.ReferenceIdeal.Gen.bcast_S_S600000x4x32 (constant (F := Ideal) Cert.ReferenceIdeal.S_ .f32 0x40B504F3#32)))))
    pe

/-- The reference's per-head weight: the exponential of the clipped sum of the score over the channels. -/
def refS (ks qd pe : S600000x4x32.Idx → EReal) : S600000x4x1.Idx → EReal :=
  Host.exp (F := Ideal)
    (minimumf (broadcastInDim Cert.ReferenceIdeal.S600000x4x1 ![] Cert.ReferenceIdeal.Gen.bcast_S_S600000x4x1 (id (constant (F := Ideal) Cert.ReferenceIdeal.S_ .f32 0x40A00000#32)))
      (maximumf (broadcastInDim Cert.ReferenceIdeal.S600000x4x1 ![] Cert.ReferenceIdeal.Gen.bcast_S_S600000x4x1 (id (constant (F := Ideal) Cert.ReferenceIdeal.S_ .f32 0xC0A00000#32)))
        (broadcastInDim Cert.ReferenceIdeal.S600000x4x1 ![0, 1] Cert.ReferenceIdeal.Gen.bcast_S600000x4_S600000x4x1_0_1
          (Host.reduceAdd (F := Ideal) (refScore ks qd pe) (constant (F := Ideal) Cert.ReferenceIdeal.S_ .f32 0x00000000#32) Cert.ReferenceIdeal.Gen.reducesTo_S600000x4x32_S600000x4_d2 Cert.ReferenceIdeal.Gen.h_S_))))

/-- The reference's weighted values: the values times the weight of their edge and head. -/
def refWv (ks qd vs pe : S600000x4x32.Idx → EReal) : S600000x4x32.Idx → EReal :=
  mulf (F := Ideal) (φ := .f32) vs
    (broadcastInDim Cert.ReferenceIdeal.S600000x4x32 ![0, 1, 2] Cert.ReferenceIdeal.Gen.bcast_S600000x4x1_S600000x4x32_0_1_2 (refS ks qd pe))

section Stages
open Cert.ReferenceIdeal.Read

/-- The reference's score stage is refScore of its gathered keys, gathered queries and edge projection. -/
theorem refScore_eq (x0 : (⟨Cert.ReferenceIdeal.S50000x128, .f32⟩ : BufTy).Contents (Elt Ideal)) (x1 : (⟨Cert.ReferenceIdeal.S600000x128, .f32⟩ : BufTy).Contents (Elt Ideal))
    (x2 x3 : (⟨Cert.ReferenceIdeal.S600000, .i32⟩ : BufTy).Contents (Elt Ideal)) (x4 x5 x7 : (⟨Cert.ReferenceIdeal.S128x128, .f32⟩ : BufTy).Contents (Elt Ideal)) :
    Cert.ReferenceIdeal.Read.val_main_v30 (F := Ideal) x0 x1 x2 x3 x4 x5 x7
      = refScore (Cert.ReferenceIdeal.Read.val_main_v18 (F := Ideal) x0 x2 x5) (Cert.ReferenceIdeal.Read.val_main_v25 (F := Ideal) x0 x3 x4) (Cert.ReferenceIdeal.Read.val_main_v11 (F := Ideal) x1 x7) := by
  unfold val_main_v30 val_main_v29 val_main_call0_v4 val_main_call0_v3 val_main_cst_4 val_main_call0_v2 val_main_call0_v1
    val_main_call0_v0 val_main_cst_3 val_main_v28 val_main_v27 val_main_cst val_main_v26 refScore
  rfl

/-- The reference's weight stage is refS of the same three arrays. -/
theorem refS_eq (x0 : (⟨Cert.ReferenceIdeal.S50000x128, .f32⟩ : BufTy).Contents (Elt Ideal)) (x1 : (⟨Cert.ReferenceIdeal.S600000x128, .f32⟩ : BufTy).Contents (Elt Ideal))
    (x2 x3 : (⟨Cert.ReferenceIdeal.S600000, .i32⟩ : BufTy).Contents (Elt Ideal)) (x4 x5 x7 : (⟨Cert.ReferenceIdeal.S128x128, .f32⟩ : BufTy).Contents (Elt Ideal)) :
    Cert.ReferenceIdeal.Read.val_main_v34 (F := Ideal) x0 x1 x2 x3 x4 x5 x7
      = refS (Cert.ReferenceIdeal.Read.val_main_v18 (F := Ideal) x0 x2 x5) (Cert.ReferenceIdeal.Read.val_main_v25 (F := Ideal) x0 x3 x4) (Cert.ReferenceIdeal.Read.val_main_v11 (F := Ideal) x1 x7) := by
  unfold val_main_v34 val_main_v33 val_main_call1_v4 val_main_call1_v3 val_main_cst_7 val_main_call1_v2 val_main_call1_v1
    val_main_call1_v0 val_main_cst_6 val_main_v32 val_main_v31 val_main_cst_5 refS
  rw [refScore_eq]

/-- The reference's weighted-values stage is refWv of the same arrays and its gathered values. -/
theorem refWv_eq (x0 : (⟨Cert.ReferenceIdeal.S50000x128, .f32⟩ : BufTy).Contents (Elt Ideal)) (x1 : (⟨Cert.ReferenceIdeal.S600000x128, .f32⟩ : BufTy).Contents (Elt Ideal))
    (x2 x3 : (⟨Cert.ReferenceIdeal.S600000, .i32⟩ : BufTy).Contents (Elt Ideal)) (x4 x5 x6 x7 : (⟨Cert.ReferenceIdeal.S128x128, .f32⟩ : BufTy).Contents (Elt Ideal)) :
    Cert.ReferenceIdeal.Read.val_main_v43 (F := Ideal) x0 x1 x2 x3 x4 x5 x6 x7
      = refWv (Cert.ReferenceIdeal.Read.val_main_v18 (F := Ideal) x0 x2 x5) (Cert.ReferenceIdeal.Read.val_main_v25 (F := Ideal) x0 x3 x4) (Cert.ReferenceIdeal.Read.val_main_v41 (F := Ideal) x0 x2 x6) (Cert.ReferenceIdeal.Read.val_main_v11 (F := Ideal) x1 x7) := by
  unfold val_main_v43 val_main_v42 refWv
  rw [refS_eq]

end Stages

/-! ## One element of each term -/

/-- The kernel's named scale is the rational the certificate's table gives it. -/
theorem inv_scale : Named.named (F := Ideal) Cert.KernelIdeal.κ "inv_scale" (φ := .f32) 0x3E3504F3#32 = ((2097152 / 11863283 : ℝ) : EReal) :=
  IdealRules.named_const.ideal_named_scalar _ _ _ _ rfl

/-- The reference's divisor word denotes 11863283 / 2097152, the reciprocal of the kernel's named scale. -/
theorem ofBits_scale : Ideal.ofBits .f32 0x40B504F3#32 = ((11863283 / 2097152 : ℝ) : EReal) := by
  simp [Ideal.ofBits, Ideal.ieee, -EReal.coe_mul]; norm_num

/-- The clip to the two bounds' values. -/
def clip5 (z : EReal) : EReal := min (Ideal.ofBits .f32 0x40A00000#32) (max (Ideal.ofBits .f32 0xC0A00000#32) z)

/-- One score element from one key, query and edge-projection element. -/
def scoreAt (k q p : EReal) : EReal := clip5 (k * q * ((2097152 / 11863283 : ℝ) : EReal)) * p

/-- The reference's score at an index. -/
theorem refScore_apply (ks qd pe : S600000x4x32.Idx → EReal) (i : S600000x4x32.Idx) :
    refScore ks qd pe i = scoreAt (ks i) (qd i) (pe i) := by
  unfold refScore scoreAt clip5
  simp only [mulf, minimumf, maximumf, Host.divf, broadcastInDim, constant, id, Ideal.mulf_def, Ideal.minimumf_def, Ideal.maximumf_def,
    Ideal.hostDivf_def, Ideal.ofBits_def, ofBits_scale, Ideal.div_coe (by norm_num : (11863283 / 2097152 : ℝ) ≠ 0)]
  rw [show (1 / (11863283 / 2097152) : ℝ) = 2097152 / 11863283 from by norm_num]

/-- The kernel's first payload at an index. -/
theorem pay1_apply (x0 x1 x3 : FVec Ideal S500x4x32 .f32) (j : S500x4x32.Idx) :
    k2_pay1 (F := Ideal) x0 x1 x3 j = scoreAt (x0 j) (x1 j) (x3 j) := by
  unfold k2_pay1 scoreAt clip5
  simp only [shapeCast_self, mulf, minimumf, maximumf, broadcast, Ideal.mulf_def, Ideal.minimumf_def, Ideal.maximumf_def, Ideal.ofBits_def, inv_scale]

/-- Where the lane sum's witness puts channel k of the reduced index (a, b). -/
theorem lift_k2 (a : Fin 500) (b : Fin 4) (k : Fin 32) :
    reduces_S500x4x32_S500x4.lift (ix2 a b) k = ix3 a b k :=
  funext fun x => by match x with | ⟨0, _⟩ => rfl | ⟨1, _⟩ => rfl | ⟨2, _⟩ => rfl

/-- The kernel's second payload at an index: the exponential of the clipped channel sum of the first. -/
theorem pay2_apply (x0 x1 x3 : FVec Ideal S500x4x32 .f32) (a : Fin 500) (b : Fin 4) (d : Fin 1) :
    k2_pay2 (F := Ideal) x0 x1 x3 (ix3 a b d)
      = Ideal.exp (clip5 (∑ k : Fin 32, scoreAt (x0 (ix3 a b k)) (x1 (ix3 a b k)) (x3 (ix3 a b k)))) := by
  unfold k2_pay2 clip5
  simp only [exp, minimumf, maximumf, broadcast, Ideal.exp_def, Ideal.minimumf_def, Ideal.maximumf_def, Ideal.ofBits_def]
  rw [shapeCast_apply _ _ (ix3 a b d) (ix2 a b) (by
    rw [Shape.rowMajor_val_two, Shape.rowMajor_val_three]
    show a.val * 4 + b.val = (a.val * 4 + b.val) * 1 + d.val
    have := d.isLt; omega)]
  refine congrArg (fun z => Ideal.exp (min _ (max _ z))) ?_
  refine (Ideal.multiReduction_add_single _ _ _ _ _ (ix2 a b)).trans ?_
  refine Finset.sum_congr rfl fun (k : Fin 32) _ => ?_
  rw [lift_k2, pay1_apply]

/-- The kernel's third payload at an index: the value times the second payload of its edge and head. -/
theorem pay3_apply (x0 x1 x3 x2 : FVec Ideal S500x4x32 .f32) (a : Fin 500) (b : Fin 4) (d : Fin 32) :
    k2_pay3 (F := Ideal) x0 x1 x3 x2 (ix3 a b d) = x2 (ix3 a b d) * k2_pay2 (F := Ideal) x0 x1 x3 (ix3 a b (0 : Fin 1)) := by
  unfold k2_pay3
  simp only [shapeCast_self, mulf, Ideal.mulf_def]
  rw [broadcastTo_apply _ _ (ix3 a b d) (ix3 a b (0 : Fin 1)) (fun x => by
    match x with
    | ⟨0, _⟩ => show a.val = if (500 : Nat) = 1 then 0 else a.val; rw [if_neg (by decide)]
    | ⟨1, _⟩ => show b.val = if (4 : Nat) = 1 then 0 else b.val; rw [if_neg (by decide)]
    | ⟨2, _⟩ => show 0 = if (1 : Nat) = 1 then 0 else d.val; rw [if_pos rfl])]

/-! ### The reference's keepdims broadcasts and channel sum, read at an index of any operand -/

theorem bcastS1_apply (y : Cert.ReferenceIdeal.S_.Idx → EReal) (i : S600000x4x1.Idx) :
    broadcastInDim Cert.ReferenceIdeal.S600000x4x1 ![] Cert.ReferenceIdeal.Gen.bcast_S_S600000x4x1 y i = y ix0 :=
  broadcastInDim_apply _ Cert.ReferenceIdeal.Gen.bcast_S_S600000x4x1 y i ix0 (fun x => x.elim0)

theorem bcast01_apply (y : Cert.ReferenceIdeal.S600000x4.Idx → EReal) (r : Fin 600000) (b : Fin 4) (d : Fin 1) :
    broadcastInDim Cert.ReferenceIdeal.S600000x4x1 ![0, 1] Cert.ReferenceIdeal.Gen.bcast_S600000x4_S600000x4x1_0_1 y (ix3 r b d) = y (ix2 r b) :=
  broadcastInDim_apply _ Cert.ReferenceIdeal.Gen.bcast_S600000x4_S600000x4x1_0_1 y (ix3 r b d) (ix2 r b) (fun x => by
    match x with
    | ⟨0, _⟩ => show r.val = if (600000 : Nat) = 1 then 0 else r.val; rw [if_neg (by decide)]
    | ⟨1, _⟩ => show b.val = if (4 : Nat) = 1 then 0 else b.val; rw [if_neg (by decide)])

theorem bcast012_apply (y : Cert.ReferenceIdeal.S600000x4x1.Idx → EReal) (r : Fin 600000) (b : Fin 4) (d : Fin 32) :
    broadcastInDim Cert.ReferenceIdeal.S600000x4x32 ![0, 1, 2] Cert.ReferenceIdeal.Gen.bcast_S600000x4x1_S600000x4x32_0_1_2 y (ix3 r b d) = y (ix3 r b (0 : Fin 1)) :=
  broadcastInDim_apply _ Cert.ReferenceIdeal.Gen.bcast_S600000x4x1_S600000x4x32_0_1_2 y (ix3 r b d) (ix3 r b (0 : Fin 1)) (fun x => by
    match x with
    | ⟨0, _⟩ => show r.val = if (600000 : Nat) = 1 then 0 else r.val; rw [if_neg (by decide)]
    | ⟨1, _⟩ => show b.val = if (4 : Nat) = 1 then 0 else b.val; rw [if_neg (by decide)]
    | ⟨2, _⟩ => show 0 = if (1 : Nat) = 1 then 0 else d.val; rw [if_pos rfl])

/-- Where the host sum's witness puts channel k of the reduced index (r, b). -/
theorem lift_ref (h : Cert.ReferenceIdeal.S600000x4x32.Reduces [2] Cert.ReferenceIdeal.S600000x4) (r : Fin 600000) (b : Fin 4) (k : Fin 32) :
    h.lift (ix2 r b) k = ix3 r b k :=
  funext fun x => by match x with | ⟨0, _⟩ => rfl | ⟨1, _⟩ => rfl | ⟨2, _⟩ => rfl

/-- The host's sum over the channels from the zero word, at a reduced index of any operand. -/
theorem hostSum_apply (y : Cert.ReferenceIdeal.S600000x4x32.Idx → EReal) (r : Fin 600000) (b : Fin 4) :
    Host.reduceAdd (F := Ideal) y (constant (F := Ideal) Cert.ReferenceIdeal.S_ .f32 0x00000000#32) Cert.ReferenceIdeal.Gen.reducesTo_S600000x4x32_S600000x4_d2 Cert.ReferenceIdeal.Gen.h_S_ (ix2 r b)
      = ∑ k : Fin 32, y (ix3 r b k) := by
  simp only [Host.reduceAdd, Ideal.hostReduceAdd_def, constant, Ideal.ofBits_def]
  rw [Ideal.hostReduceAdd_single Cert.ReferenceIdeal.Gen.reducesTo_S600000x4x32_S600000x4_d2 (by decide), Ideal.ofBits_zero_f32, zero_add]
  refine Finset.sum_congr rfl fun (k : Fin 32) _ => ?_
  rw [lift_ref]

/-- The reference's weight over any score array, at an index: the exponential of the clipped channel sum. -/
theorem refS_of (y : Cert.ReferenceIdeal.S600000x4x32.Idx → EReal) (r : Fin 600000) (b : Fin 4) (d : Fin 1) :
    Host.exp (F := Ideal)
      (minimumf (broadcastInDim Cert.ReferenceIdeal.S600000x4x1 ![] Cert.ReferenceIdeal.Gen.bcast_S_S600000x4x1 (id (constant (F := Ideal) Cert.ReferenceIdeal.S_ .f32 0x40A00000#32)))
        (maximumf (broadcastInDim Cert.ReferenceIdeal.S600000x4x1 ![] Cert.ReferenceIdeal.Gen.bcast_S_S600000x4x1 (id (constant (F := Ideal) Cert.ReferenceIdeal.S_ .f32 0xC0A00000#32)))
          (broadcastInDim Cert.ReferenceIdeal.S600000x4x1 ![0, 1] Cert.ReferenceIdeal.Gen.bcast_S600000x4_S600000x4x1_0_1
            (Host.reduceAdd (F := Ideal) y (constant (F := Ideal) Cert.ReferenceIdeal.S_ .f32 0x00000000#32) Cert.ReferenceIdeal.Gen.reducesTo_S600000x4x32_S600000x4_d2 Cert.ReferenceIdeal.Gen.h_S_)))) (ix3 r b d)
      = Ideal.exp (clip5 (∑ k : Fin 32, y (ix3 r b k))) := by
  unfold clip5
  simp only [Host.exp, minimumf, maximumf, Ideal.hostUnary_exp_def, Ideal.minimumf_def, Ideal.maximumf_def]
  rw [bcastS1_apply, bcastS1_apply, bcast01_apply, hostSum_apply]
  simp only [id, constant, Ideal.ofBits_def]

/-- The reference's weight at an index. -/
theorem refS_apply (ks qd pe : S600000x4x32.Idx → EReal) (r : Fin 600000) (b : Fin 4) (d : Fin 1) :
    refS ks qd pe (ix3 r b d)
      = Ideal.exp (clip5 (∑ k : Fin 32, scoreAt (ks (ix3 r b k)) (qd (ix3 r b k)) (pe (ix3 r b k)))) :=
  (refS_of (refScore ks qd pe) r b d).trans
    (congrArg (fun z => Ideal.exp (clip5 z)) (Finset.sum_congr rfl fun k _ => refScore_apply ks qd pe (ix3 r b k)))

/-- The reference's weighted value at an index. -/
theorem refWv_apply (ks qd vs pe : S600000x4x32.Idx → EReal) (r : Fin 600000) (b : Fin 4) (d : Fin 32) :
    refWv ks qd vs pe (ix3 r b d) = vs (ix3 r b d) * refS ks qd pe (ix3 r b (0 : Fin 1)) :=
  congrArg (vs (ix3 r b d) * ·) (bcast012_apply (refS ks qd pe) r b d)

/-! ## From blocks to arrays -/

theorem hz3 : (![0, 0, 0] : Fin 3 → Nat) = fun _ => 0 := funext fun a => by fin_cases a <;> rfl

/-- The printed index maps, decided over the grid: every window's block index at point t is (t, 0, 0). -/
theorem idx_facts2 : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ (win2_3.index t (0 : Fin 3) = t.val ∧ win2_3.index t (1 : Fin 3) = 0 ∧ win2_3.index t (2 : Fin 3) = 0)
    ∧ (win2_4.index t (0 : Fin 3) = t.val ∧ win2_4.index t (1 : Fin 3) = 0 ∧ win2_4.index t (2 : Fin 3) = 0)
    ∧ (win2_5.index t (0 : Fin 3) = t.val ∧ win2_5.index t (1 : Fin 3) = 0 ∧ win2_5.index t (2 : Fin 3) = 0)
    ∧ (win2_6.index t (0 : Fin 3) = t.val ∧ win2_6.index t (1 : Fin 3) = 0 ∧ win2_6.index t (2 : Fin 3) = 0) :=
  (by decide +kernel : ∀ t : Fin grid2.N, _)

theorem idx2_0 (t : Fin cfg2.N) : win2_0.index t (0 : Fin 3) = t.val ∧ win2_0.index t (1 : Fin 3) = 0 ∧ win2_0.index t (2 : Fin 3) = 0 := (idx_facts2 t).1
theorem idx2_1 (t : Fin cfg2.N) : win2_1.index t (0 : Fin 3) = t.val ∧ win2_1.index t (1 : Fin 3) = 0 ∧ win2_1.index t (2 : Fin 3) = 0 := (idx_facts2 t).2.1
theorem idx2_2 (t : Fin cfg2.N) : win2_2.index t (0 : Fin 3) = t.val ∧ win2_2.index t (1 : Fin 3) = 0 ∧ win2_2.index t (2 : Fin 3) = 0 := (idx_facts2 t).2.2.1
theorem idx2_3 (t : Fin cfg2.N) : win2_3.index t (0 : Fin 3) = t.val ∧ win2_3.index t (1 : Fin 3) = 0 ∧ win2_3.index t (2 : Fin 3) = 0 := (idx_facts2 t).2.2.2.1
theorem idx2_4 (t : Fin cfg2.N) : win2_4.index t (0 : Fin 3) = t.val ∧ win2_4.index t (1 : Fin 3) = 0 ∧ win2_4.index t (2 : Fin 3) = 0 := (idx_facts2 t).2.2.2.2.1
theorem idx2_5 (t : Fin cfg2.N) : win2_5.index t (0 : Fin 3) = t.val ∧ win2_5.index t (1 : Fin 3) = 0 ∧ win2_5.index t (2 : Fin 3) = 0 := (idx_facts2 t).2.2.2.2.2.1
theorem idx2_6 (t : Fin cfg2.N) : win2_6.index t (0 : Fin 3) = t.val ∧ win2_6.index t (1 : Fin 3) = 0 ∧ win2_6.index t (2 : Fin 3) = 0 := (idx_facts2 t).2.2.2.2.2.2

/-- Where element (a, b, d) of window 0's block at point t sits in its array: row 500 t + a. -/
theorem emb2_0 (t : Fin cfg2.N) (a : Fin 500) (b : Fin 4) (d : Fin 32) (hr : t.val * 500 + a.val < 600000) :
    ((cfg2.win 0).blk t).view.emb (ix3 a b d) = ix3 ⟨t.val * 500 + a.val, hr⟩ b d := by
  obtain ⟨e0, e1, e2⟩ := idx2_0 t
  funext x; apply Fin.ext
  match x with
  | ⟨0, _⟩ => show win2_0.index t (0 : Fin 3) * 500 + 1 * a.val = t.val * 500 + a.val; rw [e0]; omega
  | ⟨1, _⟩ => show win2_0.index t (1 : Fin 3) * 4 + 1 * b.val = b.val; rw [e1]; omega
  | ⟨2, _⟩ => show win2_0.index t (2 : Fin 3) * 32 + 1 * d.val = d.val; rw [e2]; omega

/-- Where element (a, b, d) of window 1's block at point t sits in its array: row 500 t + a. -/
theorem emb2_1 (t : Fin cfg2.N) (a : Fin 500) (b : Fin 4) (d : Fin 32) (hr : t.val * 500 + a.val < 600000) :
    ((cfg2.win 1).blk t).view.emb (ix3 a b d) = ix3 ⟨t.val * 500 + a.val, hr⟩ b d := by
  obtain ⟨e0, e1, e2⟩ := idx2_1 t
  funext x; apply Fin.ext
  match x with
  | ⟨0, _⟩ => show win2_1.index t (0 : Fin 3) * 500 + 1 * a.val = t.val * 500 + a.val; rw [e0]; omega
  | ⟨1, _⟩ => show win2_1.index t (1 : Fin 3) * 4 + 1 * b.val = b.val; rw [e1]; omega
  | ⟨2, _⟩ => show win2_1.index t (2 : Fin 3) * 32 + 1 * d.val = d.val; rw [e2]; omega

/-- Where element (a, b, d) of window 2's block at point t sits in its array: row 500 t + a. -/
theorem emb2_2 (t : Fin cfg2.N) (a : Fin 500) (b : Fin 4) (d : Fin 32) (hr : t.val * 500 + a.val < 600000) :
    ((cfg2.win 2).blk t).view.emb (ix3 a b d) = ix3 ⟨t.val * 500 + a.val, hr⟩ b d := by
  obtain ⟨e0, e1, e2⟩ := idx2_2 t
  funext x; apply Fin.ext
  match x with
  | ⟨0, _⟩ => show win2_2.index t (0 : Fin 3) * 500 + 1 * a.val = t.val * 500 + a.val; rw [e0]; omega
  | ⟨1, _⟩ => show win2_2.index t (1 : Fin 3) * 4 + 1 * b.val = b.val; rw [e1]; omega
  | ⟨2, _⟩ => show win2_2.index t (2 : Fin 3) * 32 + 1 * d.val = d.val; rw [e2]; omega

/-- Where element (a, b, d) of window 3's block at point t sits in its array: row 500 t + a. -/
theorem emb2_3 (t : Fin cfg2.N) (a : Fin 500) (b : Fin 4) (d : Fin 32) (hr : t.val * 500 + a.val < 600000) :
    ((cfg2.win 3).blk t).view.emb (ix3 a b d) = ix3 ⟨t.val * 500 + a.val, hr⟩ b d := by
  obtain ⟨e0, e1, e2⟩ := idx2_3 t
  funext x; apply Fin.ext
  match x with
  | ⟨0, _⟩ => show win2_3.index t (0 : Fin 3) * 500 + 1 * a.val = t.val * 500 + a.val; rw [e0]; omega
  | ⟨1, _⟩ => show win2_3.index t (1 : Fin 3) * 4 + 1 * b.val = b.val; rw [e1]; omega
  | ⟨2, _⟩ => show win2_3.index t (2 : Fin 3) * 32 + 1 * d.val = d.val; rw [e2]; omega

/-- Where element (a, b, d) of window 4's block at point t sits in its array: row 500 t + a. -/
theorem emb2_4 (t : Fin cfg2.N) (a : Fin 500) (b : Fin 4) (d : Fin 32) (hr : t.val * 500 + a.val < 600000) :
    ((cfg2.win 4).blk t).view.emb (ix3 a b d) = ix3 ⟨t.val * 500 + a.val, hr⟩ b d := by
  obtain ⟨e0, e1, e2⟩ := idx2_4 t
  funext x; apply Fin.ext
  match x with
  | ⟨0, _⟩ => show win2_4.index t (0 : Fin 3) * 500 + 1 * a.val = t.val * 500 + a.val; rw [e0]; omega
  | ⟨1, _⟩ => show win2_4.index t (1 : Fin 3) * 4 + 1 * b.val = b.val; rw [e1]; omega
  | ⟨2, _⟩ => show win2_4.index t (2 : Fin 3) * 32 + 1 * d.val = d.val; rw [e2]; omega

/-- Where element (a, b, d) of window 5's block at point t sits in its array: row 500 t + a. -/
theorem emb2_5 (t : Fin cfg2.N) (a : Fin 500) (b : Fin 4) (d : Fin 1) (hr : t.val * 500 + a.val < 600000) :
    ((cfg2.win 5).blk t).view.emb (ix3 a b d) = ix3 ⟨t.val * 500 + a.val, hr⟩ b d := by
  obtain ⟨e0, e1, e2⟩ := idx2_5 t
  funext x; apply Fin.ext
  match x with
  | ⟨0, _⟩ => show win2_5.index t (0 : Fin 3) * 500 + 1 * a.val = t.val * 500 + a.val; rw [e0]; omega
  | ⟨1, _⟩ => show win2_5.index t (1 : Fin 3) * 4 + 1 * b.val = b.val; rw [e1]; omega
  | ⟨2, _⟩ => show win2_5.index t (2 : Fin 3) * 1 + 1 * d.val = d.val; rw [e2]; omega

/-- Where element (a, b, d) of window 6's block at point t sits in its array: row 500 t + a. -/
theorem emb2_6 (t : Fin cfg2.N) (a : Fin 500) (b : Fin 4) (d : Fin 32) (hr : t.val * 500 + a.val < 600000) :
    ((cfg2.win 6).blk t).view.emb (ix3 a b d) = ix3 ⟨t.val * 500 + a.val, hr⟩ b d := by
  obtain ⟨e0, e1, e2⟩ := idx2_6 t
  funext x; apply Fin.ext
  match x with
  | ⟨0, _⟩ => show win2_6.index t (0 : Fin 3) * 500 + 1 * a.val = t.val * 500 + a.val; rw [e0]; omega
  | ⟨1, _⟩ => show win2_6.index t (1 : Fin 3) * 4 + 1 * b.val = b.val; rw [e1]; omega
  | ⟨2, _⟩ => show win2_6.index t (2 : Fin 3) * 32 + 1 * d.val = d.val; rw [e2]; omega

/-- Input window 0's block at point t is rows 500 t … 500 t + 499 of its array. -/
theorem iblk2_0_apply (c : Dev nD) (A : S600000x4x32.Idx → EReal) (hA : V c main_v14 = A) (t : Fin cfg2.N) (a : Fin 500) (b : Fin 4) (d : Fin 32)
    (hr : t.val * 500 + a.val < 600000) :
    (iblk2 V c 0 t : S500x4x32.Idx → EReal) (ix3 a b d) = A (ix3 ⟨t.val * 500 + a.val, hr⟩ b d) := by
  subst hA
  unfold iblk2
  rw [View.read_apply]
  exact congrArg (V c main_v14) (emb2_0 t a b d hr)

/-- Input window 1's block at point t is rows 500 t … 500 t + 499 of its array. -/
theorem iblk2_1_apply (c : Dev nD) (A : S600000x4x32.Idx → EReal) (hA : V c main_v15 = A) (t : Fin cfg2.N) (a : Fin 500) (b : Fin 4) (d : Fin 32)
    (hr : t.val * 500 + a.val < 600000) :
    (iblk2 V c 1 t : S500x4x32.Idx → EReal) (ix3 a b d) = A (ix3 ⟨t.val * 500 + a.val, hr⟩ b d) := by
  subst hA
  unfold iblk2
  rw [View.read_apply]
  exact congrArg (V c main_v15) (emb2_1 t a b d hr)

/-- Input window 2's block at point t is rows 500 t … 500 t + 499 of its array. -/
theorem iblk2_2_apply (c : Dev nD) (A : S600000x4x32.Idx → EReal) (hA : V c main_v16 = A) (t : Fin cfg2.N) (a : Fin 500) (b : Fin 4) (d : Fin 32)
    (hr : t.val * 500 + a.val < 600000) :
    (iblk2 V c 2 t : S500x4x32.Idx → EReal) (ix3 a b d) = A (ix3 ⟨t.val * 500 + a.val, hr⟩ b d) := by
  subst hA
  unfold iblk2
  rw [View.read_apply]
  exact congrArg (V c main_v16) (emb2_2 t a b d hr)

/-- Input window 3's block at point t is rows 500 t … 500 t + 499 of its array. -/
theorem iblk2_3_apply (c : Dev nD) (A : S600000x4x32.Idx → EReal) (hA : V c main_v13 = A) (t : Fin cfg2.N) (a : Fin 500) (b : Fin 4) (d : Fin 32)
    (hr : t.val * 500 + a.val < 600000) :
    (iblk2 V c 3 t : S500x4x32.Idx → EReal) (ix3 a b d) = A (ix3 ⟨t.val * 500 + a.val, hr⟩ b d) := by
  subst hA
  unfold iblk2
  rw [View.read_apply]
  exact congrArg (V c main_v13) (emb2_3 t a b d hr)

/-- A block of output window 4 that holds, at every (a, b, d), the array function G at row 500 t + a, is G read through the window's block
    at point t. -/
theorem read_blk2_4 (G : S600000x4x32.Idx → EReal) (X : S500x4x32.Idx → EReal) (t : Fin cfg2.N)
    (h : ∀ (a : Fin 500) (b : Fin 4) (d : Fin 32) (hr : t.val * 500 + a.val < 600000), X (ix3 a b d) = G (ix3 ⟨t.val * 500 + a.val, hr⟩ b d)) :
    (cfg2.win 4).cut (grid2.coords t) X = ((cfg2.win 4).blk t).view.read (Elt Ideal) G := by
  funext j
  have hN : cfg2.N = 1200 := N_2
  have hj : (j 0).val < 500 := (j 0).isLt
  have hr : t.val * 500 + (j 0).val < 600000 := by have := t.isLt; omega
  rw [View.read_apply]
  show X j = G (((cfg2.win 4).blk t).view.emb j)
  refine (congrArg X (@eq_ix3 500 4 32 j)).trans ((h ⟨(j 0).val, hj⟩ (j 1) (j 2) hr).trans (congrArg G ?_))
  exact ((congrArg ((cfg2.win 4).blk t).view.emb (@eq_ix3 500 4 32 j)).trans (emb2_4 t ⟨(j 0).val, hj⟩ (j 1) (j 2) hr)).symm

/-- A block of output window 5 that holds, at every (a, b, d), the array function G at row 500 t + a, is G read through the window's block
    at point t. -/
theorem read_blk2_5 (G : S600000x4x1.Idx → EReal) (X : S500x4x1.Idx → EReal) (t : Fin cfg2.N)
    (h : ∀ (a : Fin 500) (b : Fin 4) (d : Fin 1) (hr : t.val * 500 + a.val < 600000), X (ix3 a b d) = G (ix3 ⟨t.val * 500 + a.val, hr⟩ b d)) :
    (cfg2.win 5).cut (grid2.coords t) X = ((cfg2.win 5).blk t).view.read (Elt Ideal) G := by
  funext j
  have hN : cfg2.N = 1200 := N_2
  have hj : (j 0).val < 500 := (j 0).isLt
  have hr : t.val * 500 + (j 0).val < 600000 := by have := t.isLt; omega
  rw [View.read_apply]
  show X j = G (((cfg2.win 5).blk t).view.emb j)
  refine (congrArg X (@eq_ix3 500 4 1 j)).trans ((h ⟨(j 0).val, hj⟩ (j 1) (j 2) hr).trans (congrArg G ?_))
  exact ((congrArg ((cfg2.win 5).blk t).view.emb (@eq_ix3 500 4 1 j)).trans (emb2_5 t ⟨(j 0).val, hj⟩ (j 1) (j 2) hr)).symm

/-- A block of output window 6 that holds, at every (a, b, d), the array function G at row 500 t + a, is G read through the window's block
    at point t. -/
theorem read_blk2_6 (G : S600000x4x32.Idx → EReal) (X : S500x4x32.Idx → EReal) (t : Fin cfg2.N)
    (h : ∀ (a : Fin 500) (b : Fin 4) (d : Fin 32) (hr : t.val * 500 + a.val < 600000), X (ix3 a b d) = G (ix3 ⟨t.val * 500 + a.val, hr⟩ b d)) :
    (cfg2.win 6).cut (grid2.coords t) X = ((cfg2.win 6).blk t).view.read (Elt Ideal) G := by
  funext j
  have hN : cfg2.N = 1200 := N_2
  have hj : (j 0).val < 500 := (j 0).isLt
  have hr : t.val * 500 + (j 0).val < 600000 := by have := t.isLt; omega
  rw [View.read_apply]
  show X j = G (((cfg2.win 6).blk t).view.emb j)
  refine (congrArg X (@eq_ix3 500 4 32 j)).trans ((h ⟨(j 0).val, hj⟩ (j 1) (j 2) hr).trans (congrArg G ?_))
  exact ((congrArg ((cfg2.win 6).blk t).view.emb (@eq_ix3 500 4 32 j)).trans (emb2_6 t ⟨(j 0).val, hj⟩ (j 1) (j 2) hr)).symm

/-- An index of output 4's array is in point t's block iff each coordinate is in the block's range on its axis. -/
theorem mem_blk2_4 (t : Fin cfg2.N) (i : S600000x4x32.Idx) :
    i ∈ ((cfg2.win 4).blk t).view.set ↔ ∀ a : Fin 3, win2_4.index t a * S500x4x32.size a ≤ (i a).val ∧ (i a).val < win2_4.index t a * S500x4x32.size a + S500x4x32.size a := by
  show i ∈ ((View.whole main_v17_0).slice (win2_4.rect t)).set ↔ _
  rw [View.set_slice_whole, Rect.mem_set_unit]
  exact Iff.rfl

/-- Every index of output 4's array is in the block of the point its row falls to, and every point writes back. -/
theorem covered2_4 (i : S600000x4x32.Idx) : ∃ t : Fin cfg2.N, (cfg2.win 4).flush t = true ∧ i ∈ ((cfg2.win 4).blk t).view.set := by
  have hN : cfg2.N = 1200 := N_2
  have hi0 : (i 0).val < 600000 := (i 0).isLt
  have hi1 : (i 1).val < 4 := (i 1).isLt
  have hi2 : (i 2).val < 32 := (i 2).isLt
  have ht : (i 0).val / 500 < cfg2.N := by omega
  obtain ⟨e0, e1, e2⟩ := idx2_4 ⟨(i 0).val / 500, ht⟩
  refine ⟨⟨(i 0).val / 500, ht⟩, flush2_4 _, ?_⟩
  rw [mem_blk2_4]
  intro a
  match a with
  | ⟨0, _⟩ =>
    show win2_4.index ⟨(i 0).val / 500, ht⟩ (0 : Fin 3) * 500 ≤ (i 0).val ∧ (i 0).val < win2_4.index ⟨(i 0).val / 500, ht⟩ (0 : Fin 3) * 500 + 500
    rw [e0]; show (i 0).val / 500 * 500 ≤ (i 0).val ∧ (i 0).val < (i 0).val / 500 * 500 + 500; omega
  | ⟨1, _⟩ =>
    show win2_4.index ⟨(i 0).val / 500, ht⟩ (1 : Fin 3) * 4 ≤ (i 1).val ∧ (i 1).val < win2_4.index ⟨(i 0).val / 500, ht⟩ (1 : Fin 3) * 4 + 4
    rw [e1]; omega
  | ⟨2, _⟩ =>
    show win2_4.index ⟨(i 0).val / 500, ht⟩ (2 : Fin 3) * 32 ≤ (i 2).val ∧ (i 2).val < win2_4.index ⟨(i 0).val / 500, ht⟩ (2 : Fin 3) * 32 + 32
    rw [e2]; omega

/-- An index of output 5's array is in point t's block iff each coordinate is in the block's range on its axis. -/
theorem mem_blk2_5 (t : Fin cfg2.N) (i : S600000x4x1.Idx) :
    i ∈ ((cfg2.win 5).blk t).view.set ↔ ∀ a : Fin 3, win2_5.index t a * S500x4x1.size a ≤ (i a).val ∧ (i a).val < win2_5.index t a * S500x4x1.size a + S500x4x1.size a := by
  show i ∈ ((View.whole main_v17_1).slice (win2_5.rect t)).set ↔ _
  rw [View.set_slice_whole, Rect.mem_set_unit]
  exact Iff.rfl

/-- Every index of output 5's array is in the block of the point its row falls to, and every point writes back. -/
theorem covered2_5 (i : S600000x4x1.Idx) : ∃ t : Fin cfg2.N, (cfg2.win 5).flush t = true ∧ i ∈ ((cfg2.win 5).blk t).view.set := by
  have hN : cfg2.N = 1200 := N_2
  have hi0 : (i 0).val < 600000 := (i 0).isLt
  have hi1 : (i 1).val < 4 := (i 1).isLt
  have hi2 : (i 2).val < 1 := (i 2).isLt
  have ht : (i 0).val / 500 < cfg2.N := by omega
  obtain ⟨e0, e1, e2⟩ := idx2_5 ⟨(i 0).val / 500, ht⟩
  refine ⟨⟨(i 0).val / 500, ht⟩, flush2_5 _, ?_⟩
  rw [mem_blk2_5]
  intro a
  match a with
  | ⟨0, _⟩ =>
    show win2_5.index ⟨(i 0).val / 500, ht⟩ (0 : Fin 3) * 500 ≤ (i 0).val ∧ (i 0).val < win2_5.index ⟨(i 0).val / 500, ht⟩ (0 : Fin 3) * 500 + 500
    rw [e0]; show (i 0).val / 500 * 500 ≤ (i 0).val ∧ (i 0).val < (i 0).val / 500 * 500 + 500; omega
  | ⟨1, _⟩ =>
    show win2_5.index ⟨(i 0).val / 500, ht⟩ (1 : Fin 3) * 4 ≤ (i 1).val ∧ (i 1).val < win2_5.index ⟨(i 0).val / 500, ht⟩ (1 : Fin 3) * 4 + 4
    rw [e1]; omega
  | ⟨2, _⟩ =>
    show win2_5.index ⟨(i 0).val / 500, ht⟩ (2 : Fin 3) * 1 ≤ (i 2).val ∧ (i 2).val < win2_5.index ⟨(i 0).val / 500, ht⟩ (2 : Fin 3) * 1 + 1
    rw [e2]; omega

/-- An index of output 6's array is in point t's block iff each coordinate is in the block's range on its axis. -/
theorem mem_blk2_6 (t : Fin cfg2.N) (i : S600000x4x32.Idx) :
    i ∈ ((cfg2.win 6).blk t).view.set ↔ ∀ a : Fin 3, win2_6.index t a * S500x4x32.size a ≤ (i a).val ∧ (i a).val < win2_6.index t a * S500x4x32.size a + S500x4x32.size a := by
  show i ∈ ((View.whole main_v17_2).slice (win2_6.rect t)).set ↔ _
  rw [View.set_slice_whole, Rect.mem_set_unit]
  exact Iff.rfl

/-- Every index of output 6's array is in the block of the point its row falls to, and every point writes back. -/
theorem covered2_6 (i : S600000x4x32.Idx) : ∃ t : Fin cfg2.N, (cfg2.win 6).flush t = true ∧ i ∈ ((cfg2.win 6).blk t).view.set := by
  have hN : cfg2.N = 1200 := N_2
  have hi0 : (i 0).val < 600000 := (i 0).isLt
  have hi1 : (i 1).val < 4 := (i 1).isLt
  have hi2 : (i 2).val < 32 := (i 2).isLt
  have ht : (i 0).val / 500 < cfg2.N := by omega
  obtain ⟨e0, e1, e2⟩ := idx2_6 ⟨(i 0).val / 500, ht⟩
  refine ⟨⟨(i 0).val / 500, ht⟩, flush2_6 _, ?_⟩
  rw [mem_blk2_6]
  intro a
  match a with
  | ⟨0, _⟩ =>
    show win2_6.index ⟨(i 0).val / 500, ht⟩ (0 : Fin 3) * 500 ≤ (i 0).val ∧ (i 0).val < win2_6.index ⟨(i 0).val / 500, ht⟩ (0 : Fin 3) * 500 + 500
    rw [e0]; show (i 0).val / 500 * 500 ≤ (i 0).val ∧ (i 0).val < (i 0).val / 500 * 500 + 500; omega
  | ⟨1, _⟩ =>
    show win2_6.index ⟨(i 0).val / 500, ht⟩ (1 : Fin 3) * 4 ≤ (i 1).val ∧ (i 1).val < win2_6.index ⟨(i 0).val / 500, ht⟩ (1 : Fin 3) * 4 + 4
    rw [e1]; omega
  | ⟨2, _⟩ =>
    show win2_6.index ⟨(i 0).val / 500, ht⟩ (2 : Fin 3) * 32 ≤ (i 2).val ∧ (i 2).val < win2_6.index ⟨(i 0).val / 500, ht⟩ (2 : Fin 3) * 32 + 32
    rw [e2]; omega

/-! ## One element of what a point writes back -/

/-- The score the body computes from the blocks at point t, at (a, b, d), is the reference's score at row 500 t + a. -/
theorem point_score (c : Dev nD) (ks qd pe : S600000x4x32.Idx → EReal) (h0 : V c main_v14 = ks) (h1 : V c main_v15 = qd) (h3 : V c main_v13 = pe)
    (t : Fin cfg2.N) (a : Fin 500) (b : Fin 4) (d : Fin 32) (hr : t.val * 500 + a.val < 600000) :
    k2_pay1 (F := Ideal) (iblk2 V c 0 t) (iblk2 V c 1 t) (iblk2 V c 3 t) (ix3 a b d) = refScore ks qd pe (ix3 ⟨t.val * 500 + a.val, hr⟩ b d) := by
  refine (pay1_apply _ _ _ (ix3 a b d)).trans ?_
  rw [iblk2_0_apply V c ks h0 t a b d hr, iblk2_1_apply V c qd h1 t a b d hr, iblk2_3_apply V c pe h3 t a b d hr]
  exact (refScore_apply ks qd pe _).symm

/-- The weight the body computes from the blocks at point t, at (a, b, 0), is the reference's weight at row 500 t + a. -/
theorem point_s (c : Dev nD) (ks qd pe : S600000x4x32.Idx → EReal) (h0 : V c main_v14 = ks) (h1 : V c main_v15 = qd) (h3 : V c main_v13 = pe)
    (t : Fin cfg2.N) (a : Fin 500) (b : Fin 4) (d : Fin 1) (hr : t.val * 500 + a.val < 600000) :
    k2_pay2 (F := Ideal) (iblk2 V c 0 t) (iblk2 V c 1 t) (iblk2 V c 3 t) (ix3 a b d) = refS ks qd pe (ix3 ⟨t.val * 500 + a.val, hr⟩ b d) := by
  refine (pay2_apply _ _ _ a b d).trans ((congrArg (fun z => Ideal.exp (clip5 z)) (Finset.sum_congr rfl fun k _ => ?_)).trans (refS_apply ks qd pe _ b d).symm)
  rw [iblk2_0_apply V c ks h0 t a b k hr, iblk2_1_apply V c qd h1 t a b k hr, iblk2_3_apply V c pe h3 t a b k hr]

/-- The weighted value the body computes from the blocks at point t, at (a, b, d), is the reference's at row 500 t + a. -/
theorem point_wv (c : Dev nD) (ks qd vs pe : S600000x4x32.Idx → EReal) (h0 : V c main_v14 = ks) (h1 : V c main_v15 = qd) (h2 : V c main_v16 = vs) (h3 : V c main_v13 = pe)
    (t : Fin cfg2.N) (a : Fin 500) (b : Fin 4) (d : Fin 32) (hr : t.val * 500 + a.val < 600000) :
    k2_pay3 (F := Ideal) (iblk2 V c 0 t) (iblk2 V c 1 t) (iblk2 V c 3 t) (iblk2 V c 2 t) (ix3 a b d) = refWv ks qd vs pe (ix3 ⟨t.val * 500 + a.val, hr⟩ b d) := by
  refine (pay3_apply _ _ _ _ a b d).trans ?_
  rw [iblk2_2_apply V c vs h2 t a b d hr, point_s V c ks qd pe h0 h1 h3 t a b (0 : Fin 1) hr]
  exact (refWv_apply ks qd vs pe _ b d).symm

/-! ## What each point writes back, and the arrays after the region -/

/-- Point t writes back block t of the reference's score. -/
theorem flushed2_4_eq (c : Dev nD) (ks qd pe : S600000x4x32.Idx → EReal) (h0 : V c main_v14 = ks) (h1 : V c main_v15 = qd) (h3 : V c main_v13 = pe) (t : Fin cfg2.N) :
    (dat2 V c).flushed 4 t = ((cfg2.win 4).blk t).view.read (Elt Ideal) (refScore ks qd pe) := by
  show (cfg2.win 4).cut (grid2.coords t) ((dat2 V c).after 4 t) = _
  rw [after2_4]
  unfold out2_4
  rw [View.canon_unit_zero hz3]
  simp only [View.ld_unit_zero (S := S500x4x32) hz3]
  exact read_blk2_4 (refScore ks qd pe) _ t (point_score V c ks qd pe h0 h1 h3 t)

/-- Point t writes back block t of the reference's weight. -/
theorem flushed2_5_eq (c : Dev nD) (ks qd pe : S600000x4x32.Idx → EReal) (h0 : V c main_v14 = ks) (h1 : V c main_v15 = qd) (h3 : V c main_v13 = pe) (t : Fin cfg2.N) :
    (dat2 V c).flushed 5 t = ((cfg2.win 5).blk t).view.read (Elt Ideal) (refS ks qd pe) := by
  show (cfg2.win 5).cut (grid2.coords t) ((dat2 V c).after 5 t) = _
  rw [after2_5]
  unfold out2_5
  rw [View.canon_unit_zero hz3]
  simp only [View.ld_unit_zero (S := S500x4x32) hz3]
  exact read_blk2_5 (refS ks qd pe) _ t (point_s V c ks qd pe h0 h1 h3 t)

/-- Point t writes back block t of the reference's weighted values. -/
theorem flushed2_6_eq (c : Dev nD) (ks qd vs pe : S600000x4x32.Idx → EReal) (h0 : V c main_v14 = ks) (h1 : V c main_v15 = qd) (h2 : V c main_v16 = vs) (h3 : V c main_v13 = pe) (t : Fin cfg2.N) :
    (dat2 V c).flushed 6 t = ((cfg2.win 6).blk t).view.read (Elt Ideal) (refWv ks qd vs pe) := by
  show (cfg2.win 6).cut (grid2.coords t) ((dat2 V c).after 6 t) = _
  rw [after2_6]
  unfold out2_6
  rw [View.canon_unit_zero hz3]
  simp only [View.ld_unit_zero (S := S500x4x32) hz3]
  exact read_blk2_6 (refWv ks qd vs pe) _ t (point_wv V c ks qd vs pe h0 h1 h2 h3 t)

/-- After the region the three output arrays hold the reference's score, weight and weighted values of the arrays the
    region found in its four inputs: the blocks tile each array and every point writes its block back. -/
theorem region2_values (c : Dev nD) (ks qd vs pe : S600000x4x32.Idx → EReal) (h0 : V c main_v14 = ks) (h1 : V c main_v15 = qd) (h2 : V c main_v16 = vs) (h3 : V c main_v13 = pe) :
    (dat2 V c).arrAt 4 cfg2.N = refScore ks qd pe ∧ (dat2 V c).arrAt 5 cfg2.N = refS ks qd pe
      ∧ (dat2 V c).arrAt 6 cfg2.N = refWv ks qd vs pe :=
  ⟨(dat2 V c).arrAt_eq_of_cover 4 (refScore ks qd pe) (fun t _ => flushed2_4_eq V c ks qd pe h0 h1 h3 t) covered2_4,
   (dat2 V c).arrAt_eq_of_cover 5 (refS ks qd pe) (fun t _ => flushed2_5_eq V c ks qd pe h0 h1 h3 t) covered2_5,
   (dat2 V c).arrAt_eq_of_cover 6 (refWv ks qd vs pe) (fun t _ => flushed2_6_eq V c ks qd vs pe h0 h1 h2 h3 t) covered2_6⟩

end Cert.KernelIdeal.Val

end
-- ==== Proof.KiV3.lean ====
/-
  Region 3 at the ideal instance: the node feed-forward network. Every grid point writes back the block of 5000 rows
  of silu(H W1) W2 for the 50000 x 128 node features H; the blocks tile the result. The kernel's x * logistic(x) is
  the reference's x * (1 / (1 + exp(-x))) on every extended real, and a product into the zero accumulator is the
  host's dot_general, so the array after the region is the reference's two-layer term of the same operands.
-/
import proofs.«411279_j64037962384024_2_alg».proof.Proof.KiR3
import proofs.«411279_j64037962384024_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

/-! ## The reference's term -/

/-- The reference's hidden layer over the node array: H times the transposed first weight, 50000 x 256. -/
def refHidN (H : S50000x128.Idx → EReal) (A8 : S256x128.Idx → EReal) : Cert.ReferenceIdeal.S50000x256.Idx → EReal :=
  Host.dotGeneral (F := Ideal) (φ₁ := .f32) (φ₂ := .f32) Cert.ReferenceIdeal.dot_S50000x128_S128x256_S50000x256_1_0_0_1_n_n none H
    (transpose Cert.ReferenceIdeal.S128x256 [1, 0] A8 Cert.ReferenceIdeal.Gen.transposes_S256x128_S128x256_1_0)

/-- The reference's gate on a 50000 x 256 array: d * (1 / (1 + exp (-d))), with its two broadcast ones. -/
def refGateN (d : Cert.ReferenceIdeal.S50000x256.Idx → EReal) : Cert.ReferenceIdeal.S50000x256.Idx → EReal :=
  mulf (F := Ideal) (φ := .f32) d
    (Host.divf (F := Ideal) (φ := .f32)
      (broadcastInDim Cert.ReferenceIdeal.S50000x256 ![] Cert.ReferenceIdeal.Gen.bcast_S_S50000x256
        (constant (F := Ideal) Cert.ReferenceIdeal.S_ .f32 0x3F800000#32))
      (addf (F := Ideal) (φ := .f32)
        (broadcastInDim Cert.ReferenceIdeal.S50000x256 ![] Cert.ReferenceIdeal.Gen.bcast_S_S50000x256
          (constant (F := Ideal) Cert.ReferenceIdeal.S_ .f32 0x3F800000#32))
        (Host.exp (F := Ideal) (φ := .f32) (Host.negf (F := Ideal) (φ := .f32) d))))

/-- The reference's feed-forward term over an arbitrary hidden array H and the two weights (as its stages compose it). -/
def refFfnN (H : S50000x128.Idx → EReal) (A8 : S256x128.Idx → EReal) (A9 : S128x256.Idx → EReal) : S50000x128.Idx → EReal :=
  Host.dotGeneral (F := Ideal) (φ₁ := .f32) (φ₂ := .f32) Cert.ReferenceIdeal.dot_S50000x256_S256x128_S50000x128_1_0_0_1_n_n none
    (refGateN (refHidN H A8))
    (transpose Cert.ReferenceIdeal.S256x128 [1, 0] A9 Cert.ReferenceIdeal.Gen.transposes_S128x256_S256x128_1_0)

/-- The reference's first result is that term of its own hidden stage. -/
theorem refFfnN_eq (x0 : S50000x128.Idx → EReal) (x1 : S600000x128.Idx → EReal) (x2 x3 : S600000.Idx → BitVec 32)
    (x4 x5 x6 x7 : S128x128.Idx → EReal) (x8 : S256x128.Idx → EReal) (x9 : S128x256.Idx → EReal) :
    Cert.ReferenceIdeal.Read.val_main_v59 (F := Ideal) x0 x1 x2 x3 x4 x5 x6 x7 x8 x9
      = refFfnN (Cert.ReferenceIdeal.Read.val_main_v54 (F := Ideal) x0 x1 x2 x3 x4 x5 x6 x7) x8 x9 := by
  generalize hH : Cert.ReferenceIdeal.Read.val_main_v54 (F := Ideal) x0 x1 x2 x3 x4 x5 x6 x7 = Hd
  unfold Cert.ReferenceIdeal.Read.val_main_v59 Cert.ReferenceIdeal.Read.val_main_v58 Cert.ReferenceIdeal.Read.val_main_v57
    Cert.ReferenceIdeal.Read.val_main_call2_v5 Cert.ReferenceIdeal.Read.val_main_call2_v4 Cert.ReferenceIdeal.Read.val_main_call2_cst_0
    Cert.ReferenceIdeal.Read.val_main_call2_v3 Cert.ReferenceIdeal.Read.val_main_call2_v2 Cert.ReferenceIdeal.Read.val_main_call2_cst
    Cert.ReferenceIdeal.Read.val_main_call2_v1 Cert.ReferenceIdeal.Read.val_main_call2_v0 Cert.ReferenceIdeal.Read.val_main_v56
    Cert.ReferenceIdeal.Read.val_main_v55
  rw [hH]
  unfold refFfnN refGateN refHidN
  rfl

/-! ## The gate, and the reference's term at an index -/

/-- One hidden unit's gate on the extended reals: x * (1 / (1 + exp (-x))). -/
def gateN (x : EReal) : EReal := x * Ideal.div 1 (1 + Ideal.exp (-x))

/-- The reference's gate array at an index is the gate of the operand there: its two ones are the word of 1. -/
theorem refGateN_apply (d : Cert.ReferenceIdeal.S50000x256.Idx → EReal) (i : Cert.ReferenceIdeal.S50000x256.Idx) :
    refGateN d i = gateN (d i) := by
  unfold refGateN gateN
  show d i * Ideal.div (Ideal.ofBits .f32 0x3F800000#32) (Ideal.ofBits .f32 0x3F800000#32 + Ideal.exp (-(d i))) = _
  rw [Ideal.ofBits_one_f32]

/-- The reference's hidden layer at (r, k): the sum over the 128 features of H (r, ·) times row k of the first weight. -/
theorem refHidN_apply (H : S50000x128.Idx → EReal) (A8 : S256x128.Idx → EReal) (r : Fin 50000) (k : Fin 256) :
    refHidN H A8 (ix2 r k) = ∑ k' : Fin 128, H (ix2 r k') * A8 (ix2 k k') := by
  unfold refHidN
  have ht : ∀ j : Cert.ReferenceIdeal.S128x256.Idx,
      transpose Cert.ReferenceIdeal.S128x256 [1, 0] A8 Cert.ReferenceIdeal.Gen.transposes_S256x128_S128x256_1_0 j = A8 (ix2 (j 1) (j 0)) :=
    fun j => transpose_apply [1, 0] A8 Cert.ReferenceIdeal.Gen.transposes_S256x128_S128x256_1_0 j (ix2 (j 1) (j 0)) (fun b => match b with
      | ⟨0, _⟩ => rfl
      | ⟨1, _⟩ => rfl)
  generalize transpose Cert.ReferenceIdeal.S128x256 [1, 0] A8 Cert.ReferenceIdeal.Gen.transposes_S256x128_S128x256_1_0 = y1 at ht
  simp only [Host.dotGeneral]
  rw [Ideal.dotGeneral_apply, ← Equiv.sum_comp (ValueIdx.contrEquiv1 Cert.ReferenceIdeal.dot_S50000x128_S128x256_S50000x256_1_0_0_1_n_n 128 rfl rfl).symm]
  refine Finset.sum_congr rfl fun k' _ => ?_
  have hk := ValueIdx.contrEquiv1_symm_val Cert.ReferenceIdeal.dot_S50000x128_S128x256_S50000x256_1_0_0_1_n_n 128 rfl rfl k'
  have el : Cert.ReferenceIdeal.dot_S50000x128_S128x256_S50000x256_1_0_0_1_n_n.lhsIdx (ix2 r k) ((ValueIdx.contrEquiv1 Cert.ReferenceIdeal.dot_S50000x128_S128x256_S50000x256_1_0_0_1_n_n 128 rfl rfl).symm k') = ix2 r k' := funext fun a => Fin.ext (by
    match a with
    | ⟨0, _⟩ => exact Cert.ReferenceIdeal.Read.lhs_main_v56_0 _ _
    | ⟨1, _⟩ => exact (Cert.ReferenceIdeal.Read.lhs_main_v56_1 _ _).trans hk)
  have er : Cert.ReferenceIdeal.dot_S50000x128_S128x256_S50000x256_1_0_0_1_n_n.rhsIdx (ix2 r k) ((ValueIdx.contrEquiv1 Cert.ReferenceIdeal.dot_S50000x128_S128x256_S50000x256_1_0_0_1_n_n 128 rfl rfl).symm k') = ix2 k' k := funext fun a => Fin.ext (by
    match a with
    | ⟨0, _⟩ => exact (Cert.ReferenceIdeal.Read.rhs_main_v56_0 _ _).trans hk
    | ⟨1, _⟩ => exact Cert.ReferenceIdeal.Read.rhs_main_v56_1 _ _)
  rw [el, er, ht]

/-- The reference's term at (r, q): over the 256 hidden units, the gated hidden value times row q of the second weight. -/
theorem refFfnN_apply (H : S50000x128.Idx → EReal) (A8 : S256x128.Idx → EReal) (A9 : S128x256.Idx → EReal) (r : Fin 50000) (q : Fin 128) :
    refFfnN H A8 A9 (ix2 r q) = ∑ k : Fin 256, gateN (∑ k' : Fin 128, H (ix2 r k') * A8 (ix2 k k')) * A9 (ix2 q k) := by
  unfold refFfnN
  have hg : ∀ (k : Fin 256), refGateN (refHidN H A8) (ix2 r k) = gateN (∑ k' : Fin 128, H (ix2 r k') * A8 (ix2 k k')) :=
    fun k => (refGateN_apply _ _).trans (congrArg gateN (refHidN_apply H A8 r k))
  generalize refGateN (refHidN H A8) = y0 at hg
  have ht : ∀ j : Cert.ReferenceIdeal.S256x128.Idx,
      transpose Cert.ReferenceIdeal.S256x128 [1, 0] A9 Cert.ReferenceIdeal.Gen.transposes_S128x256_S256x128_1_0 j = A9 (ix2 (j 1) (j 0)) :=
    fun j => transpose_apply [1, 0] A9 Cert.ReferenceIdeal.Gen.transposes_S128x256_S256x128_1_0 j (ix2 (j 1) (j 0)) (fun b => match b with
      | ⟨0, _⟩ => rfl
      | ⟨1, _⟩ => rfl)
  generalize transpose Cert.ReferenceIdeal.S256x128 [1, 0] A9 Cert.ReferenceIdeal.Gen.transposes_S128x256_S256x128_1_0 = y1 at ht
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 r q) ((ValueIdx.contrEquiv1 Cert.ReferenceIdeal.dot_S50000x256_S256x128_S50000x128_1_0_0_1_n_n 256 rfl rfl).symm k) = ix2 r k := funext fun a => Fin.ext (by
    match a with
    | ⟨0, _⟩ => exact Cert.ReferenceIdeal.Read.lhs_main_v59_0 _ _
    | ⟨1, _⟩ => exact (Cert.ReferenceIdeal.Read.lhs_main_v59_1 _ _).trans hk)
  have er : Cert.ReferenceIdeal.dot_S50000x256_S256x128_S50000x128_1_0_0_1_n_n.rhsIdx (ix2 r q) ((ValueIdx.contrEquiv1 Cert.ReferenceIdeal.dot_S50000x256_S256x128_S50000x128_1_0_0_1_n_n 256 rfl rfl).symm k) = ix2 k q := funext fun a => Fin.ext (by
    match a with
    | ⟨0, _⟩ => exact (Cert.ReferenceIdeal.Read.rhs_main_v59_0 _ _).trans hk
    | ⟨1, _⟩ => exact Cert.ReferenceIdeal.Read.rhs_main_v59_1 _ _)
  rw [el, er, ht, hg]

/-! ## The kernel's payload at an index -/

theorem lhs_hid3_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_hid3_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_hid3_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_hid3_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The block's first product into the zero accumulator, at (p, k): the sum over the 128 features. -/
theorem hid3_apply (a : FVec Ideal S5000x128 .bf16) (b : FVec Ideal S128x256 .bf16) (p : Fin 5000) (k : Fin 256) :
    matmul dot_S5000x128_S128x256_S5000x256_1_0_0_1_n_n none a b (constant S5000x256 .f32 0x00000000#32) (ix2 p k)
      = ∑ k' : Fin 128, a (ix2 p k') * b (ix2 k' k) := by
  simp only [matmul]
  rw [Ideal.matmul_constant_zero_apply, ← Equiv.sum_comp (ValueIdx.contrEquiv1 dot_S5000x128_S128x256_S5000x256_1_0_0_1_n_n 128 rfl rfl).symm]
  refine Finset.sum_congr rfl fun k' _ => ?_
  have hk := ValueIdx.contrEquiv1_symm_val dot_S5000x128_S128x256_S5000x256_1_0_0_1_n_n 128 rfl rfl k'
  have el : dot_S5000x128_S128x256_S5000x256_1_0_0_1_n_n.lhsIdx (ix2 p k) ((ValueIdx.contrEquiv1 dot_S5000x128_S128x256_S5000x256_1_0_0_1_n_n 128 rfl rfl).symm k') = ix2 p k' := funext fun a => Fin.ext (by
    match a with
    | ⟨0, _⟩ => exact lhs_hid3_0 _ _
    | ⟨1, _⟩ => exact (lhs_hid3_1 _ _).trans hk)
  have er : dot_S5000x128_S128x256_S5000x256_1_0_0_1_n_n.rhsIdx (ix2 p k) ((ValueIdx.contrEquiv1 dot_S5000x128_S128x256_S5000x256_1_0_0_1_n_n 128 rfl rfl).symm k') = ix2 k' k := funext fun a => Fin.ext (by
    match a with
    | ⟨0, _⟩ => exact (rhs_hid3_0 _ _).trans hk
    | ⟨1, _⟩ => exact rhs_hid3_1 _ _)
  rw [el, er]

theorem lhs_out3_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_out3_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_out3_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_out3_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The block's second product into the zero accumulator, at (p, q): the sum over the 256 hidden units. -/
theorem out3_apply (a : FVec Ideal S5000x256 .bf16) (b : FVec Ideal S256x128 .bf16) (p : Fin 5000) (q : Fin 128) :
    matmul dot_S5000x256_S256x128_S5000x128_1_0_0_1_n_n none a b (constant S5000x128 .f32 0x00000000#32) (ix2 p q)
      = ∑ k : Fin 256, a (ix2 p k) * b (ix2 k q) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs_out3_0 _ _
    | ⟨1, _⟩ => exact (lhs_out3_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs_out3_0 _ _).trans hk
    | ⟨1, _⟩ => exact rhs_out3_1 _ _)
  rw [el, er]

/-- The body's payload at (p, q) of its block: the narrowing casts are the identity on the extended reals and the
    kernel's logistic is 1 / (1 + exp (-x)), so it is the gated two-layer sum of the three loaded blocks. -/
theorem ffnN_pay_apply (x0 : Vec Ideal S5000x128 .f32) (x1 : Vec Ideal S128x256 .f32) (x2 : Vec Ideal S256x128 .f32) (p : Fin 5000) (q : Fin 128) :
    k3_pay1 x0 x1 x2 (ix2 p q) = ∑ k : Fin 256, gateN (∑ k' : Fin 128, x0 (ix2 p k') * x1 (ix2 k' k)) * x2 (ix2 k q) := by
  unfold k3_pay1
  simp only [shapeCast_self]
  refine (out3_apply _ _ p q).trans (Finset.sum_congr rfl fun k _ => ?_)
  refine Eq.trans (b := gateN (matmul (F := Ideal) dot_S5000x128_S128x256_S5000x256_1_0_0_1_n_n none (truncf .bf16 x0 bitsLt_bf16_f32)
    (truncf .bf16 x1 bitsLt_bf16_f32) (constant S5000x256 .f32 0x00000000#32) (ix2 p k)) * x2 (ix2 k q)) rfl ?_
  rw [hid3_apply]
  rfl

/-! ## From the blocks to the array -/

theorem zero_offsets3 : (![0, 0] : Fin 2 → Nat) = fun _ => 0 := funext fun a => by fin_cases a <;> rfl

/-- The printed index maps over the 10 grid points: the row windows' block index is the point on axis 0, every other
    block index is 0. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Window 0's block at point t is rows 5000 t … 5000 t + 4999 of the node array. -/
theorem rows3_apply (c : Dev nD) (t : Fin cfg3.N) (p : Fin 5000) (k' : Fin 128) (r : Fin 50000) (hr : r.val = t.val * 5000 + p.val) :
    (iblk3 V c 0 t : Vec Ideal S5000x128 .f32) (ix2 p k') = (V c main_v28 : S50000x128.Idx → EReal) (ix2 r k') := by
  obtain ⟨e0, e1, -⟩ := index_facts3 t
  unfold iblk3
  rw [View.read_apply]
  show (V c main_v28 : S50000x128.Idx → EReal) _ = (V c main_v28 : S50000x128.Idx → EReal) _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 128 + 1 * k'.val = k'.val; rw [e1]; omega

/-- Window 1's block at every point is the whole first weight as the region finds it. -/
theorem w1N_apply (c : Dev nD) (t : Fin cfg3.N) (k' : Fin 128) (k : Fin 256) :
    (iblk3 V c 1 t : Vec Ideal S128x256 .f32) (ix2 k' k) = (V c main_v29 : S128x256.Idx → EReal) (ix2 k' k) := by
  obtain ⟨-, -, e0, e1, -⟩ := index_facts3 t
  unfold iblk3
  rw [View.read_apply]
  show (V c main_v29 : S128x256.Idx → EReal) _ = (V c main_v29 : S128x256.Idx → EReal) _
  congr 1
  funext a
  apply Fin.ext
  match a with
  | ⟨0, _⟩ => show win3_1.index t (0 : Fin 2) * 128 + 1 * k'.val = k'.val; rw [e0]; omega
  | ⟨1, _⟩ => show win3_1.index t (1 : Fin 2) * 256 + 1 * k.val = k.val; rw [e1]; omega

/-- Window 2's block at every point is the whole second weight as the region finds it. -/
theorem w2N_apply (c : Dev nD) (t : Fin cfg3.N) (k : Fin 256) (q : Fin 128) :
    (iblk3 V c 2 t : Vec Ideal S256x128 .f32) (ix2 k q) = (V c main_v30 : S256x128.Idx → EReal) (ix2 k q) := by
  obtain ⟨-, -, -, -, e0, e1, -⟩ := index_facts3 t
  unfold iblk3
  rw [View.read_apply]
  show (V c main_v30 : S256x128.Idx → EReal) _ = (V c main_v30 : S256x128.Idx → EReal) _
  congr 1
  funext a
  apply Fin.ext
  match a with
  | ⟨0, _⟩ => show win3_2.index t (0 : Fin 2) * 256 + 1 * k.val = k.val; rw [e0]; omega
  | ⟨1, _⟩ => show win3_2.index t (1 : Fin 2) * 128 + 1 * q.val = q.val; rw [e1]; omega

/-- The transposed first weight at (k', k) is the weight at (k, k'). -/
theorem tr8_apply (A8 : S256x128.Idx → EReal) (k' : Fin 128) (k : Fin 256) :
    transpose S128x256 [1, 0] A8 transposes_S256x128_S128x256_1_0 (ix2 k' k) = A8 (ix2 k k') :=
  transpose_apply [1, 0] A8 transposes_S256x128_S128x256_1_0 (ix2 k' k) (ix2 k k') (fun b => match b with
    | ⟨0, _⟩ => rfl
    | ⟨1, _⟩ => rfl)

/-- The transposed second weight at (k, q) is the weight at (q, k). -/
theorem tr9_apply (A9 : S128x256.Idx → EReal) (k : Fin 256) (q : Fin 128) :
    transpose S256x128 [1, 0] A9 transposes_S128x256_S256x128_1_0 (ix2 k q) = A9 (ix2 q k) :=
  transpose_apply [1, 0] A9 transposes_S128x256_S256x128_1_0 (ix2 k q) (ix2 q k) (fun b => match b with
    | ⟨0, _⟩ => rfl
    | ⟨1, _⟩ => rfl)

/-- What point t writes back is block t of the reference's term of the entry arrays. -/
theorem flushed3_eq (c : Dev nD) (H : S50000x128.Idx → EReal) (A8 : S256x128.Idx → EReal) (A9 : S128x256.Idx → EReal)
    (h0 : V c main_v28 = H) (h1 : V c main_v29 = transpose S128x256 [1, 0] A8 transposes_S256x128_S128x256_1_0)
    (h2 : V c main_v30 = transpose S256x128 [1, 0] A9 transposes_S128x256_S256x128_1_0) (t : Fin cfg3.N) :
    (dat3 V c).flushed 3 t = ((cfg3.win 3).blk t).view.read (Elt Ideal) (refFfnN H A8 A9) := by
  show (cfg3.win 3).cut (grid3.coords t) ((dat3 V c).after 3 t) = _
  rw [after3_3]
  unfold out3_3
  rw [View.canon_unit_zero zero_offsets3]
  simp only [View.ld_unit_zero (S := S5000x128) zero_offsets3, View.ld_unit_zero (S := S128x256) zero_offsets3,
    View.ld_unit_zero (S := S256x128) zero_offsets3]
  obtain ⟨-, -, -, -, -, -, e0, e1⟩ := index_facts3 t
  have hN : cfg3.N = 10 := N_3
  funext j
  obtain ⟨p, q, rfl⟩ : ∃ (p : Fin 5000) (q : Fin 128), j = ix2 p q := ⟨j 0, j 1, eq_ix2 j⟩
  have hr : t.val * 5000 + p.val < 50000 := by have := t.isLt; have := p.isLt; omega
  have hemb : ((cfg3.win 3).blk t).view.emb (ix2 p q) = (ix2 (⟨t.val * 5000 + p.val, hr⟩ : Fin 50000) q : S50000x128.Idx) := by
    funext a
    apply Fin.ext
    match a with
    | ⟨0, _⟩ => show win3_3.index t (0 : Fin 2) * 5000 + 1 * p.val = t.val * 5000 + p.val; rw [e0]; omega
    | ⟨1, _⟩ => show win3_3.index t (1 : Fin 2) * 128 + 1 * q.val = q.val; rw [e1]; omega
  refine (ffnN_pay_apply (iblk3 V c 0 t) (iblk3 V c 1 t) (iblk3 V c 2 t) p q).trans ?_
  rw [View.read_apply]
  show _ = refFfnN H A8 A9 (((cfg3.win 3).blk t).view.emb (ix2 p q))
  rw [hemb, refFfnN_apply]
  refine Finset.sum_congr rfl fun k _ => ?_
  rw [w2N_apply V c t k q, h2, tr9_apply]
  refine congrArg (fun z => gateN z * A9 (ix2 q k)) (Finset.sum_congr rfl fun k' _ => ?_)
  rw [rows3_apply V c t p k' ⟨t.val * 5000 + p.val, hr⟩ rfl, h0, w1N_apply V c t k' k, h1, tr8_apply]

/-- An index of the array is in point t's block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v31).slice (win3_3.rect t)).set ↔ _
  rw [View.set_slice_whole, Rect.mem_set_unit]
  exact Iff.rfl

/-- Every row of the result is in the block of the point its row block names. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, e0, e1⟩ := index_facts3 t
  have ht : t.val = (i 0).val / 5000 := rfl
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; rw [e0, ht]; omega
  | ⟨1, _⟩ => show win3_3.index t (1 : Fin 2) * 128 ≤ (i 1).val ∧ (i 1).val < win3_3.index t (1 : Fin 2) * 128 + 128; rw [e1]; omega

/-- The region's output array is the reference's feed-forward term of the entry arrays. -/
theorem region3_out (c : Dev nD) (H : S50000x128.Idx → EReal) (A8 : S256x128.Idx → EReal) (A9 : S128x256.Idx → EReal)
    (h0 : V c main_v28 = H) (h1 : V c main_v29 = transpose S128x256 [1, 0] A8 transposes_S256x128_S128x256_1_0)
    (h2 : V c main_v30 = transpose S256x128 [1, 0] A9 transposes_S128x256_S256x128_1_0) :
    (dat3 V c).arrAt 3 cfg3.N = refFfnN H A8 A9 :=
  (dat3 V c).arrAt_eq_of_cover 3 (refFfnN H A8 A9) (fun t _ => flushed3_eq V c H A8 A9 h0 h1 h2 t) cover3

end Cert.KernelIdeal.Val

end
-- ==== Proof.KiV4.lean ====
/-
  Region 4 at the ideal instance: the edge feed-forward network, the same two-layer term over the 600000 x 128 edge
  scores; 120 grid points of 5000 rows tile the result.
-/
import proofs.«411279_j64037962384024_2_alg».proof.Proof.KiR4
import proofs.«411279_j64037962384024_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

/-! ## The reference's term -/

/-- The reference's hidden layer over the edge array: X times the transposed first weight, 600000 x 256. -/
def refHidE (X : S600000x128.Idx → EReal) (A10 : S256x128.Idx → EReal) : Cert.ReferenceIdeal.S600000x256.Idx → EReal :=
  Host.dotGeneral (F := Ideal) (φ₁ := .f32) (φ₂ := .f32) Cert.ReferenceIdeal.dot_S600000x128_S128x256_S600000x256_1_0_0_1_n_n none X
    (transpose Cert.ReferenceIdeal.S128x256 [1, 0] A10 Cert.ReferenceIdeal.Gen.transposes_S256x128_S128x256_1_0)

/-- The reference's gate on a 600000 x 256 array: d * (1 / (1 + exp (-d))), with its two broadcast ones. -/
def refGateE (d : Cert.ReferenceIdeal.S600000x256.Idx → EReal) : Cert.ReferenceIdeal.S600000x256.Idx → EReal :=
  mulf (F := Ideal) (φ := .f32) d
    (Host.divf (F := Ideal) (φ := .f32)
      (broadcastInDim Cert.ReferenceIdeal.S600000x256 ![] Cert.ReferenceIdeal.Gen.bcast_S_S600000x256
        (constant (F := Ideal) Cert.ReferenceIdeal.S_ .f32 0x3F800000#32))
      (addf (F := Ideal) (φ := .f32)
        (broadcastInDim Cert.ReferenceIdeal.S600000x256 ![] Cert.ReferenceIdeal.Gen.bcast_S_S600000x256
          (constant (F := Ideal) Cert.ReferenceIdeal.S_ .f32 0x3F800000#32))
        (Host.exp (F := Ideal) (φ := .f32) (Host.negf (F := Ideal) (φ := .f32) d))))

/-- The reference's feed-forward term over an arbitrary edge array X and the two weights (as its stages compose it). -/
def refFfnE (X : S600000x128.Idx → EReal) (A10 : S256x128.Idx → EReal) (A11 : S128x256.Idx → EReal) : S600000x128.Idx → EReal :=
  Host.dotGeneral (F := Ideal) (φ₁ := .f32) (φ₂ := .f32) Cert.ReferenceIdeal.dot_S600000x256_S256x128_S600000x128_1_0_0_1_n_n none
    (refGateE (refHidE X A10))
    (transpose Cert.ReferenceIdeal.S256x128 [1, 0] A11 Cert.ReferenceIdeal.Gen.transposes_S128x256_S256x128_1_0)

/-- The reference's second result is that term of its own flattened score stage. -/
theorem refFfnE_eq (x0 : S50000x128.Idx → EReal) (x1 : S600000x128.Idx → EReal) (x2 x3 : S600000.Idx → BitVec 32)
    (x4 x5 x7 : S128x128.Idx → EReal) (x10 : S256x128.Idx → EReal) (x11 : S128x256.Idx → EReal) :
    Cert.ReferenceIdeal.Read.val_main_v65 (F := Ideal) x0 x1 x2 x3 x4 x5 x7 x10 x11
      = refFfnE (Cert.ReferenceIdeal.Read.val_main_v60 (F := Ideal) x0 x1 x2 x3 x4 x5 x7) x10 x11 := by
  generalize hX : Cert.ReferenceIdeal.Read.val_main_v60 (F := Ideal) x0 x1 x2 x3 x4 x5 x7 = Xd
  unfold Cert.ReferenceIdeal.Read.val_main_v65 Cert.ReferenceIdeal.Read.val_main_v64 Cert.ReferenceIdeal.Read.val_main_v63
    Cert.ReferenceIdeal.Read.val_main_call3_v5 Cert.ReferenceIdeal.Read.val_main_call3_v4 Cert.ReferenceIdeal.Read.val_main_call3_cst_0
    Cert.ReferenceIdeal.Read.val_main_call3_v3 Cert.ReferenceIdeal.Read.val_main_call3_v2 Cert.ReferenceIdeal.Read.val_main_call3_cst
    Cert.ReferenceIdeal.Read.val_main_call3_v1 Cert.ReferenceIdeal.Read.val_main_call3_v0 Cert.ReferenceIdeal.Read.val_main_v62
    Cert.ReferenceIdeal.Read.val_main_v61
  rw [hX]
  unfold refFfnE refGateE refHidE
  rfl

/-! ## The gate, and the reference's term at an index -/

/-- One hidden unit's gate on the extended reals: x * (1 / (1 + exp (-x))). -/
def gateE (x : EReal) : EReal := x * Ideal.div 1 (1 + Ideal.exp (-x))

/-- The reference's gate array at an index is the gate of the operand there: its two ones are the word of 1. -/
theorem refGateE_apply (d : Cert.ReferenceIdeal.S600000x256.Idx → EReal) (i : Cert.ReferenceIdeal.S600000x256.Idx) :
    refGateE d i = gateE (d i) := by
  unfold refGateE gateE
  show d i * Ideal.div (Ideal.ofBits .f32 0x3F800000#32) (Ideal.ofBits .f32 0x3F800000#32 + Ideal.exp (-(d i))) = _
  rw [Ideal.ofBits_one_f32]

/-- The reference's hidden layer at (r, k): the sum over the 128 features of X (r, ·) times row k of the first weight. -/
theorem refHidE_apply (X : S600000x128.Idx → EReal) (A10 : S256x128.Idx → EReal) (r : Fin 600000) (k : Fin 256) :
    refHidE X A10 (ix2 r k) = ∑ k' : Fin 128, X (ix2 r k') * A10 (ix2 k k') := by
  unfold refHidE
  have ht : ∀ j : Cert.ReferenceIdeal.S128x256.Idx,
      transpose Cert.ReferenceIdeal.S128x256 [1, 0] A10 Cert.ReferenceIdeal.Gen.transposes_S256x128_S128x256_1_0 j = A10 (ix2 (j 1) (j 0)) :=
    fun j => transpose_apply [1, 0] A10 Cert.ReferenceIdeal.Gen.transposes_S256x128_S128x256_1_0 j (ix2 (j 1) (j 0)) (fun b => match b with
      | ⟨0, _⟩ => rfl
      | ⟨1, _⟩ => rfl)
  generalize transpose Cert.ReferenceIdeal.S128x256 [1, 0] A10 Cert.ReferenceIdeal.Gen.transposes_S256x128_S128x256_1_0 = y1 at ht
  simp only [Host.dotGeneral]
  rw [Ideal.dotGeneral_apply, ← Equiv.sum_comp (ValueIdx.contrEquiv1 Cert.ReferenceIdeal.dot_S600000x128_S128x256_S600000x256_1_0_0_1_n_n 128 rfl rfl).symm]
  refine Finset.sum_congr rfl fun k' _ => ?_
  have hk := ValueIdx.contrEquiv1_symm_val Cert.ReferenceIdeal.dot_S600000x128_S128x256_S600000x256_1_0_0_1_n_n 128 rfl rfl k'
  have el : Cert.ReferenceIdeal.dot_S600000x128_S128x256_S600000x256_1_0_0_1_n_n.lhsIdx (ix2 r k) ((ValueIdx.contrEquiv1 Cert.ReferenceIdeal.dot_S600000x128_S128x256_S600000x256_1_0_0_1_n_n 128 rfl rfl).symm k') = ix2 r k' := funext fun a => Fin.ext (by
    match a with
    | ⟨0, _⟩ => exact Cert.ReferenceIdeal.Read.lhs_main_v62_0 _ _
    | ⟨1, _⟩ => exact (Cert.ReferenceIdeal.Read.lhs_main_v62_1 _ _).trans hk)
  have er : Cert.ReferenceIdeal.dot_S600000x128_S128x256_S600000x256_1_0_0_1_n_n.rhsIdx (ix2 r k) ((ValueIdx.contrEquiv1 Cert.ReferenceIdeal.dot_S600000x128_S128x256_S600000x256_1_0_0_1_n_n 128 rfl rfl).symm k') = ix2 k' k := funext fun a => Fin.ext (by
    match a with
    | ⟨0, _⟩ => exact (Cert.ReferenceIdeal.Read.rhs_main_v62_0 _ _).trans hk
    | ⟨1, _⟩ => exact Cert.ReferenceIdeal.Read.rhs_main_v62_1 _ _)
  rw [el, er, ht]

/-- The reference's term at (r, q): over the 256 hidden units, the gated hidden value times row q of the second weight. -/
theorem refFfnE_apply (X : S600000x128.Idx → EReal) (A10 : S256x128.Idx → EReal) (A11 : S128x256.Idx → EReal) (r : Fin 600000) (q : Fin 128) :
    refFfnE X A10 A11 (ix2 r q) = ∑ k : Fin 256, gateE (∑ k' : Fin 128, X (ix2 r k') * A10 (ix2 k k')) * A11 (ix2 q k) := by
  unfold refFfnE
  have hg : ∀ (k : Fin 256), refGateE (refHidE X A10) (ix2 r k) = gateE (∑ k' : Fin 128, X (ix2 r k') * A10 (ix2 k k')) :=
    fun k => (refGateE_apply _ _).trans (congrArg gateE (refHidE_apply X A10 r k))
  generalize refGateE (refHidE X A10) = y0 at hg
  have ht : ∀ j : Cert.ReferenceIdeal.S256x128.Idx,
      transpose Cert.ReferenceIdeal.S256x128 [1, 0] A11 Cert.ReferenceIdeal.Gen.transposes_S128x256_S256x128_1_0 j = A11 (ix2 (j 1) (j 0)) :=
    fun j => transpose_apply [1, 0] A11 Cert.ReferenceIdeal.Gen.transposes_S128x256_S256x128_1_0 j (ix2 (j 1) (j 0)) (fun b => match b with
      | ⟨0, _⟩ => rfl
      | ⟨1, _⟩ => rfl)
  generalize transpose Cert.ReferenceIdeal.S256x128 [1, 0] A11 Cert.ReferenceIdeal.Gen.transposes_S128x256_S256x128_1_0 = y1 at ht
  simp only [Host.dotGeneral]
  rw [Ideal.dotGeneral_apply, ← Equiv.sum_comp (ValueIdx.contrEquiv1 Cert.ReferenceIdeal.dot_S600000x256_S256x128_S600000x128_1_0_0_1_n_n 256 rfl rfl).symm]
  refine Finset.sum_congr rfl fun k _ => ?_
  have hk := ValueIdx.contrEquiv1_symm_val Cert.ReferenceIdeal.dot_S600000x256_S256x128_S600000x128_1_0_0_1_n_n 256 rfl rfl k
  have el : Cert.ReferenceIdeal.dot_S600000x256_S256x128_S600000x128_1_0_0_1_n_n.lhsIdx (ix2 r q) ((ValueIdx.contrEquiv1 Cert.ReferenceIdeal.dot_S600000x256_S256x128_S600000x128_1_0_0_1_n_n 256 rfl rfl).symm k) = ix2 r k := funext fun a => Fin.ext (by
    match a with
    | ⟨0, _⟩ => exact Cert.ReferenceIdeal.Read.lhs_main_v65_0 _ _
    | ⟨1, _⟩ => exact (Cert.ReferenceIdeal.Read.lhs_main_v65_1 _ _).trans hk)
  have er : Cert.ReferenceIdeal.dot_S600000x256_S256x128_S600000x128_1_0_0_1_n_n.rhsIdx (ix2 r q) ((ValueIdx.contrEquiv1 Cert.ReferenceIdeal.dot_S600000x256_S256x128_S600000x128_1_0_0_1_n_n 256 rfl rfl).symm k) = ix2 k q := funext fun a => Fin.ext (by
    match a with
    | ⟨0, _⟩ => exact (Cert.ReferenceIdeal.Read.rhs_main_v65_0 _ _).trans hk
    | ⟨1, _⟩ => exact Cert.ReferenceIdeal.Read.rhs_main_v65_1 _ _)
  rw [el, er, ht, hg]

/-! ## The kernel's payload at an index -/

theorem lhs_hid4_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_hid4_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_hid4_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_hid4_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The block's first product into the zero accumulator, at (p, k): the sum over the 128 features. -/
theorem hid4_apply (a : FVec Ideal S5000x128 .bf16) (b : FVec Ideal S128x256 .bf16) (p : Fin 5000) (k : Fin 256) :
    matmul dot_S5000x128_S128x256_S5000x256_1_0_0_1_n_n none a b (constant S5000x256 .f32 0x00000000#32) (ix2 p k)
      = ∑ k' : Fin 128, a (ix2 p k') * b (ix2 k' k) := by
  simp only [matmul]
  rw [Ideal.matmul_constant_zero_apply, ← Equiv.sum_comp (ValueIdx.contrEquiv1 dot_S5000x128_S128x256_S5000x256_1_0_0_1_n_n 128 rfl rfl).symm]
  refine Finset.sum_congr rfl fun k' _ => ?_
  have hk := ValueIdx.contrEquiv1_symm_val dot_S5000x128_S128x256_S5000x256_1_0_0_1_n_n 128 rfl rfl k'
  have el : dot_S5000x128_S128x256_S5000x256_1_0_0_1_n_n.lhsIdx (ix2 p k) ((ValueIdx.contrEquiv1 dot_S5000x128_S128x256_S5000x256_1_0_0_1_n_n 128 rfl rfl).symm k') = ix2 p k' := funext fun a => Fin.ext (by
    match a with
    | ⟨0, _⟩ => exact lhs_hid4_0 _ _
    | ⟨1, _⟩ => exact (lhs_hid4_1 _ _).trans hk)
  have er : dot_S5000x128_S128x256_S5000x256_1_0_0_1_n_n.rhsIdx (ix2 p k) ((ValueIdx.contrEquiv1 dot_S5000x128_S128x256_S5000x256_1_0_0_1_n_n 128 rfl rfl).symm k') = ix2 k' k := funext fun a => Fin.ext (by
    match a with
    | ⟨0, _⟩ => exact (rhs_hid4_0 _ _).trans hk
    | ⟨1, _⟩ => exact rhs_hid4_1 _ _)
  rw [el, er]

theorem lhs_out4_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_out4_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_out4_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_out4_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The block's second product into the zero accumulator, at (p, q): the sum over the 256 hidden units. -/
theorem out4_apply (a : FVec Ideal S5000x256 .bf16) (b : FVec Ideal S256x128 .bf16) (p : Fin 5000) (q : Fin 128) :
    matmul dot_S5000x256_S256x128_S5000x128_1_0_0_1_n_n none a b (constant S5000x128 .f32 0x00000000#32) (ix2 p q)
      = ∑ k : Fin 256, a (ix2 p k) * b (ix2 k q) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs_out4_0 _ _
    | ⟨1, _⟩ => exact (lhs_out4_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs_out4_0 _ _).trans hk
    | ⟨1, _⟩ => exact rhs_out4_1 _ _)
  rw [el, er]

/-- The body's payload at (p, q) of its block: the narrowing casts are the identity on the extended reals and the
    kernel's logistic is 1 / (1 + exp (-x)), so it is the gated two-layer sum of the three loaded blocks. -/
theorem pay4_apply (x0 : Vec Ideal S5000x128 .f32) (x1 : Vec Ideal S128x256 .f32) (x2 : Vec Ideal S256x128 .f32) (p : Fin 5000) (q : Fin 128) :
    k4_pay1 x0 x1 x2 (ix2 p q) = ∑ k : Fin 256, gateE (∑ k' : Fin 128, x0 (ix2 p k') * x1 (ix2 k' k)) * x2 (ix2 k q) := by
  unfold k4_pay1
  simp only [shapeCast_self]
  refine (out4_apply _ _ p q).trans (Finset.sum_congr rfl fun k _ => ?_)
  refine Eq.trans (b := gateE (matmul (F := Ideal) dot_S5000x128_S128x256_S5000x256_1_0_0_1_n_n none (truncf .bf16 x0 bitsLt_bf16_f32)
    (truncf .bf16 x1 bitsLt_bf16_f32) (constant S5000x256 .f32 0x00000000#32) (ix2 p k)) * x2 (ix2 k q)) rfl ?_
  rw [hid4_apply]
  rfl

/-! ## From the blocks to the array -/

theorem zero_offsets4 : (![0, 0] : Fin 2 → Nat) = fun _ => 0 := funext fun a => by fin_cases a <;> rfl

/-- The printed index maps over the 120 grid points: the row windows' block index is the point on axis 0, every other
    block index is 0. -/
theorem index_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Window 0's block at point t is rows 5000 t … 5000 t + 4999 of the edge array. -/
theorem rows4_apply (c : Dev nD) (t : Fin cfg4.N) (p : Fin 5000) (k' : Fin 128) (r : Fin 600000) (hr : r.val = t.val * 5000 + p.val) :
    (iblk4 V c 0 t : Vec Ideal S5000x128 .f32) (ix2 p k') = (V c main_v34 : S600000x128.Idx → EReal) (ix2 r k') := by
  obtain ⟨e0, e1, -⟩ := index_facts4 t
  unfold iblk4
  rw [View.read_apply]
  show (V c main_v34 : S600000x128.Idx → EReal) _ = (V c main_v34 : S600000x128.Idx → EReal) _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 128 + 1 * k'.val = k'.val; rw [e1]; omega

/-- Window 1's block at every point is the whole first weight as the region finds it. -/
theorem w1E_apply (c : Dev nD) (t : Fin cfg4.N) (k' : Fin 128) (k : Fin 256) :
    (iblk4 V c 1 t : Vec Ideal S128x256 .f32) (ix2 k' k) = (V c main_v32 : S128x256.Idx → EReal) (ix2 k' k) := by
  obtain ⟨-, -, e0, e1, -⟩ := index_facts4 t
  unfold iblk4
  rw [View.read_apply]
  show (V c main_v32 : S128x256.Idx → EReal) _ = (V c main_v32 : S128x256.Idx → EReal) _
  congr 1
  funext a
  apply Fin.ext
  match a with
  | ⟨0, _⟩ => show win4_1.index t (0 : Fin 2) * 128 + 1 * k'.val = k'.val; rw [e0]; omega
  | ⟨1, _⟩ => show win4_1.index t (1 : Fin 2) * 256 + 1 * k.val = k.val; rw [e1]; omega

/-- Window 2's block at every point is the whole second weight as the region finds it. -/
theorem w2E_apply (c : Dev nD) (t : Fin cfg4.N) (k : Fin 256) (q : Fin 128) :
    (iblk4 V c 2 t : Vec Ideal S256x128 .f32) (ix2 k q) = (V c main_v33 : S256x128.Idx → EReal) (ix2 k q) := by
  obtain ⟨-, -, -, -, e0, e1, -⟩ := index_facts4 t
  unfold iblk4
  rw [View.read_apply]
  show (V c main_v33 : S256x128.Idx → EReal) _ = (V c main_v33 : S256x128.Idx → EReal) _
  congr 1
  funext a
  apply Fin.ext
  match a with
  | ⟨0, _⟩ => show win4_2.index t (0 : Fin 2) * 256 + 1 * k.val = k.val; rw [e0]; omega
  | ⟨1, _⟩ => show win4_2.index t (1 : Fin 2) * 128 + 1 * q.val = q.val; rw [e1]; omega

/-- The transposed first weight at (k', k) is the weight at (k, k'). -/
theorem tr10_apply (A10 : S256x128.Idx → EReal) (k' : Fin 128) (k : Fin 256) :
    transpose S128x256 [1, 0] A10 transposes_S256x128_S128x256_1_0 (ix2 k' k) = A10 (ix2 k k') :=
  transpose_apply [1, 0] A10 transposes_S256x128_S128x256_1_0 (ix2 k' k) (ix2 k k') (fun b => match b with
    | ⟨0, _⟩ => rfl
    | ⟨1, _⟩ => rfl)

/-- The transposed second weight at (k, q) is the weight at (q, k). -/
theorem tr11_apply (A11 : S128x256.Idx → EReal) (k : Fin 256) (q : Fin 128) :
    transpose S256x128 [1, 0] A11 transposes_S128x256_S256x128_1_0 (ix2 k q) = A11 (ix2 q k) :=
  transpose_apply [1, 0] A11 transposes_S128x256_S256x128_1_0 (ix2 k q) (ix2 q k) (fun b => match b with
    | ⟨0, _⟩ => rfl
    | ⟨1, _⟩ => rfl)

/-- What point t writes back is block t of the reference's term of the entry arrays. -/
theorem flushed4_eq (c : Dev nD) (X : S600000x128.Idx → EReal) (A10 : S256x128.Idx → EReal) (A11 : S128x256.Idx → EReal)
    (h0 : V c main_v34 = X) (h1 : V c main_v32 = transpose S128x256 [1, 0] A10 transposes_S256x128_S128x256_1_0)
    (h2 : V c main_v33 = transpose S256x128 [1, 0] A11 transposes_S128x256_S256x128_1_0) (t : Fin cfg4.N) :
    (dat4 V c).flushed 3 t = ((cfg4.win 3).blk t).view.read (Elt Ideal) (refFfnE X A10 A11) := by
  show (cfg4.win 3).cut (grid4.coords t) ((dat4 V c).after 3 t) = _
  rw [after4_3]
  unfold out4_3
  rw [View.canon_unit_zero zero_offsets4]
  simp only [View.ld_unit_zero (S := S5000x128) zero_offsets4, View.ld_unit_zero (S := S128x256) zero_offsets4,
    View.ld_unit_zero (S := S256x128) zero_offsets4]
  obtain ⟨-, -, -, -, -, -, e0, e1⟩ := index_facts4 t
  have hN : cfg4.N = 120 := N_4
  funext j
  obtain ⟨p, q, rfl⟩ : ∃ (p : Fin 5000) (q : Fin 128), j = ix2 p q := ⟨j 0, j 1, eq_ix2 j⟩
  have hr : t.val * 5000 + p.val < 600000 := by have := t.isLt; have := p.isLt; omega
  have hemb : ((cfg4.win 3).blk t).view.emb (ix2 p q) = (ix2 (⟨t.val * 5000 + p.val, hr⟩ : Fin 600000) q : S600000x128.Idx) := by
    funext a
    apply Fin.ext
    match a with
    | ⟨0, _⟩ => show win4_3.index t (0 : Fin 2) * 5000 + 1 * p.val = t.val * 5000 + p.val; rw [e0]; omega
    | ⟨1, _⟩ => show win4_3.index t (1 : Fin 2) * 128 + 1 * q.val = q.val; rw [e1]; omega
  refine (pay4_apply (iblk4 V c 0 t) (iblk4 V c 1 t) (iblk4 V c 2 t) p q).trans ?_
  rw [View.read_apply]
  show _ = refFfnE X A10 A11 (((cfg4.win 3).blk t).view.emb (ix2 p q))
  rw [hemb, refFfnE_apply]
  refine Finset.sum_congr rfl fun k _ => ?_
  rw [w2E_apply V c t k q, h2, tr11_apply]
  refine congrArg (fun z => gateE z * A11 (ix2 q k)) (Finset.sum_congr rfl fun k' _ => ?_)
  rw [rows4_apply V c t p k' ⟨t.val * 5000 + p.val, hr⟩ rfl, h0, w1E_apply V c t k' k, h1, tr10_apply]

/-- An index of the array is in point t's block iff each coordinate is in the block's range on its axis. -/
theorem mem_blk4 (t : Fin cfg4.N) (i : S600000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v35).slice (win4_3.rect t)).set ↔ _
  rw [View.set_slice_whole, Rect.mem_set_unit]
  exact Iff.rfl

/-- Every row of the result is in the block of the point its row block names. -/
theorem cover4 (i : S600000x128.Idx) : ∃ t : Fin cfg4.N, (cfg4.win 3).flush t = true ∧ i ∈ ((cfg4.win 3).blk t).view.set := by
  have hi0 : (i 0).val < 600000 := (i 0).isLt
  have hi1 : (i 1).val < 128 := (i 1).isLt
  have hN : cfg4.N = 120 := N_4
  let t : Fin cfg4.N := ⟨(i 0).val / 5000, by rw [hN]; omega⟩
  obtain ⟨-, -, -, -, -, -, e0, e1⟩ := index_facts4 t
  have ht : t.val = (i 0).val / 5000 := rfl
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; rw [e0, ht]; omega
  | ⟨1, _⟩ => show win4_3.index t (1 : Fin 2) * 128 ≤ (i 1).val ∧ (i 1).val < win4_3.index t (1 : Fin 2) * 128 + 128; rw [e1]; omega

/-- The region's output array is the reference's feed-forward term of the entry arrays. -/
theorem region4_out (c : Dev nD) (X : S600000x128.Idx → EReal) (A10 : S256x128.Idx → EReal) (A11 : S128x256.Idx → EReal)
    (h0 : V c main_v34 = X) (h1 : V c main_v32 = transpose S128x256 [1, 0] A10 transposes_S256x128_S128x256_1_0)
    (h2 : V c main_v33 = transpose S256x128 [1, 0] A11 transposes_S128x256_S256x128_1_0) :
    (dat4 V c).arrAt 3 cfg4.N = refFfnE X A10 A11 :=
  (dat4 V c).arrAt_eq_of_cover 3 (refFfnE X A10 A11) (fun t _ => flushed4_eq V c X A10 A11 h0 h1 h2 t) cover4

end Cert.KernelIdeal.Val

end
-- ==== Proof.KiAsm.lean ====
/-
  The idealized kernel program's two results as the reference's terms. Along the run the buffers hold, boundary by
  boundary: the three node projections and the edge projection (regions 0 and 1 and the slices and reshapes after them),
  the gathered rows (under the index range of the precondition jnp.take is the plain gather), the scores, the weights
  and the weighted values (region 2), the aggregated node features (the host's two scatter-adds and the quotient, the
  same operations in both programs), and the two feed-forward networks (regions 3 and 4). Each step rewrites the
  buffers read by the equalities already known and closes against the reference's stage of the same name.
-/
import proofs.«411279_j64037962384024_2_alg».proof.Proof.KiRun
import proofs.«411279_j64037962384024_2_alg».proof.Proof.KiHost
import proofs.«411279_j64037962384024_2_alg».proof.Proof.KiTake
import proofs.«411279_j64037962384024_2_alg».proof.Proof.KiV0
import proofs.«411279_j64037962384024_2_alg».proof.Proof.KiV1
import proofs.«411279_j64037962384024_2_alg».proof.Proof.KiV2
import proofs.«411279_j64037962384024_2_alg».proof.Proof.KiV3
import proofs.«411279_j64037962384024_2_alg».proof.Proof.KiV4

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

/-! ## The argument arrays, and that no item before a boundary has written them -/

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)
abbrev a11 := m ((c.tc : Thread nD τ).loc main_arg11)

/-- A buffer written by nothing so far holds its launch contents at every boundary. -/
theorem at1 (b : Ref sig .tc) (h0 : b ∉ hostOps0_W) : W1 m c (Proc.devRef .tc b) = m ((c.tc : Thread nD τ).loc b) :=
  (StableHlo.after_of_writes_sub hostOps0 _ hostOps0_writes h0).trans rfl
theorem at2 (b : Ref sig .tc) (h0 : b ∉ hostOps0_W) (hr0 : b ∉ ([main_v4] : List (Ref sig .tc))) :
    W2 m c (Proc.devRef .tc b) = m ((c.tc : Thread nD τ).loc b) := (W2_keep m c b hr0).trans (at1 m c b h0)
theorem at3 (b : Ref sig .tc) (h0 : b ∉ hostOps0_W) (hr0 : b ∉ ([main_v4] : List (Ref sig .tc))) (h1 : b ∉ hostOps1_W) :
    W3 m c (Proc.devRef .tc b) = m ((c.tc : Thread nD τ).loc b) :=
  (StableHlo.after_of_writes_sub hostOps1 _ hostOps1_writes h1).trans (at2 m c b h0 hr0)
theorem at4 (b : Ref sig .tc) (h0 : b ∉ hostOps0_W) (hr0 : b ∉ ([main_v4] : List (Ref sig .tc))) (h1 : b ∉ hostOps1_W)
    (hr1 : b ∉ ([main_v12] : List (Ref sig .tc))) : W4 m c (Proc.devRef .tc b) = m ((c.tc : Thread nD τ).loc b) :=
  (W4_keep m c b hr1).trans (at3 m c b h0 hr0 h1)
theorem at5 (b : Ref sig .tc) (h0 : b ∉ hostOps0_W) (hr0 : b ∉ ([main_v4] : List (Ref sig .tc))) (h1 : b ∉ hostOps1_W)
    (hr1 : b ∉ ([main_v12] : List (Ref sig .tc))) (h2 : b ∉ hostOps2_W) : W5 m c (Proc.devRef .tc b) = m ((c.tc : Thread nD τ).loc b) :=
  (StableHlo.after_of_writes_sub hostOps2 _ hostOps2_writes h2).trans (at4 m c b h0 hr0 h1 hr1)
theorem at6 (b : Ref sig .tc) (h0 : b ∉ hostOps0_W) (hr0 : b ∉ ([main_v4] : List (Ref sig .tc))) (h1 : b ∉ hostOps1_W)
    (hr1 : b ∉ ([main_v12] : List (Ref sig .tc))) (h2 : b ∉ hostOps2_W) (h21 : b ∉ hostOps2_1_W) :
    W6 m c (Proc.devRef .tc b) = m ((c.tc : Thread nD τ).loc b) :=
  (StableHlo.after_of_writes_sub hostOps2_1 _ hostOps2_1_writes h21).trans (at5 m c b h0 hr0 h1 hr1 h2)
theorem at7 (b : Ref sig .tc) (h0 : b ∉ hostOps0_W) (hr0 : b ∉ ([main_v4] : List (Ref sig .tc))) (h1 : b ∉ hostOps1_W)
    (hr1 : b ∉ ([main_v12] : List (Ref sig .tc))) (h2 : b ∉ hostOps2_W) (h21 : b ∉ hostOps2_1_W) (h22 : b ∉ hostOps2_2_W) :
    W7 m c (Proc.devRef .tc b) = m ((c.tc : Thread nD τ).loc b) :=
  (StableHlo.after_of_writes_sub hostOps2_2 _ hostOps2_2_writes h22).trans (at6 m c b h0 hr0 h1 hr1 h2 h21)
theorem at8 (b : Ref sig .tc) (h0 : b ∉ hostOps0_W) (hr0 : b ∉ ([main_v4] : List (Ref sig .tc))) (h1 : b ∉ hostOps1_W)
    (hr1 : b ∉ ([main_v12] : List (Ref sig .tc))) (h2 : b ∉ hostOps2_W) (h21 : b ∉ hostOps2_1_W) (h22 : b ∉ hostOps2_2_W)
    (h23 : b ∉ hostOps2_3_W) : W8 m c (Proc.devRef .tc b) = m ((c.tc : Thread nD τ).loc b) :=
  (StableHlo.after_of_writes_sub hostOps2_3 _ hostOps2_3_writes h23).trans (at7 m c b h0 hr0 h1 hr1 h2 h21 h22)
theorem at9 (b : Ref sig .tc) (h0 : b ∉ hostOps0_W) (hr0 : b ∉ ([main_v4] : List (Ref sig .tc))) (h1 : b ∉ hostOps1_W)
    (hr1 : b ∉ ([main_v12] : List (Ref sig .tc))) (h2 : b ∉ hostOps2_W) (h21 : b ∉ hostOps2_1_W) (h22 : b ∉ hostOps2_2_W)
    (h23 : b ∉ hostOps2_3_W) (hr2 : b ∉ ([main_v17_0, main_v17_1, main_v17_2] : List (Ref sig .tc))) :
    W9 m c (Proc.devRef .tc b) = m ((c.tc : Thread nD τ).loc b) :=
  (W9_keep m c b hr2).trans (at8 m c b h0 hr0 h1 hr1 h2 h21 h22 h23)
theorem at11 (b : Ref sig .tc) (h0 : b ∉ hostOps0_W) (hr0 : b ∉ ([main_v4] : List (Ref sig .tc))) (h1 : b ∉ hostOps1_W)
    (hr1 : b ∉ ([main_v12] : List (Ref sig .tc))) (h2 : b ∉ hostOps2_W) (h21 : b ∉ hostOps2_1_W) (h22 : b ∉ hostOps2_2_W)
    (h23 : b ∉ hostOps2_3_W) (hr2 : b ∉ ([main_v17_0, main_v17_1, main_v17_2] : List (Ref sig .tc))) (h3 : b ∉ hostOps3_W)
    (hr3 : b ∉ ([main_v31] : List (Ref sig .tc))) : W11 m c (Proc.devRef .tc b) = m ((c.tc : Thread nD τ).loc b) :=
  (W11_keep m c b hr3).trans ((StableHlo.after_of_writes_sub hostOps3 _ hostOps3_writes h3).trans (at9 m c b h0 hr0 h1 hr1 h2 h21 h22 h23 hr2))

/-! ## Regions 0 and 1: the projections -/

theorem in1_arg0 : Vin1 m c main_arg0 = (a0 m c) := at1 m c main_arg0 (by decide)
theorem in1_v3 : Vin1 m c main_v3 = concatenate S128x384 1 [⟨S128x128, transpose S128x128 [1, 0] (a4 m c) transposes_S128x128_S128x128_1_0⟩,
      ⟨S128x128, transpose S128x128 [1, 0] (a5 m c) transposes_S128x128_S128x128_1_0⟩,
      ⟨S128x128, transpose S128x128 [1, 0] (a6 m c) transposes_S128x128_S128x128_1_0⟩] concatenates_S128x128_S128x128_S128x128_S128x384_d1 :=
  read_v3 (W0 m c)
theorem w2_v4 : W2 m c (Proc.devRef .tc main_v4) = (dat0 (Vin1 m) c).arrAt 2 cfg0.N := W2_arr m c 2

/-- The query projection. -/
theorem w3_Q : W3 m c (Proc.devRef .tc main_v6) = Cert.ReferenceIdeal.Read.val_main_v2 (F := Ideal) (a0 m c) (a4 m c) := by
  refine (read_v6 (W2 m c)).trans ?_
  rw [w2_v4]
  exact region0_Q (Vin1 m) c (a0 m c) (a4 m c) (a5 m c) (a6 m c) (in1_arg0 m c) (in1_v3 m c)
/-- The key projection. -/
theorem w3_K : W3 m c (Proc.devRef .tc main_v8) = Cert.ReferenceIdeal.Read.val_main_v5 (F := Ideal) (a0 m c) (a5 m c) := by
  refine (read_v8 (W2 m c)).trans ?_
  rw [w2_v4]
  exact region0_K (Vin1 m) c (a0 m c) (a4 m c) (a5 m c) (a6 m c) (in1_arg0 m c) (in1_v3 m c)
/-- The value projection. -/
theorem w3_V : W3 m c (Proc.devRef .tc main_v10) = Cert.ReferenceIdeal.Read.val_main_v8 (F := Ideal) (a0 m c) (a6 m c) := by
  refine (read_v10 (W2 m c)).trans ?_
  rw [w2_v4]
  exact region0_V (Vin1 m) c (a0 m c) (a4 m c) (a5 m c) (a6 m c) (in1_arg0 m c) (in1_v3 m c)
theorem in3_v11 : Vin3 m c main_v11 = transpose S128x128 [1, 0] (a7 m c) transposes_S128x128_S128x128_1_0 := by
  refine (read_v11 (W2 m c)).trans ?_
  rw [at2 m c main_arg7 (by decide) (by decide)]
theorem in3_arg1 : Vin3 m c main_arg1 = (a1 m c) := at3 m c main_arg1 (by decide) (by decide) (by decide)
theorem w4_v12 : W4 m c (Proc.devRef .tc main_v12) = (dat1 (Vin3 m) c).arrAt 2 cfg1.N := W4_arr m c 2
/-- The edge projection. -/
theorem w5_pe : W5 m c (Proc.devRef .tc main_v13) = Cert.ReferenceIdeal.Read.val_main_v11 (F := Ideal) (a1 m c) (a7 m c) := by
  refine (read_v13 (W4 m c)).trans ?_
  rw [w4_v12]
  exact region1_pe (Vin3 m) c (a1 m c) (a7 m c) (in3_arg1 m c) (in3_v11 m c)

/-! ## The gathers -/

variable (hpre : Cert.Pre_KernelIdeal m)

theorem w5_K : W5 m c (Proc.devRef .tc main_v8) = Cert.ReferenceIdeal.Read.val_main_v5 (F := Ideal) (a0 m c) (a5 m c) :=
  ((StableHlo.after_of_writes_sub hostOps2 _ hostOps2_writes (by decide : (main_v8 : Ref sig .tc) ∉ hostOps2_W)).trans (W4_keep m c main_v8 (by decide))).trans (w3_K m c)
theorem w6_Q : W6 m c (Proc.devRef .tc main_v6) = Cert.ReferenceIdeal.Read.val_main_v2 (F := Ideal) (a0 m c) (a4 m c) :=
  ((StableHlo.after_of_writes_sub hostOps2_1 _ hostOps2_1_writes (by decide : (main_v6 : Ref sig .tc) ∉ hostOps2_1_W)).trans ((StableHlo.after_of_writes_sub hostOps2 _ hostOps2_writes (by decide : (main_v6 : Ref sig .tc) ∉ hostOps2_W)).trans (W4_keep m c main_v6 (by decide)))).trans (w3_Q m c)
theorem w7_V : W7 m c (Proc.devRef .tc main_v10) = Cert.ReferenceIdeal.Read.val_main_v8 (F := Ideal) (a0 m c) (a6 m c) :=
  ((StableHlo.after_of_writes_sub hostOps2_2 _ hostOps2_2_writes (by decide : (main_v10 : Ref sig .tc) ∉ hostOps2_2_W)).trans ((StableHlo.after_of_writes_sub hostOps2_1 _ hostOps2_1_writes (by decide : (main_v10 : Ref sig .tc) ∉ hostOps2_1_W)).trans ((StableHlo.after_of_writes_sub hostOps2 _ hostOps2_writes (by decide : (main_v10 : Ref sig .tc) ∉ hostOps2_W)).trans (W4_keep m c main_v10 (by decide))))).trans (w3_V m c)
theorem w5_arg2 : W5 m c (Proc.devRef .tc main_arg2) = (a2 m c) := at5 m c main_arg2 (by decide) (by decide) (by decide) (by decide) (by decide)
theorem w6_arg3 : W6 m c (Proc.devRef .tc main_arg3) = (a3 m c) := at6 m c main_arg3 (by decide) (by decide) (by decide) (by decide) (by decide) (by decide)
theorem w7_arg2 : W7 m c (Proc.devRef .tc main_arg2) = (a2 m c) := at7 m c main_arg2 (by decide) (by decide) (by decide) (by decide) (by decide) (by decide) (by decide)

include hpre in
/-- The gathered keys. -/
theorem w6_ksrc : W6 m c (Proc.devRef .tc main_v14) = Cert.ReferenceIdeal.Read.val_main_v18 (F := Ideal) (a0 m c) (a2 m c) (a5 m c) := by
  refine (take_read_call0 (W5 m c) (by rw [w5_arg2]; exact (pre_idx m hpre c).1)).trans ?_
  rw [w5_K, w5_arg2]
  rfl
include hpre in
/-- The gathered queries. -/
theorem w7_qdst : W7 m c (Proc.devRef .tc main_v15) = Cert.ReferenceIdeal.Read.val_main_v25 (F := Ideal) (a0 m c) (a3 m c) (a4 m c) := by
  refine (take_read_call1 (W6 m c) (by rw [w6_arg3]; exact (pre_idx m hpre c).2)).trans ?_
  rw [w6_Q, w6_arg3]
  rfl
include hpre in
/-- The gathered values. -/
theorem w8_vsrc : W8 m c (Proc.devRef .tc main_v16) = Cert.ReferenceIdeal.Read.val_main_v41 (F := Ideal) (a0 m c) (a2 m c) (a6 m c) := by
  refine (take_read_call2 (W7 m c) (by rw [w7_arg2]; exact (pre_idx m hpre c).1)).trans ?_
  rw [w7_V, w7_arg2]
  rfl

/-! ## Region 2: scores, weights, weighted values -/

include hpre in
theorem in8_v14 : Vin8 m c main_v14 = Cert.ReferenceIdeal.Read.val_main_v18 (F := Ideal) (a0 m c) (a2 m c) (a5 m c) :=
  ((StableHlo.after_of_writes_sub hostOps2_3 _ hostOps2_3_writes (by decide : (main_v14 : Ref sig .tc) ∉ hostOps2_3_W)).trans (StableHlo.after_of_writes_sub hostOps2_2 _ hostOps2_2_writes (by decide : (main_v14 : Ref sig .tc) ∉ hostOps2_2_W))).trans (w6_ksrc m c hpre)
include hpre in
theorem in8_v15 : Vin8 m c main_v15 = Cert.ReferenceIdeal.Read.val_main_v25 (F := Ideal) (a0 m c) (a3 m c) (a4 m c) :=
  (StableHlo.after_of_writes_sub hostOps2_3 _ hostOps2_3_writes (by decide : (main_v15 : Ref sig .tc) ∉ hostOps2_3_W)).trans (w7_qdst m c hpre)
include hpre in
theorem in8_v16 : Vin8 m c main_v16 = Cert.ReferenceIdeal.Read.val_main_v41 (F := Ideal) (a0 m c) (a2 m c) (a6 m c) := w8_vsrc m c hpre
theorem in8_v13 : Vin8 m c main_v13 = Cert.ReferenceIdeal.Read.val_main_v11 (F := Ideal) (a1 m c) (a7 m c) :=
  ((StableHlo.after_of_writes_sub hostOps2_3 _ hostOps2_3_writes (by decide : (main_v13 : Ref sig .tc) ∉ hostOps2_3_W)).trans ((StableHlo.after_of_writes_sub hostOps2_2 _ hostOps2_2_writes (by decide : (main_v13 : Ref sig .tc) ∉ hostOps2_2_W)).trans (StableHlo.after_of_writes_sub hostOps2_1 _ hostOps2_1_writes (by decide : (main_v13 : Ref sig .tc) ∉ hostOps2_1_W)))).trans (w5_pe m c)

include hpre in
theorem w9_score : W9 m c (Proc.devRef .tc main_v17_0)
    = Cert.ReferenceIdeal.Read.val_main_v30 (F := Ideal) (a0 m c) (a1 m c) (a2 m c) (a3 m c) (a4 m c) (a5 m c) (a7 m c) :=
  (W9_arr m c 4).trans (((region2_values (Vin8 m) c _ _ _ _ (in8_v14 m c hpre) (in8_v15 m c hpre) (in8_v16 m c hpre) (in8_v13 m c)).1).trans
    (refScore_eq (a0 m c) (a1 m c) (a2 m c) (a3 m c) (a4 m c) (a5 m c) (a7 m c)).symm)
include hpre in
theorem w9_s : W9 m c (Proc.devRef .tc main_v17_1)
    = Cert.ReferenceIdeal.Read.val_main_v34 (F := Ideal) (a0 m c) (a1 m c) (a2 m c) (a3 m c) (a4 m c) (a5 m c) (a7 m c) :=
  (W9_arr m c 5).trans (((region2_values (Vin8 m) c _ _ _ _ (in8_v14 m c hpre) (in8_v15 m c hpre) (in8_v16 m c hpre) (in8_v13 m c)).2.1).trans
    (refS_eq (a0 m c) (a1 m c) (a2 m c) (a3 m c) (a4 m c) (a5 m c) (a7 m c)).symm)
include hpre in
theorem w9_wv : W9 m c (Proc.devRef .tc main_v17_2)
    = Cert.ReferenceIdeal.Read.val_main_v43 (F := Ideal) (a0 m c) (a1 m c) (a2 m c) (a3 m c) (a4 m c) (a5 m c) (a6 m c) (a7 m c) :=
  (W9_arr m c 6).trans (((region2_values (Vin8 m) c _ _ _ _ (in8_v14 m c hpre) (in8_v15 m c hpre) (in8_v16 m c hpre) (in8_v13 m c)).2.2).trans
    (refWv_eq (a0 m c) (a1 m c) (a2 m c) (a3 m c) (a4 m c) (a5 m c) (a6 m c) (a7 m c)).symm)

/-! ## The aggregation and region 3 -/

theorem w9_arg3 : W9 m c (Proc.devRef .tc main_arg3) = (a3 m c) :=
  at9 m c main_arg3 (by decide) (by decide) (by decide) (by decide) (by decide) (by decide) (by decide) (by decide) (by decide)
include hpre in
/-- The aggregated node features. -/
theorem in10_v28 : Vin10 m c main_v28
    = Cert.ReferenceIdeal.Read.val_main_v54 (F := Ideal) (a0 m c) (a1 m c) (a2 m c) (a3 m c) (a4 m c) (a5 m c) (a6 m c) (a7 m c) := by
  refine (read_v28 (W9 m c)).trans ?_
  rw [w9_wv m c hpre, w9_s m c hpre, w9_arg3]
  rfl
theorem in10_v29 : Vin10 m c main_v29 = transpose S128x256 [1, 0] (a8 m c) transposes_S256x128_S128x256_1_0 := by
  refine (read_v29 (W9 m c)).trans ?_
  rw [at9 m c main_arg8 (by decide) (by decide) (by decide) (by decide) (by decide) (by decide) (by decide) (by decide) (by decide)]
theorem in10_v30 : Vin10 m c main_v30 = transpose S256x128 [1, 0] (a9 m c) transposes_S128x256_S256x128_1_0 := by
  refine (read_v30 (W9 m c)).trans ?_
  rw [at9 m c main_arg9 (by decide) (by decide) (by decide) (by decide) (by decide) (by decide) (by decide) (by decide) (by decide)]

include hpre in
/-- The first result: the node network's output. -/
theorem w13_v31 : W13 m c (Proc.devRef .tc main_v31)
    = Cert.ReferenceIdeal.Read.val_main_v59 (F := Ideal) (a0 m c) (a1 m c) (a2 m c) (a3 m c) (a4 m c) (a5 m c) (a6 m c) (a7 m c) (a8 m c) (a9 m c) :=
  ((W13_keep m c main_v31 (by decide)).trans (StableHlo.after_of_writes_sub hostOps4 _ hostOps4_writes (by decide : (main_v31 : Ref sig .tc) ∉ hostOps4_W))).trans
    ((W11_arr m c 3).trans ((region3_out (Vin10 m) c _ (a8 m c) (a9 m c) (in10_v28 m c hpre) (in10_v29 m c) (in10_v30 m c)).trans
      (refFfnN_eq (a0 m c) (a1 m c) (a2 m c) (a3 m c) (a4 m c) (a5 m c) (a6 m c) (a7 m c) (a8 m c) (a9 m c)).symm))

/-! ## Region 4 -/

include hpre in
theorem in12_v34 : Vin12 m c main_v34
    = Cert.ReferenceIdeal.Read.val_main_v60 (F := Ideal) (a0 m c) (a1 m c) (a2 m c) (a3 m c) (a4 m c) (a5 m c) (a7 m c) := by
  refine (read_v34 (W11 m c)).trans ?_
  rw [show W11 m c (Proc.devRef .tc main_v17_0) = W9 m c (Proc.devRef .tc main_v17_0) from
    (W11_keep m c main_v17_0 (by decide)).trans (StableHlo.after_of_writes_sub hostOps3 _ hostOps3_writes (by decide : (main_v17_0 : Ref sig .tc) ∉ hostOps3_W)), w9_score m c hpre]
  rfl
theorem in12_v32 : Vin12 m c main_v32 = transpose S128x256 [1, 0] (a10 m c) transposes_S256x128_S128x256_1_0 := by
  refine (read_v32 (W11 m c)).trans ?_
  rw [at11 m c main_arg10 (by decide) (by decide) (by decide) (by decide) (by decide) (by decide) (by decide) (by decide) (by decide) (by decide) (by decide)]
theorem in12_v33 : Vin12 m c main_v33 = transpose S256x128 [1, 0] (a11 m c) transposes_S128x256_S256x128_1_0 := by
  refine (read_v33 (W11 m c)).trans ?_
  rw [at11 m c main_arg11 (by decide) (by decide) (by decide) (by decide) (by decide) (by decide) (by decide) (by decide) (by decide) (by decide) (by decide)]

include hpre in
/-- The second result: the edge network's output. -/
theorem w13_v35 : W13 m c (Proc.devRef .tc main_v35)
    = Cert.ReferenceIdeal.Read.val_main_v65 (F := Ideal) (a0 m c) (a1 m c) (a2 m c) (a3 m c) (a4 m c) (a5 m c) (a7 m c) (a10 m c) (a11 m c) :=
  (W13_arr m c 3).trans ((region4_out (Vin12 m) c _ (a10 m c) (a11 m c) (in12_v34 m c hpre) (in12_v32 m c) (in12_v33 m c)).trans
    (refFfnE_eq (a0 m c) (a1 m c) (a2 m c) (a3 m c) (a4 m c) (a5 m c) (a7 m c) (a10 m c) (a11 m c)).symm)

end Cert.KernelIdeal.Val

end
-- ==== Proof.RefFrame.lean ====
/-
  The reference program is a straight line of host operations: it runs to the end from any memory, and its argument
  buffers are never written. Its frame is its run with the result components dropped.
-/
import proofs.«411279_j64037962384024_2_alg».proof.Defs
import proofs.«411279_j64037962384024_2_alg».proof.Proof.Gen.ReferenceIdeal
import proofs.«411279_j64037962384024_2_alg».proof.Proof.Gen.ReferenceIdeal.Run
import proofs.«411279_j64037962384024_2_alg».proof.Proof.Gen.ReferenceIdeal.Read
import proofs.«411279_j64037962384024_2_alg».proof.Proof.Gen.Pre_finite_inputs

noncomputable section

namespace Cert.Proof.RefFrame

open Idealize.ShloMosaic Idealize.ShloMosaic.TcCoe Idealize.SL.Sem

theorem frame_ri : Cert.frame_ReferenceIdeal := fun m ρ _ =>
  (θ_run Cert.ReferenceIdeal.defs _ _).mono (fun _ h c => (h c).2.2) (Cert.ReferenceIdeal.Value.run (F := Ideal) m ρ)

end Cert.Proof.RefFrame

end
-- ==== Proof.lean ====
/-
  The certificate's proof. A graph-attention layer: node projections Q, K, V and an edge projection; per edge the
  clipped product K[src] * Q[dst] / sqrt(32) times the edge projection (the edge output before its network), its
  per-head sum clipped and exponentiated (the weight), the weighted V[src]; per node the sums of the weighted values
  and of the weights over the incoming edges and their quotient; then a two-layer SiLU network on the nodes and one on
  the edges. The kernel computes the three node projections as ONE product with the three transposed weights side by
  side, tiles every product and the per-edge arithmetic over blocks of rows, multiplies by a constant named 1/D where
  the reference divides by the f32 word D of sqrt(32), writes SiLU as x * logistic(x), and gathers with jnp.take,
  which agrees with plain indexing exactly when the indices are in range: the precondition asks 0 <= src, dst < N.
  At the ideal instance every one of these is an identity of extended reals, with no use of finiteness.
  The three frames: each kernel program is a list of host stretches and five pallas_call regions, each region of
  the plainest class (whole-buffer loads and one store per output); the reference is a straight line of host operations.
-/
import proofs.«411279_j64037962384024_2_alg».proof.Defs
import proofs.«411279_j64037962384024_2_alg».proof.Proof.Gen.Kernel
import proofs.«411279_j64037962384024_2_alg».proof.Proof.Gen.KernelIdeal
import proofs.«411279_j64037962384024_2_alg».proof.Proof.Gen.ReferenceIdeal
import proofs.«411279_j64037962384024_2_alg».proof.Proof.Gen.Pre_finite_inputs
import proofs.«411279_j64037962384024_2_alg».proof.Proof.KRun
import proofs.«411279_j64037962384024_2_alg».proof.Proof.KiRun
import proofs.«411279_j64037962384024_2_alg».proof.Proof.KiAsm
import proofs.«411279_j64037962384024_2_alg».proof.Proof.RefFrame
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ

/-- The one rewrite of the idealization: the kernel's word 0x3E3504F3 is read as the rational 2097152/11863283. -/
theorem preserves : Cert.preserves_Kernel_KernelIdeal :=
  IdealRules.named_const.statement Cert.KernelIdeal.κ "inv_scale" .f32 0x3E3504F3#32 ((2097152 / 11863283 : ℝ) : EReal) rfl

/-- Both programs end with the same two arrays: the kernel's are what its last boundary holds, and those are the
    reference's two result terms of the same arguments. -/
theorem algebraic : Cert.algebraic_KernelIdeal_ReferenceIdeal := by
  intro m ρ m' ρ' hpre hagree
  refine ⟨fun c => Cert.KernelIdeal.Hand.W13 m c (Proc.devRef .tc Cert.KernelIdeal.main_v31), fun c => Cert.KernelIdeal.Hand.W13 m c (Proc.devRef .tc Cert.KernelIdeal.main_v35), ?_, ?_⟩
  · exact (θ_run Cert.KernelIdeal.defs _ _).mono (fun r h c => ⟨h c _ (Cert.KernelIdeal.Hand.mem_uc Cert.KernelIdeal.main_v31 (by decide)), h c _ (Cert.KernelIdeal.Hand.mem_uc Cert.KernelIdeal.main_v35 (by decide)),
      (h c _ (Cert.KernelIdeal.Hand.mem_uc Cert.KernelIdeal.main_arg0 (by decide))).trans (Cert.KernelIdeal.Hand.W13_main_arg0 m c),
      (h c _ (Cert.KernelIdeal.Hand.mem_uc Cert.KernelIdeal.main_arg1 (by decide))).trans (Cert.KernelIdeal.Hand.W13_main_arg1 m c),
      (h c _ (Cert.KernelIdeal.Hand.mem_uc Cert.KernelIdeal.main_arg2 (by decide))).trans (Cert.KernelIdeal.Hand.W13_main_arg2 m c),
      (h c _ (Cert.KernelIdeal.Hand.mem_uc Cert.KernelIdeal.main_arg3 (by decide))).trans (Cert.KernelIdeal.Hand.W13_main_arg3 m c),
      (h c _ (Cert.KernelIdeal.Hand.mem_uc Cert.KernelIdeal.main_arg4 (by decide))).trans (Cert.KernelIdeal.Hand.W13_main_arg4 m c),
      (h c _ (Cert.KernelIdeal.Hand.mem_uc Cert.KernelIdeal.main_arg5 (by decide))).trans (Cert.KernelIdeal.Hand.W13_main_arg5 m c),
      (h c _ (Cert.KernelIdeal.Hand.mem_uc Cert.KernelIdeal.main_arg6 (by decide))).trans (Cert.KernelIdeal.Hand.W13_main_arg6 m c),
      (h c _ (Cert.KernelIdeal.Hand.mem_uc Cert.KernelIdeal.main_arg7 (by decide))).trans (Cert.KernelIdeal.Hand.W13_main_arg7 m c),
      (h c _ (Cert.KernelIdeal.Hand.mem_uc Cert.KernelIdeal.main_arg8 (by decide))).trans (Cert.KernelIdeal.Hand.W13_main_arg8 m c),
      (h c _ (Cert.KernelIdeal.Hand.mem_uc Cert.KernelIdeal.main_arg9 (by decide))).trans (Cert.KernelIdeal.Hand.W13_main_arg9 m c),
      (h c _ (Cert.KernelIdeal.Hand.mem_uc Cert.KernelIdeal.main_arg10 (by decide))).trans (Cert.KernelIdeal.Hand.W13_main_arg10 m c),
      (h c _ (Cert.KernelIdeal.Hand.mem_uc Cert.KernelIdeal.main_arg11 (by decide))).trans (Cert.KernelIdeal.Hand.W13_main_arg11 m c)⟩)
      (Cert.KernelIdeal.Hand.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v59_eq, (hagree c).1, (hagree c).2.1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2.1, (hagree c).2.2.2.2.2.2.2.2.2.1]
      exact (Cert.KernelIdeal.Val.w13_v31 m c hpre).symm
    · rw [Cert.ReferenceIdeal.Read.val_main_v65_eq, (hagree c).1, (hagree c).2.1, (hagree c).2.2.1, (hagree c).2.2.2.1, (hagree c).2.2.2.2.1,
        (hagree c).2.2.2.2.2.1, (hagree c).2.2.2.2.2.2.2.1, (hagree c).2.2.2.2.2.2.2.2.2.2.1, (hagree c).2.2.2.2.2.2.2.2.2.2.2]
      exact (Cert.KernelIdeal.Val.w13_v35 m c hpre).symm

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, preserves, algebraic⟩

end Cert.Proof

end
